-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_
  bcast_S_S2x640000 : S_.BroadcastsInDim S2x640000 (![] : Fin 0 → Fin S2x640000.rank)
  reducesTo_S2x640000_S_d0_1 : S2x640000.ReducesTo [0, 1] S_

variable [Facts]

def fn_part2 {F : FTy → Type} [FloatOps F] (main_arg1 : IVec S2x640000 32) (main_v33 : IVec S_ 1) : IVec S_ 1 :=
  let main_c_12 : IVec S_ 32 := constantI S_ 32 0#32
  let main_v34 : IVec S2x640000 32 := broadcastInDim S2x640000 ![] bcast_S_S2x640000 main_c_12
  let main_v35 : IVec S2x640000 1 := cmpi .sge main_arg1 main_v34
  let main_c_13 : IVec S_ 32 := constantI S_ 32 10000#32
  let main_v36 : IVec S2x640000 32 := broadcastInDim S2x640000 ![] bcast_S_S2x640000 main_c_13
  let main_v37 : IVec S2x640000 1 := cmpi .slt main_arg1 main_v36
  let main_v38 : IVec S2x640000 1 := andi main_v35 main_v37
  let main_c_14 : IVec S_ 1 := constantI S_ 1 1#1
  let main_v39 : IVec S_ 1 := (fun x v => Host.reduce IntOp.andi x v reducesTo_S2x640000_S_d0_1 h_S_) main_v38 main_c_14
  let main_v40 : IVec S_ 1 := andi main_v33 main_v39
  main_v40

def fn_part1 {F : FTy → Type} [FloatOps F] (main_arg1 : IVec S2x640000 32) (main_arg5 : FVec F S128 .f32) (main_arg6 : FVec F S128x40 .f32) (main_arg7 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  fn_part2 (F := F) main_arg1 main_v33

def fn {F : FTy → Type} [FloatOps F] (main_arg0 : FVec F S10000x128 .f32) (main_arg1 : IVec S2x640000 32) (main_arg2 : FVec F S128x128 .f32) (main_arg3 : FVec F S128 .f32) (main_arg4 : FVec F S128x128 .f32) (main_arg5 : FVec F S128 .f32) (main_arg6 : FVec F S128x40 .f32) (main_arg7 : FVec F S40 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_v13 main_v16
-- ==== Kernel.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x640000 : Shape := ⟨2, ![1, 640000]⟩
abbrev S640000 : Shape := ⟨1, ![640000]⟩
abbrev S10000 : Shape := ⟨1, ![10000]⟩
abbrev S650000 : Shape := ⟨1, ![650000]⟩
abbrev S_ : Shape := ⟨0, ![]⟩
abbrev S650000x1 : Shape := ⟨2, ![650000, 1]⟩
abbrev S10240x10240 : Shape := ⟨2, ![10240, 10240]⟩
abbrev S650000x2 : Shape := ⟨2, ![650000, 2]⟩
abbrev S10240x128 : Shape := ⟨2, ![10240, 128]⟩
abbrev S1 : Shape := ⟨1, ![1]⟩
abbrev S1x128 : Shape := ⟨2, ![1, 128]⟩
abbrev S2560x2560 : Shape := ⟨2, ![2560, 2560]⟩
abbrev S2560x128 : Shape := ⟨2, ![2560, 128]⟩
abbrev S10000x1 : Shape := ⟨2, ![10000, 1]⟩
abbrev S10000x40 : Shape := ⟨2, ![10000, 40]⟩
abbrev S1x40 : Shape := ⟨2, ![1, 40]⟩

abbrev nBuf : Space → Nat
  | .hbm => 97
  | .vmem => 14
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S10000, .i32⟩
  | .hbm, ⟨13, _⟩ => ⟨S650000, .i32⟩
  | .hbm, ⟨14, _⟩ => ⟨S650000, .i32⟩
  | .hbm, ⟨15, _⟩ => ⟨S_, .f32⟩
  | .hbm, ⟨16, _⟩ => ⟨S650000, .f32⟩
  | .hbm, ⟨17, _⟩ => ⟨S_, .f32⟩
  | .hbm, ⟨18, _⟩ => ⟨S10000, .f32⟩
  | .hbm, ⟨19, _⟩ => ⟨S650000x1, .i32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000, .f32⟩
  | .hbm, ⟨25, _⟩ => ⟨S_, .i32⟩
  | .hbm, ⟨26, _⟩ => ⟨S650000, .i32⟩
  | .hbm, ⟨27, _⟩ => ⟨S650000, .i1⟩
  | .hbm, ⟨28, _⟩ => ⟨S_, .i32⟩
  | .hbm, ⟨29, _⟩ => ⟨S650000, .i32⟩
  | .hbm, ⟨30, _⟩ => ⟨S650000, .i32⟩
  | .hbm, ⟨31, _⟩ => ⟨S650000, .i32⟩
  | .hbm, ⟨32, _⟩ => ⟨S650000x1, .i32⟩
  | .hbm, ⟨33, _⟩ => ⟨S650000, .f32⟩
  | .hbm, ⟨34, _⟩ => ⟨S_, .i32⟩
  | .hbm, ⟨35, _⟩ => ⟨S650000, .i32⟩
  | .hbm, ⟨36, _⟩ => ⟨S650000, .i1⟩
  | .hbm, ⟨37, _⟩ => ⟨S_, .i32⟩
  | .hbm, ⟨38, _⟩ => ⟨S650000, .i32⟩
  | .hbm, ⟨39, _⟩ => ⟨S650000, .i32⟩
  | .hbm, ⟨40, _⟩ => ⟨S650000, .i32⟩
  | .hbm, ⟨41, _⟩ => ⟨S650000x1, .i32⟩
  | .hbm, ⟨42, _⟩ => ⟨S650000, .f32⟩
  | .hbm, ⟨43, _⟩ => ⟨S650000, .f32⟩
  | .hbm, ⟨44, _⟩ => ⟨S_, .f32⟩
  | .hbm, ⟨45, _⟩ => ⟨S10240x10240, .f32⟩
  | .hbm, ⟨46, _⟩ => ⟨S_, .i32⟩
  | .hbm, ⟨47, _⟩ => ⟨S650000, .i32⟩
  | .hbm, ⟨48, _⟩ => ⟨S650000, .i1⟩
  | .hbm, ⟨49, _⟩ => ⟨S_, .i32⟩
  | .hbm, ⟨50, _⟩ => ⟨S650000, .i32⟩
  | .hbm, ⟨51, _⟩ => ⟨S650000, .i32⟩
  | .hbm, ⟨52, _⟩ => ⟨S650000, .i32⟩
  | .hbm, ⟨53, _⟩ => ⟨S_, .i32⟩
  | .hbm, ⟨54, _⟩ => ⟨S650000, .i32⟩
  | .hbm, ⟨55, _⟩ => ⟨S650000, .i1⟩
  | .hbm, ⟨56, _⟩ => ⟨S_, .i32⟩
  | .hbm, ⟨57, _⟩ => ⟨S650000, .i32⟩
  | .hbm, ⟨58, _⟩ => ⟨S650000, .i32⟩
  | .hbm, ⟨59, _⟩ => ⟨S650000, .i32⟩
  | .hbm, ⟨60, _⟩ => ⟨S650000x1, .i32⟩
  | .hbm, ⟨61, _⟩ => ⟨S650000x1, .i32⟩
  | .hbm, ⟨62, _⟩ => ⟨S650000x2, .i32⟩
  | .hbm, ⟨63, _⟩ => ⟨S10240x10240, .f32⟩
  | .hbm, ⟨64, _⟩ => ⟨S10240x10240, .bf16⟩
  | .hbm, ⟨65, _⟩ => ⟨S_, .f32⟩
  | .hbm, ⟨66, _⟩ => ⟨S10240x128, .f32⟩
  | .hbm, ⟨67, _⟩ => ⟨S_, .i32⟩
  | .hbm, ⟨68, _⟩ => ⟨S1, .i32⟩
  | .hbm, ⟨69, _⟩ => ⟨S10240x128, .f32⟩
  | .hbm, ⟨70, _⟩ => ⟨S10240x128, .f32⟩
  | .hbm, ⟨71, _⟩ => ⟨S1x128, .f32⟩
  | .hbm, ⟨72, _⟩ => ⟨S10240x128, .f32⟩
  | .hbm, ⟨73, _⟩ => ⟨S10240x128, .f32⟩
  | .hbm, ⟨74, _⟩ => ⟨S10240x128, .bf16⟩
  | .hbm, ⟨75, _⟩ => ⟨S10240x128, .f32⟩
  | .hbm, ⟨76, _⟩ => ⟨S10240x128, .f32⟩
  | .hbm, ⟨77, _⟩ => ⟨S1x128, .f32⟩
  | .hbm, ⟨78, _⟩ => ⟨S10240x128, .f32⟩
  | .hbm, ⟨79, _⟩ => ⟨S10240x128, .f32⟩
  | .hbm, ⟨80, _⟩ => ⟨S10240x128, .bf16⟩
  | .hbm, ⟨81, _⟩ => ⟨S10240x128, .f32⟩
  | .hbm, ⟨82, _⟩ => ⟨S10000x128, .f32⟩
  | .hbm, ⟨83, _⟩ => ⟨S10000x128, .f32⟩
  | .hbm, ⟨84, _⟩ => ⟨S_, .f32⟩
  | .hbm, ⟨85, _⟩ => ⟨S10000, .f32⟩
  | .hbm, ⟨86, _⟩ => ⟨S10000x1, .f32⟩
  | .hbm, ⟨87, _⟩ => ⟨S10000x1, .f32⟩
  | .hbm, ⟨88, _⟩ => ⟨S_, .f32⟩
  | .hbm, ⟨89, _⟩ => ⟨S10000x1, .f32⟩
  | .hbm, ⟨90, _⟩ => ⟨S10000x1, .f32⟩
  | .hbm, ⟨91, _⟩ => ⟨S10000x128, .f32⟩
  | .hbm, ⟨92, _⟩ => ⟨S10000x128, .f32⟩
  | .hbm, ⟨93, _⟩ => ⟨S10000x40, .f32⟩
  | .hbm, ⟨94, _⟩ => ⟨S1x40, .f32⟩
  | .hbm, ⟨95, _⟩ => ⟨S10000x40, .f32⟩
  | .hbm, ⟨96, _⟩ => ⟨S10000x40, .f32⟩
  | .local _ .vmem, ⟨0, _⟩ => ⟨S2560x2560, .bf16⟩
  | .local _ .vmem, ⟨1, _⟩ => ⟨S2560x2560, .bf16⟩
  | .local _ .vmem, ⟨2, _⟩ => ⟨S2560x128, .bf16⟩
  | .local _ .vmem, ⟨3, _⟩ => ⟨S2560x128, .bf16⟩
  | .local _ .vmem, ⟨4, _⟩ => ⟨S2560x128, .f32⟩
  | .local _ .vmem, ⟨5, _⟩ => ⟨S2560x128, .f32⟩
  | .local _ .vmem, ⟨6, _⟩ => ⟨S2560x128, .f32⟩
  | .local _ .vmem, ⟨7, _⟩ => ⟨S2560x2560, .bf16⟩
  | .local _ .vmem, ⟨8, _⟩ => ⟨S2560x2560, .bf16⟩
  | .local _ .vmem, ⟨9, _⟩ => ⟨S2560x128, .bf16⟩
  | .local _ .vmem, ⟨10, _⟩ => ⟨S2560x128, .bf16⟩
  | .local _ .vmem, ⟨11, _⟩ => ⟨S2560x128, .f32⟩
  | .local _ .vmem, ⟨12, _⟩ => ⟨S2560x128, .f32⟩
  | .local _ .vmem, ⟨13, _⟩ => ⟨S2560x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_c_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_c_11 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_12 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_13 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2560x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2560x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2560x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2560x2560 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2560x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2560x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S10000_S650000_d0 : Shape.Concatenates [S640000, S10000] S650000 0
  bcast_S_S650000 : S_.BroadcastsInDim S650000 (![] : Fin 0 → Fin S650000.rank)
  bcast_S_S10000 : S_.BroadcastsInDim S10000 (![] : Fin 0 → Fin S10000.rank)
  bcast_S650000_S650000x1_0 : S650000.BroadcastsInDim S650000x1 (![0] : Fin 1 → Fin S650000x1.rank)
  bcast_S_S10240x10240 : S_.BroadcastsInDim S10240x10240 (![] : Fin 0 → Fin S10240x10240.rank)
  concatenates_S650000x1_S650000x1_S650000x2_d1 : Shape.Concatenates [S650000x1, S650000x1] S650000x2 1
  bitsLt_bf16_f32 : FTy.bits .bf16 < FTy.bits .f32
  bcast_S_S10240x128 : S_.BroadcastsInDim S10240x128 (![] : Fin 0 → Fin S10240x128.rank)
  bcast_S_S1 : S_.BroadcastsInDim S1 (![] : Fin 0 → Fin S1.rank)
  bcast_S128_S1x128_1 : S128.BroadcastsInDim S1x128 (![1] : Fin 1 → Fin S1x128.rank)
  bcast_S1x128_S10240x128_0_1 : S1x128.BroadcastsInDim S10240x128 (![0, 1] : Fin 2 → Fin S10240x128.rank)
  inb_S2560x128_S2560x128_0_0 : ∀ a, (![0, 0] : Fin 2 → Nat) a + S2560x128.size a ≤ S2560x128.size a
  h_S2560x128 : 0 < S2560x128.numel
  shapeCasts_S2560x128_S2560x128 : S2560x128.ShapeCasts S2560x128
  inb_S2560x2560_S2560x2560_0_0 : ∀ a, (![0, 0] : Fin 2 → Nat) a + S2560x2560.size a ≤ S2560x2560.size a
  h_S2560x2560 : 0 < S2560x2560.numel
  shapeCasts_S2560x2560_S2560x2560 : S2560x2560.ShapeCasts S2560x2560
  slices_S10240x128_S10000x128_0_0 : S10240x128.Slices ![0, 0] S10000x128
  reducesTo_S10000x128_S10000_d1 : S10000x128.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  scatter_S10000_S650000x1_S650000_n_0_0_1_wf : ScatterDims.WF S10000 S650000x1 S650000 [] [0] [0] 1
  gather_S10000_S650000x1_S650000_n_0_n_n_0_1_1_wf : GatherDims.WF S10000 S650000x1 S650000 [] [0] [] [0] [] 1 ![1]
  scatter_S10240x10240_S650000x2_S650000_n_01_01_1_wf : ScatterDims.WF S10240x10240 S650000x2 S650000 [] [0, 1] [0, 1] 1
  scatter_S10240x128_S1_S10000x128_01_n_0_0_wf : ScatterDims.WF S10240x128 S1 S10000x128 [0, 1] [] [0] 0
  dot_S10240x128_S128x128_S10240x128_1_0_0_1_n_n_wf : DotDims.WF S10240x128 S128x128 S10240x128 [1] [0] [0] [1] [] []
  dot_S2560x2560_S2560x128_S2560x128_1_0_0_1_n_n_wf : DotDims.WF S2560x2560 S2560x128 S2560x128 [1] [0] [0] [1] [] []
  dot_S10000x128_S128x40_S10000x40_1_0_0_1_n_n_wf : DotDims.WF S10000x128 S128x40 S10000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2560x2560.size a ≤ S10240x10240.size a
  hwx0_0 : ∀ i : grid0.Coords, EltTy.bits .bf16 = 32 ∨ (Rect.block (s := S10240x10240) S2560x2560.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2560x128.size a ≤ S10240x128.size a
  hwx0_1 : ∀ i : grid0.Coords, EltTy.bits .bf16 = 32 ∨ (Rect.block (s := S10240x128) S2560x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2560x128.size a ≤ S10240x128.size a
  hwx0_2 : ∀ i : grid0.Coords, EltTy.bits .f32 = 32 ∨ (Rect.block (s := S10240x128) S2560x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2560x2560.size a ≤ S10240x10240.size a
  hwx1_0 : ∀ i : grid1.Coords, EltTy.bits .bf16 = 32 ∨ (Rect.block (s := S10240x10240) S2560x2560.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2560x128.size a ≤ S10240x128.size a
  hwx1_1 : ∀ i : grid1.Coords, EltTy.bits .bf16 = 32 ∨ (Rect.block (s := S10240x128) S2560x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2560x128.size a ≤ S10240x128.size a
  hwx1_2 : ∀ i : grid1.Coords, EltTy.bits .f32 = 32 ∨ (Rect.block (s := S10240x128) S2560x128.size (cc1_transform_2 i) (hinb1_2 i)).WholeWords (EltTy.packing .f32)

variable [Facts₀]

def scatter_S10000_S650000x1_S650000_n_0_0_1 : ScatterDims S10000 S650000x1 S650000 where
  updateWindowDims := []
  insertedWindowDims := [0]
  scatterDimsToOperandDims := [0]
  indexVectorDim := 1
  wf := scatter_S10000_S650000x1_S650000_n_0_0_1_wf
def gather_S10000_S650000x1_S650000_n_0_n_n_0_1_1 : GatherDims S10000 S650000x1 S650000 where
  offsetDims := []
  collapsedSliceDims := [0]
  operandBatchingDims := []
  startIndicesBatchingDims := []
  startIndexMap := [0]
  indexVectorDim := 1
  sliceSizes := ![1]
  wf := gather_S10000_S650000x1_S650000_n_0_n_n_0_1_1_wf
def scatter_S10240x10240_S650000x2_S650000_n_01_01_1 : ScatterDims S10240x10240 S650000x2 S650000 where
  updateWindowDims := []
  insertedWindowDims := [0, 1]
  scatterDimsToOperandDims := [0, 1]
  indexVectorDim := 1
  wf := scatter_S10240x10240_S650000x2_S650000_n_01_01_1_wf
def scatter_S10240x128_S1_S10000x128_01_n_0_0 : ScatterDims S10240x128 S1 S10000x128 where
  updateWindowDims := [0, 1]
  insertedWindowDims := []
  scatterDimsToOperandDims := [0]
  indexVectorDim := 0
  wf := scatter_S10240x128_S1_S10000x128_01_n_0_0_wf
def dot_S10240x128_S128x128_S10240x128_1_0_0_1_n_n : DotDims S10240x128 S128x128 S10240x128 where
  lhsContracting := [1]
  rhsContracting := [0]
  lhsNonContracting := [0]
  rhsNonContracting := [1]
  lhsBatch := []
  rhsBatch := []
  wf := dot_S10240x128_S128x128_S10240x128_1_0_0_1_n_n_wf
def dot_S2560x2560_S2560x128_S2560x128_1_0_0_1_n_n : DotDims S2560x2560 S2560x128 S2560x128 where
  lhsContracting := [1]
  rhsContracting := [0]
  lhsNonContracting := [0]
  rhsNonContracting := [1]
  lhsBatch := []
  rhsBatch := []
  wf := dot_S2560x2560_S2560x128_S2560x128_1_0_0_1_n_n_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf

abbrev win0_0 : Pipeline.Window sig grid0 :=
  Pipeline.Window.ofSpec (Memref.whole main_v44) S2560x2560.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v52) S2560x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v53) S2560x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v44) S2560x2560.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S2560x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v59) S2560x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x640000 : Shape := ⟨2, ![1, 640000]⟩
abbrev S640000 : Shape := ⟨1, ![640000]⟩
abbrev S10000 : Shape := ⟨1, ![10000]⟩
abbrev S650000 : Shape := ⟨1, ![650000]⟩
abbrev S_ : Shape := ⟨0, ![]⟩
abbrev S650000x1 : Shape := ⟨2, ![650000, 1]⟩
abbrev S1x128 : Shape := ⟨2, ![1, 128]⟩
abbrev S650000x128 : Shape := ⟨2, ![650000, 128]⟩
abbrev S10000x1 : Shape := ⟨2, ![10000, 1]⟩
abbrev S10000x40 : Shape := ⟨2, ![10000, 40]⟩
abbrev S1x40 : Shape := ⟨2, ![1, 40]⟩

abbrev nBuf : Space → Nat
  | .hbm => 104
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S10000, .i32⟩
  | .hbm, ⟨13, _⟩ => ⟨S650000, .i32⟩
  | .hbm, ⟨14, _⟩ => ⟨S650000, .i32⟩
  | .hbm, ⟨15, _⟩ => ⟨S_, .f32⟩
  | .hbm, ⟨16, _⟩ => ⟨S650000, .f32⟩
  | .hbm, ⟨17, _⟩ => ⟨S_, .f32⟩
  | .hbm, ⟨18, _⟩ => ⟨S10000, .f32⟩
  | .hbm, ⟨19, _⟩ => ⟨S650000x1, .i32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000, .f32⟩
  | .hbm, ⟨25, _⟩ => ⟨S_, .i32⟩
  | .hbm, ⟨26, _⟩ => ⟨S650000, .i32⟩
  | .hbm, ⟨27, _⟩ => ⟨S650000, .i1⟩
  | .hbm, ⟨28, _⟩ => ⟨S_, .i32⟩
  | .hbm, ⟨29, _⟩ => ⟨S650000, .i32⟩
  | .hbm, ⟨30, _⟩ => ⟨S650000, .i32⟩
  | .hbm, ⟨31, _⟩ => ⟨S650000, .i32⟩
  | .hbm, ⟨32, _⟩ => ⟨S650000x1, .i32⟩
  | .hbm, ⟨33, _⟩ => ⟨S650000, .f32⟩
  | .hbm, ⟨34, _⟩ => ⟨S_, .i32⟩
  | .hbm, ⟨35, _⟩ => ⟨S650000, .i32⟩
  | .hbm, ⟨36, _⟩ => ⟨S650000, .i1⟩
  | .hbm, ⟨37, _⟩ => ⟨S_, .i32⟩
  | .hbm, ⟨38, _⟩ => ⟨S650000, .i32⟩
  | .hbm, ⟨39, _⟩ => ⟨S650000, .i32⟩
  | .hbm, ⟨40, _⟩ => ⟨S650000, .i32⟩
  | .hbm, ⟨41, _⟩ => ⟨S650000x1, .i32⟩
  | .hbm, ⟨42, _⟩ => ⟨S650000, .f32⟩
  | .hbm, ⟨43, _⟩ => ⟨S650000, .f32⟩
  | .hbm, ⟨44, _⟩ => ⟨S10000x128, .f32⟩
  | .hbm, ⟨45, _⟩ => ⟨S1x128, .f32⟩
  | .hbm, ⟨46, _⟩ => ⟨S10000x128, .f32⟩
  | .hbm, ⟨47, _⟩ => ⟨S10000x128, .f32⟩
  | .hbm, ⟨48, _⟩ => ⟨S_, .i32⟩
  | .hbm, ⟨49, _⟩ => ⟨S650000, .i32⟩
  | .hbm, ⟨50, _⟩ => ⟨S650000, .i1⟩
  | .hbm, ⟨51, _⟩ => ⟨S_, .i32⟩
  | .hbm, ⟨52, _⟩ => ⟨S650000, .i32⟩
  | .hbm, ⟨53, _⟩ => ⟨S650000, .i32⟩
  | .hbm, ⟨54, _⟩ => ⟨S650000, .i32⟩
  | .hbm, ⟨55, _⟩ => ⟨S650000x1, .i32⟩
  | .hbm, ⟨56, _⟩ => ⟨S650000x128, .f32⟩
  | .hbm, ⟨57, _⟩ => ⟨S650000x1, .f32⟩
  | .hbm, ⟨58, _⟩ => ⟨S650000x128, .f32⟩
  | .hbm, ⟨59, _⟩ => ⟨S650000x128, .f32⟩
  | .hbm, ⟨60, _⟩ => ⟨S_, .f32⟩
  | .hbm, ⟨61, _⟩ => ⟨S10000x128, .f32⟩
  | .hbm, ⟨62, _⟩ => ⟨S650000x1, .i32⟩
  | .hbm, ⟨63, _⟩ => ⟨S10000x128, .f32⟩
  | .hbm, ⟨64, _⟩ => ⟨S_, .f32⟩
  | .hbm, ⟨65, _⟩ => ⟨S10000x128, .f32⟩
  | .hbm, ⟨66, _⟩ => ⟨S10000x128, .f32⟩
  | .hbm, ⟨67, _⟩ => ⟨S10000x128, .f32⟩
  | .hbm, ⟨68, _⟩ => ⟨S1x128, .f32⟩
  | .hbm, ⟨69, _⟩ => ⟨S10000x128, .f32⟩
  | .hbm, ⟨70, _⟩ => ⟨S10000x128, .f32⟩
  | .hbm, ⟨71, _⟩ => ⟨S_, .i32⟩
  | .hbm, ⟨72, _⟩ => ⟨S650000, .i32⟩
  | .hbm, ⟨73, _⟩ => ⟨S650000, .i1⟩
  | .hbm, ⟨74, _⟩ => ⟨S_, .i32⟩
  | .hbm, ⟨75, _⟩ => ⟨S650000, .i32⟩
  | .hbm, ⟨76, _⟩ => ⟨S650000, .i32⟩
  | .hbm, ⟨77, _⟩ => ⟨S650000, .i32⟩
  | .hbm, ⟨78, _⟩ => ⟨S650000x1, .i32⟩
  | .hbm, ⟨79, _⟩ => ⟨S650000x128, .f32⟩
  | .hbm, ⟨80, _⟩ => ⟨S650000x1, .f32⟩
  | .hbm, ⟨81, _⟩ => ⟨S650000x128, .f32⟩
  | .hbm, ⟨82, _⟩ => ⟨S650000x128, .f32⟩
  | .hbm, ⟨83, _⟩ => ⟨S_, .f32⟩
  | .hbm, ⟨84, _⟩ => ⟨S10000x128, .f32⟩
  | .hbm, ⟨85, _⟩ => ⟨S650000x1, .i32⟩
  | .hbm, ⟨86, _⟩ => ⟨S10000x128, .f32⟩
  | .hbm, ⟨87, _⟩ => ⟨S_, .f32⟩
  | .hbm, ⟨88, _⟩ => ⟨S10000x128, .f32⟩
  | .hbm, ⟨89, _⟩ => ⟨S10000x128, .f32⟩
  | .hbm, ⟨90, _⟩ => ⟨S10000x128, .f32⟩
  | .hbm, ⟨91, _⟩ => ⟨S_, .f32⟩
  | .hbm, ⟨92, _⟩ => ⟨S10000, .f32⟩
  | .hbm, ⟨93, _⟩ => ⟨S10000x1, .f32⟩
  | .hbm, ⟨94, _⟩ => ⟨S10000x1, .f32⟩
  | .hbm, ⟨95, _⟩ => ⟨S_, .f32⟩
  | .hbm, ⟨96, _⟩ => ⟨S10000x1, .f32⟩
  | .hbm, ⟨97, _⟩ => ⟨S10000x1, .f32⟩
  | .hbm, ⟨98, _⟩ => ⟨S10000x128, .f32⟩
  | .hbm, ⟨99, _⟩ => ⟨S10000x128, .f32⟩
  | .hbm, ⟨100, _⟩ => ⟨S10000x40, .f32⟩
  | .hbm, ⟨101, _⟩ => ⟨S1x40, .f32⟩
  | .hbm, ⟨102, _⟩ => ⟨S10000x40, .f32⟩
  | .hbm, ⟨103, _⟩ => ⟨S10000x40, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_5 : Ref sig .tc := ⟨.hbm, 48, rfl⟩
abbrev main_v33 : Ref sig .tc := ⟨.hbm, 49, rfl⟩
abbrev main_v34 : Ref sig .tc := ⟨.hbm, 50, rfl⟩
abbrev main_c_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call0_cst : Ref sig .tc := ⟨.hbm, 64, rfl⟩
abbrev main_call0_v0 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_8 : Ref sig .tc := ⟨.hbm, 71, rfl⟩
abbrev main_v51 : Ref sig .tc := ⟨.hbm, 72, rfl⟩
abbrev main_v52 : Ref sig .tc := ⟨.hbm, 73, rfl⟩
abbrev main_c_9 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_10 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_call1_cst : Ref sig .tc := ⟨.hbm, 87, rfl⟩
abbrev main_call1_v0 : Ref sig .tc := ⟨.hbm, 88, rfl⟩
abbrev main_v64 : Ref sig .tc := ⟨.hbm, 89, rfl⟩
abbrev main_v65 : Ref sig .tc := ⟨.hbm, 90, rfl⟩
abbrev main_cst_11 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_12 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S10000_S650000_d0 : Shape.Concatenates [S640000, S10000] S650000 0
  bcast_S_S650000 : S_.BroadcastsInDim S650000 (![] : Fin 0 → Fin S650000.rank)
  bcast_S_S10000 : S_.BroadcastsInDim S10000 (![] : Fin 0 → Fin S10000.rank)
  bcast_S650000_S650000x1_0 : S650000.BroadcastsInDim S650000x1 (![0] : Fin 1 → Fin S650000x1.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S650000x1_S650000x128_0_1 : S650000x1.BroadcastsInDim S650000x128 (![0, 1] : Fin 2 → Fin S650000x128.rank)
  bcast_S_S10000x128 : S_.BroadcastsInDim S10000x128 (![] : Fin 0 → Fin S10000x128.rank)
  reducesTo_S10000x128_S10000_d1 : S10000x128.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  scatter_S10000_S650000x1_S650000_n_0_0_1_wf : ScatterDims.WF S10000 S650000x1 S650000 [] [0] [0] 1
  gather_S10000_S650000x1_S650000_n_0_n_n_0_1_1_wf : GatherDims.WF S10000 S650000x1 S650000 [] [0] [] [0] [] 1 ![1]
  dot_S10000x128_S128x128_S10000x128_1_0_0_1_n_n_wf : DotDims.WF S10000x128 S128x128 S10000x128 [1] [0] [0] [1] [] []
  gather_S10000x128_S650000x1_S650000x128_1_0_n_n_0_1_1128_wf : GatherDims.WF S10000x128 S650000x1 S650000x128 [1] [0] [] [0] [] 1 ![1, 128]
  scatter_S10000x128_S650000x1_S650000x128_1_0_0_1_wf : ScatterDims.WF S10000x128 S650000x1 S650000x128 [1] [0] [0] 1
  dot_S10000x128_S128x40_S10000x40_1_0_0_1_n_n_wf : DotDims.WF S10000x128 S128x40 S10000x40 [1] [0] [0] [1] [] []

variable [Facts₀]

def scatter_S10000_S650000x1_S650000_n_0_0_1 : ScatterDims S10000 S650000x1 S650000 where
  updateWindowDims := []
  insertedWindowDims := [0]
  scatterDimsToOperandDims := [0]
  indexVectorDim := 1
  wf := scatter_S10000_S650000x1_S650000_n_0_0_1_wf
def gather_S10000_S650000x1_S650000_n_0_n_n_0_1_1 : GatherDims S10000 S650000x1 S650000 where
  offsetDims := []
  collapsedSliceDims := [0]
  operandBatchingDims := []
  startIndicesBatchingDims := []
  startIndexMap := [0]
  indexVectorDim := 1
  sliceSizes := ![1]
  wf := gather_S10000_S650000x1_S650000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S650000x1_S650000x128_1_0_n_n_0_1_1128 : GatherDims S10000x128 S650000x1 S650000x128 where
  offsetDims := [1]
  collapsedSliceDims := [0]
  operandBatchingDims := []
  startIndicesBatchingDims := []
  startIndexMap := [0]
  indexVectorDim := 1
  sliceSizes := ![1, 128]
  wf := gather_S10000x128_S650000x1_S650000x128_1_0_n_n_0_1_1128_wf
def scatter_S10000x128_S650000x1_S650000x128_1_0_0_1 : ScatterDims S10000x128 S650000x1 S650000x128 where
  updateWindowDims := [1]
  insertedWindowDims := [0]
  scatterDimsToOperandDims := [0]
  indexVectorDim := 1
  wf := scatter_S10000x128_S650000x1_S650000x128_1_0_0_1_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf

class Facts : Prop extends Facts₀ where

variable [Facts]
-- ==== Proof.K.Dat0.lean ====
/-
  Region 0 of the kernel program (the first propagation `relu (A · Y)`), at the buffer contents `V` the region is
  entered with: the blocks of its three windows, what the accumulator holds after each grid point, and the proof data.
  The grid is 4 × 4, point `t = 4 i + k`: row block `i` of the result, column block `k` of `A`.
-/
import proofs.«404076_j36386962932143_1_alg».proof.Proof.Gen.Kernel.Launch
import proofs.«404076_j36386962932143_1_alg».proof.Proof.Gen.Kernel.Skeleton
import proofs.«404076_j36386962932143_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 2560 × 2560 block of `A` at point `t` (rows of block `t / 4`, columns of block `t % 4`). -/
abbrev ablk0 (c : Dev nD) (t : Fin cfg0.N) : Vec F S2560x2560 .bf16 := iblk0 V c 0 t
/-- The 2560 × 128 block of `Y` at point `t` (rows of block `t % 4`). -/
abbrev yblk0 (c : Dev nD) (t : Fin cfg0.N) : Vec F S2560x128 .bf16 := iblk0 V c 1 t

/-- The accumulator after point `n`: at the first column block of a row of blocks (`n % 4 = 0`) the zero fill plus that
    block's product; otherwise what the point before left plus this block's product. -/
def accAt0 (c : Dev nD) : (n : ℕ) → n < cfg0.N → Vec F S2560x128 .f32
  | 0, h => k0_pay2 (k0_pay1 (F := F)) (ablk0 V c ⟨0, h⟩) (yblk0 V c ⟨0, h⟩)
  | n + 1, h =>
    if (n + 1) % 4 = 0 then k0_pay2 (k0_pay1 (F := F)) (ablk0 V c ⟨n + 1, h⟩) (yblk0 V c ⟨n + 1, h⟩)
    else k0_pay2 (accAt0 c n (Nat.lt_of_succ_lt h)) (ablk0 V c ⟨n + 1, h⟩) (yblk0 V c ⟨n + 1, h⟩)

/-- What the body stores into the result window's buffer at the last column block: the accumulator clipped below at zero. -/
def outAt0 (c : Dev nD) (t : Fin cfg0.N) : Vec F S2560x128 .f32 := k0_pay3 (accAt0 V c t.val t.isLt)

/-- The accumulator as a memref: the whole scratch buffer. -/
abbrev scM0 : Memref sig .tc .vmem S2560x128 .f32 := Memref.whole cc0_scratch0

/-- The core's scoped buffers other than this region's staging buffers and its accumulator, each whole at some contents. -/
def restS0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_scratch0), ((c : Thread nD τ).loc cc1_scratch0) ↦{fullShare} f))

/-- The region invariant before position `n`: before the first point every scoped buffer the pipeline does not stage at
    anything and the generator register at some state; afterwards the accumulator at what the point before left in it
    (`accAt0`), the other such buffers at anything, the register at some state. -/
def PhiS0 (V : (c : Dev nD) → (b : Ref sig .tc) → Buf (Elt F) ((c : Thread nD τ).loc b)) (c : Dev nD) :
    (n : ℕ) → n ≤ cfg0.N → sProp 𝕄
  | 0, _ => Pipeline.ΦA spec0 c
  | n + 1, hn => iprop(owns (c : Thread nD τ) scM0 fullShare (accAt0 V c n hn) ∗ restS0 (F := F) c ∗ (∃ r, prngReg c r))

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outAt0 V c t := by dsimp only [dat0]

end Cert.Kernel.Hand

end
-- ==== Proof.K.Dat1.lean ====
/-
  Region 1 of the kernel program (the second propagation `relu (A · Y)`), at the buffer contents `V` the region is
  entered with: the blocks of its three windows, what the accumulator holds after each grid point, and the proof data.
  The grid is 4 × 4, point `t = 4 i + k`: row block `i` of the result, column block `k` of `A`.
-/
import proofs.«404076_j36386962932143_1_alg».proof.Proof.Gen.Kernel.Launch
import proofs.«404076_j36386962932143_1_alg».proof.Proof.Gen.Kernel.Skeleton
import proofs.«404076_j36386962932143_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The 2560 × 2560 block of `A` at point `t` (rows of block `t / 4`, columns of block `t % 4`). -/
abbrev ablk1 (c : Dev nD) (t : Fin cfg1.N) : Vec F S2560x2560 .bf16 := iblk1 V c 0 t
/-- The 2560 × 128 block of `Y` at point `t` (rows of block `t % 4`). -/
abbrev yblk1 (c : Dev nD) (t : Fin cfg1.N) : Vec F S2560x128 .bf16 := iblk1 V c 1 t

/-- The accumulator after point `n`: at the first column block of a row of blocks (`n % 4 = 0`) the zero fill plus that
    block's product; otherwise what the point before left plus this block's product. -/
def accAt1 (c : Dev nD) : (n : ℕ) → n < cfg1.N → Vec F S2560x128 .f32
  | 0, h => k1_pay2 (k1_pay1 (F := F)) (ablk1 V c ⟨0, h⟩) (yblk1 V c ⟨0, h⟩)
  | n + 1, h =>
    if (n + 1) % 4 = 0 then k1_pay2 (k1_pay1 (F := F)) (ablk1 V c ⟨n + 1, h⟩) (yblk1 V c ⟨n + 1, h⟩)
    else k1_pay2 (accAt1 c n (Nat.lt_of_succ_lt h)) (ablk1 V c ⟨n + 1, h⟩) (yblk1 V c ⟨n + 1, h⟩)

/-- What the body stores into the result window's buffer at the last column block: the accumulator clipped below at zero. -/
def outAt1 (c : Dev nD) (t : Fin cfg1.N) : Vec F S2560x128 .f32 := k1_pay3 (accAt1 V c t.val t.isLt)

/-- The accumulator as a memref: the whole scratch buffer. -/
abbrev scM1 : Memref sig .tc .vmem S2560x128 .f32 := Memref.whole cc1_scratch0

/-- The core's scoped buffers other than this region's staging buffers and its accumulator, each whole at some contents. -/
def restS1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_scratch0), ((c : Thread nD τ).loc cc0_scratch0) ↦{fullShare} f))

/-- The region invariant before position `n`: before the first point every scoped buffer the pipeline does not stage at
    anything and the generator register at some state; afterwards the accumulator at what the point before left in it
    (`accAt1`), the other such buffers at anything, the register at some state. -/
def PhiS1 (V : (c : Dev nD) → (b : Ref sig .tc) → Buf (Elt F) ((c : Thread nD τ).loc b)) (c : Dev nD) :
    (n : ℕ) → n ≤ cfg1.N → sProp 𝕄
  | 0, _ => Pipeline.ΦA spec1 c
  | n + 1, hn => iprop(owns (c : Thread nD τ) scM1 fullShare (accAt1 V c n hn) ∗ restS1 (F := F) c ∗ (∃ r, prngReg c r))

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt1 V c t := by dsimp only [dat1]

end Cert.Kernel.Hand

end
-- ==== Proof.K.Bounds.lean ====
/-
  The buffer contents at each boundary of the kernel program's run: at launch, after the host operations before the
  first propagation, after the first propagation (its result array at what the grid's write-backs leave), after the
  host operations between the two, after the second propagation, and at the end.
-/
import proofs.«404076_j36386962932143_1_alg».proof.Proof.K.Dat0
import proofs.«404076_j36386962932143_1_alg».proof.Proof.K.Dat1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host operations before the first propagation. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first propagation: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host operations between the two propagations. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second propagation. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- At the end: after the host operations that follow the second propagation. -/
abbrev W5 : Dev nD → Valuation τ sig (Elt F) := fun c => StableHlo.after hostOps2 (W4 m ρ c)

end Cert.Kernel.Hand

end
-- ==== Proof.K.Body0.lean ====
/-
  Region 0's kernel body at every grid point: from the invariant and the three windows' buffers before the point it
  runs to the invariant and the buffers after it; and how the invariant meets the launch at its two ends.
-/
import proofs.«404076_j36386962932143_1_alg».proof.Proof.K.Dat0
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two branch conditions, over the grid -/

/-- The first branch's condition: the column-block coordinate is zero. -/
abbrev cond0_a (i : grid0.Coords) : Prop :=
  (Scalar.cmpi .ne (Scalar.extui (Scalar.cmpi .eq (BitVec.ofNat 32 (i 1).val) 0#32)) 0#32) = 1#1
/-- It holds exactly at the first column block of each row of blocks. -/
theorem hcond0_a : ∀ t : Fin cfg0.N, cond0_a (grid0.coords t) ↔ t.val % 4 = 0 :=
  (by decide +kernel : ∀ t : Fin grid0.N, cond0_a (grid0.coords t) ↔ t.val % 4 = 0)

/-- The second branch's condition: the column-block coordinate is the last. -/
abbrev cond0_b (i : grid0.Coords) : Prop := k0_cond2 i = 1#1
/-- It holds exactly at the last column block of each row of blocks. -/
theorem hcond0_b : ∀ t : Fin cfg0.N, cond0_b (grid0.coords t) ↔ t.val % 4 = 3 :=
  (by decide +kernel : ∀ t : Fin grid0.N, cond0_b (grid0.coords t) ↔ t.val % 4 = 3)

/-! ## Where the windows are idle -/

/-- The two input windows are never idle. -/
theorem idle0_a : ∀ t : Fin cfg0.N, cfg0.idle 0 (grid0.coords t) = false := by decide +kernel
theorem idle0_y : ∀ t : Fin cfg0.N, cfg0.idle 1 (grid0.coords t) = false := by decide +kernel
/-- The result window is idle away from the last column block, -/
theorem idle0_out : ∀ t : Fin cfg0.N, ¬t.val % 4 = 3 → cfg0.idle 2 (grid0.coords t) = true := by decide +kernel
/-- is not written back there, -/
theorem flush0_out : ∀ t : Fin cfg0.N, ¬t.val % 4 = 3 → (cfg0.win 2).flush t = false := by decide +kernel
/-- and is live at the last column block. -/
theorem idle0_last : ∀ t : Fin cfg0.N, t.val % 4 = 3 → cfg0.idle 2 (grid0.coords t) = false := by decide +kernel

/-! ## What the input windows' buffers hold at a point -/

/-- The block of `A` is fetched at every point, so its current buffer holds it. -/
theorem before0_0 (c : Dev nD) (t : Fin cfg0.N) (d) : (dat0 V c).before 0 t d = iblk0 V c 0 t :=
  ((dat0 V c).before_fetched 0 t (fetch0_0 t) d).trans
    (by unfold Dat.fetched Dat.blockOf iblk0; rw [A_eq0]; try rfl)
/-- So is the block of `Y`. -/
theorem before0_1 (c : Dev nD) (t : Fin cfg0.N) (d) : (dat0 V c).before 1 t d = iblk0 V c 1 t :=
  ((dat0 V c).before_fetched 1 t (fetch0_1 t) d).trans
    (by unfold Dat.fetched Dat.blockOf iblk0; rw [A_eq0]; try rfl)

/-! ## The launch's invariant with the accumulator set apart -/

/-- Separating conjunction is associative, as an equation between assertions. -/
private theorem sep_assoc_eq (X Y Z : sProp 𝕄) : iprop((X ∗ Y) ∗ Z) = iprop(X ∗ Y ∗ Z) :=
  BI.Entails.antisymm
    (show iprop((X ∗ Y) ∗ Z) ⊢ iprop(X ∗ Y ∗ Z) from by
      iintro ⟨⟨Hx, Hy⟩, Hz⟩
      isplitl [Hx]; · iexact Hx
      isplitl [Hy]; · iexact Hy
      iexact Hz)
    (show iprop(X ∗ Y ∗ Z) ⊢ iprop((X ∗ Y) ∗ Z) from by
      iintro ⟨Hx, Hy, Hz⟩
      isplitl [Hx Hy]
      · isplitl [Hx]; · iexact Hx
        iexact Hy
      iexact Hz)

/-- The scoped buffers the pipeline does not stage and the generator register, the accumulator named first. -/
theorem PhiA0_eq (c : Dev nD) :
    (Pipeline.ΦA spec0 c : sProp 𝕄)
      = iprop((∃ d, owns (c : Thread nD τ) scM0 fullShare d) ∗ restS0 (F := F) c ∗ (∃ r, prngReg c r)) := by
  unfold Pipeline.ΦA; rw [scopedRest0_eq]; unfold restS0; simp only [scM0, owns_whole]
  exact sep_assoc_eq _ _ _

/-! ## The body's run, one triple for each way its two branches go

Each access of the body is a whole buffer: the unit rectangle at zero offsets. -/

/-- Those offsets are zero on both axes. -/
private theorem hzero : (![0, 0] : Fin 2 → Nat) = fun _ => 0 := funext fun a => by fin_cases a <;> rfl

/-- A buffer whose last write is a whole-buffer store reads back as that store's payload, whatever was written before. -/
private theorem read_writes_unit {Val : EltTy → Type} [∀ e, Nonempty (Val e)] {sg : RefSig} {κ : Kind} {sp : Space}
    {S : Shape} {e : EltTy} (v : View sg κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, .head _, View.mem_set_unit_zero h inb y⟩)).trans
    (View.canon_cons_unit_zero h inb w L)

set_option maxHeartbeats 1000000 in
/-- The first column block (first branch taken, second not): the accumulator, whatever it held, is filled with
    zeros and gains this block's product; the result window's buffer is not touched. -/
theorem sound_kernel0_a (c : Dev nD) (E : Set ℕ) (i : grid0.Coords)
    (arg2 : Memref sig .tc .vmem S2560x2560 .bf16) (harg2 : arg2.IsWhole)
    (arg3 : Memref sig .tc .vmem S2560x128 .bf16) (harg3 : arg3.IsWhole)
    (arg4 : Memref sig .tc .vmem S2560x128 .f32) (harg4 : arg4.IsWhole)
    (arg5 : Memref sig .tc .vmem S2560x128 .f32) (harg5 : arg5.IsWhole)
    (hca : cond0_a i) (hcb : ¬cond0_b i)
    (xa : Vec F S2560x2560 .bf16) (xy : Vec F S2560x128 .bf16) (xo : Vec F S2560x128 .f32)
    (K : PUnit → sProp 𝕄) :
    iprop(owns (c : Thread nD τ) arg2 fullShare xa ∗ owns (c : Thread nD τ) arg3 fullShare xy
        ∗ owns (c : Thread nD τ) arg4 fullShare xo ∗ (∃ d, owns (c : Thread nD τ) arg5 fullShare d)
        ∗ (iprop(owns (c : Thread nD τ) arg2 fullShare xa ∗ owns (c : Thread nD τ) arg3 fullShare xy
            ∗ owns (c : Thread nD τ) arg4 fullShare xo
            ∗ owns (c : Thread nD τ) arg5 fullShare (k0_pay2 (k0_pay1 (F := F)) xa xy)) -∗ K ⟨⟩))
      ⊢ wp frame (wpE (defs₀ (F := F)) Variants.none c none) E (cc0__prop_kernel i arg2 harg2 arg3 harg3 arg4 harg4 arg5 harg5) K := by
  simp only [cc0__prop_kernel_eq_skeleton]; unfold cc0__prop_kernel_skel
  unfold owns
  iintro ⟨⟨%fa, %hfa, Ha⟩, ⟨%fy, %hfy, Hy⟩, ⟨%fo, %hfo, Ho⟩, ⟨%ds, %fs, -, Hs⟩, Hk⟩
  subst hfa; subst hfy; subst hfo
  sl_exec (disch := first | exact hca | exact hcb)
  sl_step
  iapply Hk
  isplitl [Ha]
  · iexists fa; isplitr; · ipureintro; rfl
    iexact Ha
  isplitl [Hy]
  · iexists fy; isplitr; · ipureintro; rfl
    iexact Hy
  isplitl [Ho]
  · iexists fo; isplitr; · ipureintro; rfl
    iexact Ho
  iexists _; isplitr
  swap; · iexact Hs
  ipureintro
  sl_unfold_run_names
  rw [read_writes_unit _ _ hzero, View.readCov_unit_zero (S := S2560x128) _ hzero]
  simp only [View.readAt_eq_ld, View.ld_unit_zero (S := S2560x128) hzero, View.ld_unit_zero (S := S2560x2560) hzero]

set_option maxHeartbeats 1000000 in
/-- A middle column block (neither branch taken): the accumulator gains this block's product; the result
    window's buffer is not touched. -/
theorem sound_kernel0_b (c : Dev nD) (E : Set ℕ) (i : grid0.Coords)
    (arg2 : Memref sig .tc .vmem S2560x2560 .bf16) (harg2 : arg2.IsWhole)
    (arg3 : Memref sig .tc .vmem S2560x128 .bf16) (harg3 : arg3.IsWhole)
    (arg4 : Memref sig .tc .vmem S2560x128 .f32) (harg4 : arg4.IsWhole)
    (arg5 : Memref sig .tc .vmem S2560x128 .f32) (harg5 : arg5.IsWhole)
    (hca : ¬cond0_a i) (hcb : ¬cond0_b i)
    (xa : Vec F S2560x2560 .bf16) (xy : Vec F S2560x128 .bf16) (xo : Vec F S2560x128 .f32) (acc : Vec F S2560x128 .f32)
    (K : PUnit → sProp 𝕄) :
    iprop(owns (c : Thread nD τ) arg2 fullShare xa ∗ owns (c : Thread nD τ) arg3 fullShare xy
        ∗ owns (c : Thread nD τ) arg4 fullShare xo ∗ owns (c : Thread nD τ) arg5 fullShare acc
        ∗ (iprop(owns (c : Thread nD τ) arg2 fullShare xa ∗ owns (c : Thread nD τ) arg3 fullShare xy
            ∗ owns (c : Thread nD τ) arg4 fullShare xo
            ∗ owns (c : Thread nD τ) arg5 fullShare (k0_pay2 acc xa xy)) -∗ K ⟨⟩))
      ⊢ wp frame (wpE (defs₀ (F := F)) Variants.none c none) E (cc0__prop_kernel i arg2 harg2 arg3 harg3 arg4 harg4 arg5 harg5) K := by
  simp only [cc0__prop_kernel_eq_skeleton]; unfold cc0__prop_kernel_skel
  unfold owns
  iintro ⟨⟨%fa, %hfa, Ha⟩, ⟨%fy, %hfy, Hy⟩, ⟨%fo, %hfo, Ho⟩, ⟨%fs, %hfs, Hs⟩, Hk⟩
  subst hfa; subst hfy; subst hfo; subst hfs
  sl_exec (disch := first | exact hca | exact hcb)
  sl_step
  iapply Hk
  isplitl [Ha]
  · iexists fa; isplitr; · ipureintro; rfl
    iexact Ha
  isplitl [Hy]
  · iexists fy; isplitr; · ipureintro; rfl
    iexact Hy
  isplitl [Ho]
  · iexists fo; isplitr; · ipureintro; rfl
    iexact Ho
  iexists _; isplitr
  swap; · iexact Hs
  ipureintro
  rw [read_writes_unit _ _ hzero]
  simp only [View.readAt_eq_ld, View.ld_unit_zero (S := S2560x128) hzero, View.ld_unit_zero (S := S2560x2560) hzero]

set_option maxHeartbeats 1000000 in
/-- The last column block (second branch taken, first not): the accumulator gains this block's product, and the
    result window's buffer, whatever it held, receives the accumulator clipped below at zero. -/
theorem sound_kernel0_c (c : Dev nD) (E : Set ℕ) (i : grid0.Coords)
    (arg2 : Memref sig .tc .vmem S2560x2560 .bf16) (harg2 : arg2.IsWhole)
    (arg3 : Memref sig .tc .vmem S2560x128 .bf16) (harg3 : arg3.IsWhole)
    (arg4 : Memref sig .tc .vmem S2560x128 .f32) (harg4 : arg4.IsWhole)
    (arg5 : Memref sig .tc .vmem S2560x128 .f32) (harg5 : arg5.IsWhole)
    (hca : ¬cond0_a i) (hcb : cond0_b i)
    (xa : Vec F S2560x2560 .bf16) (xy : Vec F S2560x128 .bf16) (acc : Vec F S2560x128 .f32)
    (K : PUnit → sProp 𝕄) :
    iprop(owns (c : Thread nD τ) arg2 fullShare xa ∗ owns (c : Thread nD τ) arg3 fullShare xy
        ∗ (∃ d, owns (c : Thread nD τ) arg4 fullShare d) ∗ owns (c : Thread nD τ) arg5 fullShare acc
        ∗ (iprop(owns (c : Thread nD τ) arg2 fullShare xa ∗ owns (c : Thread nD τ) arg3 fullShare xy
            ∗ owns (c : Thread nD τ) arg4 fullShare (k0_pay3 (k0_pay2 acc xa xy))
            ∗ owns (c : Thread nD τ) arg5 fullShare (k0_pay2 acc xa xy)) -∗ K ⟨⟩))
      ⊢ wp frame (wpE (defs₀ (F := F)) Variants.none c none) E (cc0__prop_kernel i arg2 harg2 arg3 harg3 arg4 harg4 arg5 harg5) K := by
  simp only [cc0__prop_kernel_eq_skeleton]; unfold cc0__prop_kernel_skel
  unfold owns
  iintro ⟨⟨%fa, %hfa, Ha⟩, ⟨%fy, %hfy, Hy⟩, ⟨%dout, %fo, -, Ho⟩, ⟨%fs, %hfs, Hs⟩, Hk⟩
  subst hfa; subst hfy; subst hfs
  sl_exec (disch := first | exact hca | exact hcb)
  sl_step
  iapply Hk
  isplitl [Ha]
  · iexists fa; isplitr; · ipureintro; rfl
    iexact Ha
  isplitl [Hy]
  · iexists fy; isplitr; · ipureintro; rfl
    iexact Hy
  isplitl [Ho]
  · iexists _; isplitr
    swap; · iexact Ho
    ipureintro
    sl_unfold_run_names
    rw [read_writes_unit _ _ hzero, View.readCov_unit_zero (S := S2560x128) _ hzero]
    simp only [View.readAt_eq_ld, View.ld_unit_zero (S := S2560x128) hzero, View.ld_unit_zero (S := S2560x2560) hzero]
  iexists _; isplitr
  swap; · iexact Hs
  ipureintro
  sl_unfold_run_names
  rw [read_writes_unit _ _ hzero]
  simp only [View.readAt_eq_ld, View.ld_unit_zero (S := S2560x128) hzero, View.ld_unit_zero (S := S2560x2560) hzero]

/-! ## The invariant, position by position -/

theorem PhiS0_zero (c : Dev nD) (n : ℕ) (h : n ≤ cfg0.N) (hz : n = 0) : PhiS0 V c n h = Pipeline.ΦA spec0 c := by
  subst hz; rfl

/-- After point `n`: the accumulator at that point's contents. -/
theorem PhiS0_succ (c : Dev nD) (n : ℕ) (hn : n < cfg0.N) :
    PhiS0 V c (n + 1) hn
      = iprop(owns (c : Thread nD τ) scM0 fullShare (accAt0 V c n hn) ∗ restS0 (F := F) c ∗ (∃ r, prngReg c r)) := rfl

/-- Before a point that is not the first: the accumulator at what the point before left. -/
theorem PhiS0_pos (c : Dev nD) (n : ℕ) (h : n ≤ cfg0.N) (hz : n ≠ 0) :
    PhiS0 V c n h
      = iprop(owns (c : Thread nD τ) scM0 fullShare (accAt0 V c (n - 1) (by omega)) ∗ restS0 (F := F) c ∗ (∃ r, prngReg c r)) := by
  cases n with
  | zero => exact absurd rfl hz
  | succ n => rfl

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-! ## The accumulator's recursion, at a point of the grid -/

/-- At the first column block of a row of blocks the accumulator restarts from the zero fill. -/
theorem accAt0_first (c : Dev nD) (t : Fin cfg0.N) (hz : t.val % 4 = 0) :
    accAt0 V c t.val t.isLt = k0_pay2 (k0_pay1 (F := F)) (ablk0 V c t) (yblk0 V c t) := by
  obtain ⟨n, hn⟩ := t
  cases n with
  | zero => rfl
  | succ n => exact (if_pos hz).trans rfl

/-- At any other column block it continues from what the point before left. -/
theorem accAt0_next (c : Dev nD) (t : Fin cfg0.N) (hz : ¬t.val % 4 = 0) :
    accAt0 V c t.val t.isLt
      = k0_pay2 (accAt0 V c (t.val - 1) (Nat.lt_of_le_of_lt (Nat.sub_le _ _) t.isLt)) (ablk0 V c t) (yblk0 V c t) := by
  obtain ⟨n, hn⟩ := t
  cases n with
  | zero => exact absurd (Nat.zero_mod _) hz
  | succ n => exact (if_neg hz).trans rfl

/-! ## The body obligation, at a generic point -/

/-- What the body is called with at point `t`: the invariant, what the core owes, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (win0_0.stage (cfg0.slots t 0)) fullShare ((dat0 V c).before 0 t d))
    ∗ (∃ d, owns (c : Thread nD τ) (win0_1.stage (cfg0.slots t 1)) fullShare ((dat0 V c).before 1 t d))
    ∗ (∃ d, owns (c : Thread nD τ) (win0_2.stage (cfg0.slots t 2)) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The two input buffers hold their blocks; the position in the row of blocks says which of
    the three triples applies; the invariant hands the body the accumulator at what the point before left (at
    anything at the very first point) and takes it back at this point's contents; the result window's buffer is
    handed back as found except at the last column block, where it receives the clipped accumulator; the core owes
    nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (win0_0.stage (cfg0.slots t 0)) fullShare ((dat0 V c).after 0 t) from by
    unfold Dat.leavesExact; rw [idle0_a t], after0_0]
  rw [show (dat0 V c).leavesExact 1 t = owns (c : Thread nD τ) (win0_1.stage (cfg0.slots t 1)) fullShare ((dat0 V c).after 1 t) from by
    unfold Dat.leavesExact; rw [idle0_y t], after0_1]
  by_cases hz : t.val % 4 = 0
  · have hc3 : ¬t.val % 4 = 3 := by omega
    rw [Dat.leavesExact_idle (dat0 V c) 2 t (idle0_out t hc3) (flush0_out t hc3)]
    rw [accAt0_first V c t hz]
    by_cases hfirst : t.val = 0
    · rw [PhiS0_castSucc V c t, PhiS0_zero V c _ _ hfirst, PhiA0_eq]
      iintro ⟨⟨Hs, Hr, Hg⟩, Hw, ⟨%da, Ha⟩, ⟨%dy, Hy⟩, ⟨%dout, Ho⟩⟩
      iapply (sound_kernel0_a c Set.univ (grid0.coords t) _ _ _ _ _ _ _ _ ((hcond0_a t).mpr hz) (fun h => hc3 ((hcond0_b t).mp h))
        (iblk0 V c 0 t) (iblk0 V c 1 t) ((dat0 V c).before 2 t dout) _)
      isplitl [Ha]; · iexact Ha
      isplitl [Hy]; · iexact Hy
      isplitl [Ho]; · iexact Ho
      isplitl [Hs]; · iexact Hs
      iintro ⟨Ha, Hy, Ho, Hs⟩
      isplitl [Hs Hr Hg]
      · isplitl [Hs]; · iexact Hs
        isplitl [Hr]; · iexact Hr
        iexact Hg
      isplitl [Hw]; · iexact Hw
      isplitl [Ha]; · iexact Ha
      isplitl [Hy]; · iexact Hy
      iexists _; iexact Ho
    · rw [PhiS0_castSucc V c t, PhiS0_pos V c _ _ hfirst]
      iintro ⟨⟨Hs, Hr, Hg⟩, Hw, ⟨%da, Ha⟩, ⟨%dy, Hy⟩, ⟨%dout, Ho⟩⟩
      iapply (sound_kernel0_a c Set.univ (grid0.coords t) _ _ _ _ _ _ _ _ ((hcond0_a t).mpr hz) (fun h => hc3 ((hcond0_b t).mp h))
        (iblk0 V c 0 t) (iblk0 V c 1 t) ((dat0 V c).before 2 t dout) _)
      isplitl [Ha]; · iexact Ha
      isplitl [Hy]; · iexact Hy
      isplitl [Ho]; · iexact Ho
      isplitl [Hs]; · iexists _; iexact Hs
      iintro ⟨Ha, Hy, Ho, Hs⟩
      isplitl [Hs Hr Hg]
      · isplitl [Hs]; · iexact Hs
        isplitl [Hr]; · iexact Hr
        iexact Hg
      isplitl [Hw]; · iexact Hw
      isplitl [Ha]; · iexact Ha
      isplitl [Hy]; · iexact Hy
      iexists _; iexact Ho
  · have hfirst : t.val ≠ 0 := fun h => hz (by rw [h])
    rw [accAt0_next V c t hz]
    rw [PhiS0_castSucc V c t, PhiS0_pos V c _ _ hfirst]
    by_cases hc3 : t.val % 4 = 3
    · rw [show (dat0 V c).leavesExact 2 t = owns (c : Thread nD τ) (win0_2.stage (cfg0.slots t 2)) fullShare ((dat0 V c).after 2 t) from by
        unfold Dat.leavesExact; rw [idle0_last t hc3], after0_2]
      unfold outAt0
      rw [accAt0_next V c t hz]
      iintro ⟨⟨Hs, Hr, Hg⟩, Hw, ⟨%da, Ha⟩, ⟨%dy, Hy⟩, ⟨%dout, Ho⟩⟩
      iapply (sound_kernel0_c c Set.univ (grid0.coords t) _ _ _ _ _ _ _ _ (fun h => hz ((hcond0_a t).mp h)) ((hcond0_b t).mpr hc3)
        (iblk0 V c 0 t) (iblk0 V c 1 t) (accAt0 V c (t.val - 1) _) _)
      isplitl [Ha]; · iexact Ha
      isplitl [Hy]; · iexact Hy
      isplitl [Ho]; · iexists _; iexact Ho
      isplitl [Hs]; · iexact Hs
      iintro ⟨Ha, Hy, Ho, Hs⟩
      isplitl [Hs Hr Hg]
      · isplitl [Hs]; · iexact Hs
        isplitl [Hr]; · iexact Hr
        iexact Hg
      isplitl [Hw]; · iexact Hw
      isplitl [Ha]; · iexact Ha
      isplitl [Hy]; · iexact Hy
      iexact Ho
    · rw [Dat.leavesExact_idle (dat0 V c) 2 t (idle0_out t hc3) (flush0_out t hc3)]
      iintro ⟨⟨Hs, Hr, Hg⟩, Hw, ⟨%da, Ha⟩, ⟨%dy, Hy⟩, ⟨%dout, Ho⟩⟩
      iapply (sound_kernel0_b c Set.univ (grid0.coords t) _ _ _ _ _ _ _ _ (fun h => hz ((hcond0_a t).mp h)) (fun h => hc3 ((hcond0_b t).mp h))
        (iblk0 V c 0 t) (iblk0 V c 1 t) ((dat0 V c).before 2 t dout) (accAt0 V c (t.val - 1) _) _)
      isplitl [Ha]; · iexact Ha
      isplitl [Hy]; · iexact Hy
      isplitl [Ho]; · iexact Ho
      isplitl [Hs]; · iexact Hs
      iintro ⟨Ha, Hy, Ho, Hs⟩
      isplitl [Hs Hr Hg]
      · isplitl [Hs]; · iexact Hs
        isplitl [Hr]; · iexact Hr
        iexact Hg
      isplitl [Hw]; · iexact Hw
      isplitl [Ha]; · iexact Ha
      isplitl [Hy]; · iexact Hy
      iexists _; iexact Ho

/-! ## The three obligations of the launch -/

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the scoped rest and the register back: what the accumulator holds is
    forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 16 := N_0; omega), PhiA0_eq]
  iintro ⟨Hs, Hr, Hg⟩
  isplitl [Hs]; · iexists _; iexact Hs
  isplitl [Hr]; · iexact Hr
  iexact Hg

end Cert.Kernel.Hand

end
-- ==== Proof.K.Body1.lean ====
/-
  Region 1's kernel body at every grid point: from the invariant and the three windows' buffers before the point it
  runs to the invariant and the buffers after it; and how the invariant meets the launch at its two ends.
-/
import proofs.«404076_j36386962932143_1_alg».proof.Proof.K.Dat1
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two branch conditions, over the grid -/

/-- The first branch's condition: the column-block coordinate is zero. -/
abbrev cond1_a (i : grid1.Coords) : Prop :=
  (Scalar.cmpi .ne (Scalar.extui (Scalar.cmpi .eq (BitVec.ofNat 32 (i 1).val) 0#32)) 0#32) = 1#1
/-- It holds exactly at the first column block of each row of blocks. -/
theorem hcond1_a : ∀ t : Fin cfg1.N, cond1_a (grid1.coords t) ↔ t.val % 4 = 0 :=
  (by decide +kernel : ∀ t : Fin grid1.N, cond1_a (grid1.coords t) ↔ t.val % 4 = 0)

/-- The second branch's condition: the column-block coordinate is the last. -/
abbrev cond1_b (i : grid1.Coords) : Prop := k1_cond2 i = 1#1
/-- It holds exactly at the last column block of each row of blocks. -/
theorem hcond1_b : ∀ t : Fin cfg1.N, cond1_b (grid1.coords t) ↔ t.val % 4 = 3 :=
  (by decide +kernel : ∀ t : Fin grid1.N, cond1_b (grid1.coords t) ↔ t.val % 4 = 3)

/-! ## Where the windows are idle -/

/-- The two input windows are never idle. -/
theorem idle1_a : ∀ t : Fin cfg1.N, cfg1.idle 0 (grid1.coords t) = false := by decide +kernel
theorem idle1_y : ∀ t : Fin cfg1.N, cfg1.idle 1 (grid1.coords t) = false := by decide +kernel
/-- The result window is idle away from the last column block, -/
theorem idle1_out : ∀ t : Fin cfg1.N, ¬t.val % 4 = 3 → cfg1.idle 2 (grid1.coords t) = true := by decide +kernel
/-- is not written back there, -/
theorem flush1_out : ∀ t : Fin cfg1.N, ¬t.val % 4 = 3 → (cfg1.win 2).flush t = false := by decide +kernel
/-- and is live at the last column block. -/
theorem idle1_last : ∀ t : Fin cfg1.N, t.val % 4 = 3 → cfg1.idle 2 (grid1.coords t) = false := by decide +kernel

/-! ## What the input windows' buffers hold at a point -/

/-- The block of `A` is fetched at every point, so its current buffer holds it. -/
theorem before1_0 (c : Dev nD) (t : Fin cfg1.N) (d) : (dat1 V c).before 0 t d = iblk1 V c 0 t :=
  ((dat1 V c).before_fetched 0 t (fetch1_0 t) d).trans
    (by unfold Dat.fetched Dat.blockOf iblk1; rw [A_eq1]; try rfl)
/-- So is the block of `Y`. -/
theorem before1_1 (c : Dev nD) (t : Fin cfg1.N) (d) : (dat1 V c).before 1 t d = iblk1 V c 1 t :=
  ((dat1 V c).before_fetched 1 t (fetch1_1 t) d).trans
    (by unfold Dat.fetched Dat.blockOf iblk1; rw [A_eq1]; try rfl)

/-! ## The launch's invariant with the accumulator set apart -/

/-- Separating conjunction is associative, as an equation between assertions. -/
private theorem sep_assoc_eq (X Y Z : sProp 𝕄) : iprop((X ∗ Y) ∗ Z) = iprop(X ∗ Y ∗ Z) :=
  BI.Entails.antisymm
    (show iprop((X ∗ Y) ∗ Z) ⊢ iprop(X ∗ Y ∗ Z) from by
      iintro ⟨⟨Hx, Hy⟩, Hz⟩
      isplitl [Hx]; · iexact Hx
      isplitl [Hy]; · iexact Hy
      iexact Hz)
    (show iprop(X ∗ Y ∗ Z) ⊢ iprop((X ∗ Y) ∗ Z) from by
      iintro ⟨Hx, Hy, Hz⟩
      isplitl [Hx Hy]
      · isplitl [Hx]; · iexact Hx
        iexact Hy
      iexact Hz)

/-- Eight assertions and a ninth: the last of the eight may be named first, as an equation between assertions. -/
private theorem sep_last_first_eq (B1 B2 B3 B4 B5 B6 B7 S G : sProp 𝕄) :
    iprop((B1 ∗ B2 ∗ B3 ∗ B4 ∗ B5 ∗ B6 ∗ B7 ∗ S) ∗ G) = iprop(S ∗ (B1 ∗ B2 ∗ B3 ∗ B4 ∗ B5 ∗ B6 ∗ B7) ∗ G) :=
  BI.Entails.antisymm
    (show iprop((B1 ∗ B2 ∗ B3 ∗ B4 ∗ B5 ∗ B6 ∗ B7 ∗ S) ∗ G) ⊢ iprop(S ∗ (B1 ∗ B2 ∗ B3 ∗ B4 ∗ B5 ∗ B6 ∗ B7) ∗ G) from by
      iintro ⟨⟨H1, H2, H3, H4, H5, H6, H7, Hs⟩, Hg⟩
      isplitl [Hs]; · iexact Hs
      isplitr [Hg]
      · isplitl [H1]; · iexact H1
        isplitl [H2]; · iexact H2
        isplitl [H3]; · iexact H3
        isplitl [H4]; · iexact H4
        isplitl [H5]; · iexact H5
        isplitl [H6]; · iexact H6
        iexact H7
      · iexact Hg)
    (show iprop(S ∗ (B1 ∗ B2 ∗ B3 ∗ B4 ∗ B5 ∗ B6 ∗ B7) ∗ G) ⊢ iprop((B1 ∗ B2 ∗ B3 ∗ B4 ∗ B5 ∗ B6 ∗ B7 ∗ S) ∗ G) from by
      iintro ⟨Hs, ⟨H1, H2, H3, H4, H5, H6, H7⟩, Hg⟩
      isplitr [Hg]
      · isplitl [H1]; · iexact H1
        isplitl [H2]; · iexact H2
        isplitl [H3]; · iexact H3
        isplitl [H4]; · iexact H4
        isplitl [H5]; · iexact H5
        isplitl [H6]; · iexact H6
        isplitl [H7]; · iexact H7
        iexact Hs
      · iexact Hg)

/-- The scoped buffers the pipeline does not stage and the generator register, the accumulator named first. -/
theorem PhiA1_eq (c : Dev nD) :
    (Pipeline.ΦA spec1 c : sProp 𝕄)
      = iprop((∃ d, owns (c : Thread nD τ) scM1 fullShare d) ∗ restS1 (F := F) c ∗ (∃ r, prngReg c r)) := by
  unfold Pipeline.ΦA; rw [scopedRest1_eq]; unfold restS1; simp only [scM1, owns_whole]
  exact sep_last_first_eq _ _ _ _ _ _ _ _ _

/-! ## The body's run, one triple for each way its two branches go

Each access of the body is a whole buffer: the unit rectangle at zero offsets. -/

/-- Those offsets are zero on both axes. -/
private theorem hzero : (![0, 0] : Fin 2 → Nat) = fun _ => 0 := funext fun a => by fin_cases a <;> rfl

/-- A buffer whose last write is a whole-buffer store reads back as that store's payload, whatever was written before. -/
private theorem read_writes_unit {Val : EltTy → Type} [∀ e, Nonempty (Val e)] {sg : RefSig} {κ : Kind} {sp : Space}
    {S : Shape} {e : EltTy} (v : View sg κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, .head _, View.mem_set_unit_zero h inb y⟩)).trans
    (View.canon_cons_unit_zero h inb w L)

set_option maxHeartbeats 1000000 in
/-- The first column block (first branch taken, second not): the accumulator, whatever it held, is filled with
    zeros and gains this block's product; the result window's buffer is not touched. -/
theorem sound_kernel1_a (c : Dev nD) (E : Set ℕ) (i : grid1.Coords)
    (arg2 : Memref sig .tc .vmem S2560x2560 .bf16) (harg2 : arg2.IsWhole)
    (arg3 : Memref sig .tc .vmem S2560x128 .bf16) (harg3 : arg3.IsWhole)
    (arg4 : Memref sig .tc .vmem S2560x128 .f32) (harg4 : arg4.IsWhole)
    (arg5 : Memref sig .tc .vmem S2560x128 .f32) (harg5 : arg5.IsWhole)
    (hca : cond1_a i) (hcb : ¬cond1_b i)
    (xa : Vec F S2560x2560 .bf16) (xy : Vec F S2560x128 .bf16) (xo : Vec F S2560x128 .f32)
    (K : PUnit → sProp 𝕄) :
    iprop(owns (c : Thread nD τ) arg2 fullShare xa ∗ owns (c : Thread nD τ) arg3 fullShare xy
        ∗ owns (c : Thread nD τ) arg4 fullShare xo ∗ (∃ d, owns (c : Thread nD τ) arg5 fullShare d)
        ∗ (iprop(owns (c : Thread nD τ) arg2 fullShare xa ∗ owns (c : Thread nD τ) arg3 fullShare xy
            ∗ owns (c : Thread nD τ) arg4 fullShare xo
            ∗ owns (c : Thread nD τ) arg5 fullShare (k1_pay2 (k1_pay1 (F := F)) xa xy)) -∗ K ⟨⟩))
      ⊢ wp frame (wpE (defs₀ (F := F)) Variants.none c none) E (cc1__prop_kernel i arg2 harg2 arg3 harg3 arg4 harg4 arg5 harg5) K := by
  simp only [cc1__prop_kernel_eq_skeleton]; unfold cc1__prop_kernel_skel
  unfold owns
  iintro ⟨⟨%fa, %hfa, Ha⟩, ⟨%fy, %hfy, Hy⟩, ⟨%fo, %hfo, Ho⟩, ⟨%ds, %fs, -, Hs⟩, Hk⟩
  subst hfa; subst hfy; subst hfo
  sl_exec (disch := first | exact hca | exact hcb)
  sl_step
  iapply Hk
  isplitl [Ha]
  · iexists fa; isplitr; · ipureintro; rfl
    iexact Ha
  isplitl [Hy]
  · iexists fy; isplitr; · ipureintro; rfl
    iexact Hy
  isplitl [Ho]
  · iexists fo; isplitr; · ipureintro; rfl
    iexact Ho
  iexists _; isplitr
  swap; · iexact Hs
  ipureintro
  sl_unfold_run_names
  rw [read_writes_unit _ _ hzero, View.readCov_unit_zero (S := S2560x128) _ hzero]
  simp only [View.readAt_eq_ld, View.ld_unit_zero (S := S2560x128) hzero, View.ld_unit_zero (S := S2560x2560) hzero]

set_option maxHeartbeats 1000000 in
/-- A middle column block (neither branch taken): the accumulator gains this block's product; the result
    window's buffer is not touched. -/
theorem sound_kernel1_b (c : Dev nD) (E : Set ℕ) (i : grid1.Coords)
    (arg2 : Memref sig .tc .vmem S2560x2560 .bf16) (harg2 : arg2.IsWhole)
    (arg3 : Memref sig .tc .vmem S2560x128 .bf16) (harg3 : arg3.IsWhole)
    (arg4 : Memref sig .tc .vmem S2560x128 .f32) (harg4 : arg4.IsWhole)
    (arg5 : Memref sig .tc .vmem S2560x128 .f32) (harg5 : arg5.IsWhole)
    (hca : ¬cond1_a i) (hcb : ¬cond1_b i)
    (xa : Vec F S2560x2560 .bf16) (xy : Vec F S2560x128 .bf16) (xo : Vec F S2560x128 .f32) (acc : Vec F S2560x128 .f32)
    (K : PUnit → sProp 𝕄) :
    iprop(owns (c : Thread nD τ) arg2 fullShare xa ∗ owns (c : Thread nD τ) arg3 fullShare xy
        ∗ owns (c : Thread nD τ) arg4 fullShare xo ∗ owns (c : Thread nD τ) arg5 fullShare acc
        ∗ (iprop(owns (c : Thread nD τ) arg2 fullShare xa ∗ owns (c : Thread nD τ) arg3 fullShare xy
            ∗ owns (c : Thread nD τ) arg4 fullShare xo
            ∗ owns (c : Thread nD τ) arg5 fullShare (k1_pay2 acc xa xy)) -∗ K ⟨⟩))
      ⊢ wp frame (wpE (defs₀ (F := F)) Variants.none c none) E (cc1__prop_kernel i arg2 harg2 arg3 harg3 arg4 harg4 arg5 harg5) K := by
  simp only [cc1__prop_kernel_eq_skeleton]; unfold cc1__prop_kernel_skel
  unfold owns
  iintro ⟨⟨%fa, %hfa, Ha⟩, ⟨%fy, %hfy, Hy⟩, ⟨%fo, %hfo, Ho⟩, ⟨%fs, %hfs, Hs⟩, Hk⟩
  subst hfa; subst hfy; subst hfo; subst hfs
  sl_exec (disch := first | exact hca | exact hcb)
  sl_step
  iapply Hk
  isplitl [Ha]
  · iexists fa; isplitr; · ipureintro; rfl
    iexact Ha
  isplitl [Hy]
  · iexists fy; isplitr; · ipureintro; rfl
    iexact Hy
  isplitl [Ho]
  · iexists fo; isplitr; · ipureintro; rfl
    iexact Ho
  iexists _; isplitr
  swap; · iexact Hs
  ipureintro
  rw [read_writes_unit _ _ hzero]
  simp only [View.readAt_eq_ld, View.ld_unit_zero (S := S2560x128) hzero, View.ld_unit_zero (S := S2560x2560) hzero]

set_option maxHeartbeats 1000000 in
/-- The last column block (second branch taken, first not): the accumulator gains this block's product, and the
    result window's buffer, whatever it held, receives the accumulator clipped below at zero. -/
theorem sound_kernel1_c (c : Dev nD) (E : Set ℕ) (i : grid1.Coords)
    (arg2 : Memref sig .tc .vmem S2560x2560 .bf16) (harg2 : arg2.IsWhole)
    (arg3 : Memref sig .tc .vmem S2560x128 .bf16) (harg3 : arg3.IsWhole)
    (arg4 : Memref sig .tc .vmem S2560x128 .f32) (harg4 : arg4.IsWhole)
    (arg5 : Memref sig .tc .vmem S2560x128 .f32) (harg5 : arg5.IsWhole)
    (hca : ¬cond1_a i) (hcb : cond1_b i)
    (xa : Vec F S2560x2560 .bf16) (xy : Vec F S2560x128 .bf16) (acc : Vec F S2560x128 .f32)
    (K : PUnit → sProp 𝕄) :
    iprop(owns (c : Thread nD τ) arg2 fullShare xa ∗ owns (c : Thread nD τ) arg3 fullShare xy
        ∗ (∃ d, owns (c : Thread nD τ) arg4 fullShare d) ∗ owns (c : Thread nD τ) arg5 fullShare acc
        ∗ (iprop(owns (c : Thread nD τ) arg2 fullShare xa ∗ owns (c : Thread nD τ) arg3 fullShare xy
            ∗ owns (c : Thread nD τ) arg4 fullShare (k1_pay3 (k1_pay2 acc xa xy))
            ∗ owns (c : Thread nD τ) arg5 fullShare (k1_pay2 acc xa xy)) -∗ K ⟨⟩))
      ⊢ wp frame (wpE (defs₀ (F := F)) Variants.none c none) E (cc1__prop_kernel i arg2 harg2 arg3 harg3 arg4 harg4 arg5 harg5) K := by
  simp only [cc1__prop_kernel_eq_skeleton]; unfold cc1__prop_kernel_skel
  unfold owns
  iintro ⟨⟨%fa, %hfa, Ha⟩, ⟨%fy, %hfy, Hy⟩, ⟨%dout, %fo, -, Ho⟩, ⟨%fs, %hfs, Hs⟩, Hk⟩
  subst hfa; subst hfy; subst hfs
  sl_exec (disch := first | exact hca | exact hcb)
  sl_step
  iapply Hk
  isplitl [Ha]
  · iexists fa; isplitr; · ipureintro; rfl
    iexact Ha
  isplitl [Hy]
  · iexists fy; isplitr; · ipureintro; rfl
    iexact Hy
  isplitl [Ho]
  · iexists _; isplitr
    swap; · iexact Ho
    ipureintro
    sl_unfold_run_names
    rw [read_writes_unit _ _ hzero, View.readCov_unit_zero (S := S2560x128) _ hzero]
    simp only [View.readAt_eq_ld, View.ld_unit_zero (S := S2560x128) hzero, View.ld_unit_zero (S := S2560x2560) hzero]
  iexists _; isplitr
  swap; · iexact Hs
  ipureintro
  sl_unfold_run_names
  rw [read_writes_unit _ _ hzero]
  simp only [View.readAt_eq_ld, View.ld_unit_zero (S := S2560x128) hzero, View.ld_unit_zero (S := S2560x2560) hzero]

/-! ## The invariant, position by position -/

theorem PhiS1_zero (c : Dev nD) (n : ℕ) (h : n ≤ cfg1.N) (hz : n = 0) : PhiS1 V c n h = Pipeline.ΦA spec1 c := by
  subst hz; rfl

/-- After point `n`: the accumulator at that point's contents. -/
theorem PhiS1_succ (c : Dev nD) (n : ℕ) (hn : n < cfg1.N) :
    PhiS1 V c (n + 1) hn
      = iprop(owns (c : Thread nD τ) scM1 fullShare (accAt1 V c n hn) ∗ restS1 (F := F) c ∗ (∃ r, prngReg c r)) := rfl

/-- Before a point that is not the first: the accumulator at what the point before left. -/
theorem PhiS1_pos (c : Dev nD) (n : ℕ) (h : n ≤ cfg1.N) (hz : n ≠ 0) :
    PhiS1 V c n h
      = iprop(owns (c : Thread nD τ) scM1 fullShare (accAt1 V c (n - 1) (by omega)) ∗ restS1 (F := F) c ∗ (∃ r, prngReg c r)) := by
  cases n with
  | zero => exact absurd rfl hz
  | succ n => rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## The accumulator's recursion, at a point of the grid -/

/-- At the first column block of a row of blocks the accumulator restarts from the zero fill. -/
theorem accAt1_first (c : Dev nD) (t : Fin cfg1.N) (hz : t.val % 4 = 0) :
    accAt1 V c t.val t.isLt = k1_pay2 (k1_pay1 (F := F)) (ablk1 V c t) (yblk1 V c t) := by
  obtain ⟨n, hn⟩ := t
  cases n with
  | zero => rfl
  | succ n => exact (if_pos hz).trans rfl

/-- At any other column block it continues from what the point before left. -/
theorem accAt1_next (c : Dev nD) (t : Fin cfg1.N) (hz : ¬t.val % 4 = 0) :
    accAt1 V c t.val t.isLt
      = k1_pay2 (accAt1 V c (t.val - 1) (Nat.lt_of_le_of_lt (Nat.sub_le _ _) t.isLt)) (ablk1 V c t) (yblk1 V c t) := by
  obtain ⟨n, hn⟩ := t
  cases n with
  | zero => exact absurd (Nat.zero_mod _) hz
  | succ n => exact (if_neg hz).trans rfl

/-! ## The body obligation, at a generic point -/

/-- What the body is called with at point `t`: the invariant, what the core owes, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The two input buffers hold their blocks; the position in the row of blocks says which of
    the three triples applies; the invariant hands the body the accumulator at what the point before left (at
    anything at the very first point) and takes it back at this point's contents; the result window's buffer is
    handed back as found except at the last column block, where it receives the clipped accumulator; the core owes
    nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (win1_0.stage (cfg1.slots t 0)) fullShare ((dat1 V c).after 0 t) from by
    unfold Dat.leavesExact; rw [idle1_a t], after1_0]
  rw [show (dat1 V c).leavesExact 1 t = owns (c : Thread nD τ) (win1_1.stage (cfg1.slots t 1)) fullShare ((dat1 V c).after 1 t) from by
    unfold Dat.leavesExact; rw [idle1_y t], after1_1]
  by_cases hz : t.val % 4 = 0
  · have hc3 : ¬t.val % 4 = 3 := by omega
    rw [Dat.leavesExact_idle (dat1 V c) 2 t (idle1_out t hc3) (flush1_out t hc3)]
    rw [accAt1_first V c t hz]
    by_cases hfirst : t.val = 0
    · rw [PhiS1_castSucc V c t, PhiS1_zero V c _ _ hfirst, PhiA1_eq]
      iintro ⟨⟨Hs, Hr, Hg⟩, Hw, ⟨%da, Ha⟩, ⟨%dy, Hy⟩, ⟨%dout, Ho⟩⟩
      iapply (sound_kernel1_a c Set.univ (grid1.coords t) _ _ _ _ _ _ _ _ ((hcond1_a t).mpr hz) (fun h => hc3 ((hcond1_b t).mp h))
        (iblk1 V c 0 t) (iblk1 V c 1 t) ((dat1 V c).before 2 t dout) _)
      isplitl [Ha]; · iexact Ha
      isplitl [Hy]; · iexact Hy
      isplitl [Ho]; · iexact Ho
      isplitl [Hs]; · iexact Hs
      iintro ⟨Ha, Hy, Ho, Hs⟩
      isplitl [Hs Hr Hg]
      · isplitl [Hs]; · iexact Hs
        isplitl [Hr]; · iexact Hr
        iexact Hg
      isplitl [Hw]; · iexact Hw
      isplitl [Ha]; · iexact Ha
      isplitl [Hy]; · iexact Hy
      iexists _; iexact Ho
    · rw [PhiS1_castSucc V c t, PhiS1_pos V c _ _ hfirst]
      iintro ⟨⟨Hs, Hr, Hg⟩, Hw, ⟨%da, Ha⟩, ⟨%dy, Hy⟩, ⟨%dout, Ho⟩⟩
      iapply (sound_kernel1_a c Set.univ (grid1.coords t) _ _ _ _ _ _ _ _ ((hcond1_a t).mpr hz) (fun h => hc3 ((hcond1_b t).mp h))
        (iblk1 V c 0 t) (iblk1 V c 1 t) ((dat1 V c).before 2 t dout) _)
      isplitl [Ha]; · iexact Ha
      isplitl [Hy]; · iexact Hy
      isplitl [Ho]; · iexact Ho
      isplitl [Hs]; · iexists _; iexact Hs
      iintro ⟨Ha, Hy, Ho, Hs⟩
      isplitl [Hs Hr Hg]
      · isplitl [Hs]; · iexact Hs
        isplitl [Hr]; · iexact Hr
        iexact Hg
      isplitl [Hw]; · iexact Hw
      isplitl [Ha]; · iexact Ha
      isplitl [Hy]; · iexact Hy
      iexists _; iexact Ho
  · have hfirst : t.val ≠ 0 := fun h => hz (by rw [h])
    rw [accAt1_next V c t hz]
    rw [PhiS1_castSucc V c t, PhiS1_pos V c _ _ hfirst]
    by_cases hc3 : t.val % 4 = 3
    · rw [show (dat1 V c).leavesExact 2 t = owns (c : Thread nD τ) (win1_2.stage (cfg1.slots t 2)) fullShare ((dat1 V c).after 2 t) from by
        unfold Dat.leavesExact; rw [idle1_last t hc3], after1_2]
      unfold outAt1
      rw [accAt1_next V c t hz]
      iintro ⟨⟨Hs, Hr, Hg⟩, Hw, ⟨%da, Ha⟩, ⟨%dy, Hy⟩, ⟨%dout, Ho⟩⟩
      iapply (sound_kernel1_c c Set.univ (grid1.coords t) _ _ _ _ _ _ _ _ (fun h => hz ((hcond1_a t).mp h)) ((hcond1_b t).mpr hc3)
        (iblk1 V c 0 t) (iblk1 V c 1 t) (accAt1 V c (t.val - 1) _) _)
      isplitl [Ha]; · iexact Ha
      isplitl [Hy]; · iexact Hy
      isplitl [Ho]; · iexists _; iexact Ho
      isplitl [Hs]; · iexact Hs
      iintro ⟨Ha, Hy, Ho, Hs⟩
      isplitl [Hs Hr Hg]
      · isplitl [Hs]; · iexact Hs
        isplitl [Hr]; · iexact Hr
        iexact Hg
      isplitl [Hw]; · iexact Hw
      isplitl [Ha]; · iexact Ha
      isplitl [Hy]; · iexact Hy
      iexact Ho
    · rw [Dat.leavesExact_idle (dat1 V c) 2 t (idle1_out t hc3) (flush1_out t hc3)]
      iintro ⟨⟨Hs, Hr, Hg⟩, Hw, ⟨%da, Ha⟩, ⟨%dy, Hy⟩, ⟨%dout, Ho⟩⟩
      iapply (sound_kernel1_b c Set.univ (grid1.coords t) _ _ _ _ _ _ _ _ (fun h => hz ((hcond1_a t).mp h)) (fun h => hc3 ((hcond1_b t).mp h))
        (iblk1 V c 0 t) (iblk1 V c 1 t) ((dat1 V c).before 2 t dout) (accAt1 V c (t.val - 1) _) _)
      isplitl [Ha]; · iexact Ha
      isplitl [Hy]; · iexact Hy
      isplitl [Ho]; · iexact Ho
      isplitl [Hs]; · iexact Hs
      iintro ⟨Ha, Hy, Ho, Hs⟩
      isplitl [Hs Hr Hg]
      · isplitl [Hs]; · iexact Hs
        isplitl [Hr]; · iexact Hr
        iexact Hg
      isplitl [Hw]; · iexact Hw
      isplitl [Ha]; · iexact Ha
      isplitl [Hy]; · iexact Hy
      iexists _; iexact Ho

/-! ## The three obligations of the launch -/

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped rest and the register back: what the accumulator holds is
    forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 16 := N_1; omega), PhiA1_eq]
  iintro ⟨Hs, Hr, Hg⟩
  isplitl [Hs]; · iexists _; iexact Hs
  isplitl [Hr]; · iexact Hr
  iexact Hg

end Cert.Kernel.Hand

end
-- ==== Proof.K.Run.lean ====
/-
  The kernel program's run: host operations, the first propagation, host operations, the second propagation, host
  operations. Every weakly fair execution terminates, and every final memory holds, at each buffer that outlives the
  regions, the contents `W5` the boundaries' fold computes; the arguments' buffers are never written.
-/
import proofs.«404076_j36386962932143_1_alg».proof.Proof.K.Bounds
import proofs.«404076_j36386962932143_1_alg».proof.Proof.K.Body0
import proofs.«404076_j36386962932143_1_alg».proof.Proof.K.Body1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## No host operation and no region writes an argument's buffer -/

/-- Of a line of host operations, each writing one named buffer: the reference at hand is none of those buffers. -/
local macro "unwritten " ops:ident : tactic => `(tactic| (
  refine List.forall_iff_forall_mem.mp ?_
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

set_option maxHeartbeats 4000000 in
/-- No host operation and no region writes an argument's buffer: each propagation's arrays are three intermediate
    buffers, and every host operation writes an intermediate buffer, so the fold walks back to the launch memory. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (by unwritten hostOps2)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (by unwritten hostOps1)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (by unwritten hostOps0)
    _ = m ((c : Thread nD τ).loc main_arg0) := rfl
set_option maxHeartbeats 4000000 in
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (by unwritten hostOps2)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (by unwritten hostOps1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (by unwritten hostOps0)
    _ = m ((c : Thread nD τ).loc main_arg1) := rfl
set_option maxHeartbeats 4000000 in
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (by unwritten hostOps2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (by unwritten hostOps1)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (by unwritten hostOps0)
    _ = m ((c : Thread nD τ).loc main_arg2) := rfl
set_option maxHeartbeats 4000000 in
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (by unwritten hostOps2)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (by unwritten hostOps1)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (by unwritten hostOps0)
    _ = m ((c : Thread nD τ).loc main_arg3) := rfl
set_option maxHeartbeats 4000000 in
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_forall_not_mem (b := Proc.devRef .tc main_arg4) _ _ (by unwritten hostOps2)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (by unwritten hostOps1)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (by unwritten hostOps0)
    _ = m ((c : Thread nD τ).loc main_arg4) := rfl
set_option maxHeartbeats 4000000 in
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_forall_not_mem (b := Proc.devRef .tc main_arg5) _ _ (by unwritten hostOps2)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (by unwritten hostOps1)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (by unwritten hostOps0)
    _ = m ((c : Thread nD τ).loc main_arg5) := rfl
set_option maxHeartbeats 4000000 in
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_forall_not_mem (b := Proc.devRef .tc main_arg6) _ _ (by unwritten hostOps2)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (by unwritten hostOps1)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (by unwritten hostOps0)
    _ = m ((c : Thread nD τ).loc main_arg6) := rfl
set_option maxHeartbeats 4000000 in
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_forall_not_mem (b := Proc.devRef .tc main_arg7) _ _ (by unwritten hostOps2)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (by unwritten hostOps1)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (by unwritten hostOps0)
    _ = m ((c : Thread nD τ).loc main_arg7) := rfl

/-! ## The proof data family and the thread state -/

/-- The prefetched tables' admissible contents: no pipeline has a table. -/
abbrev adm : (p : Fin 2) → (pcfgs (F := F) p).Adm := fun p => (cfgs p).toPCfg_adm
/-- Each propagation's proof data at the contents its region is entered with. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debts,
    none. -/
abbrev R (c : Dev nD) : sProp 𝕄 := iprop((∃ r, prngReg c r) ∗ ∃ W, owes (c : Thread nD τ) (0 : CellTallies nD τ sig Unit) W)
/-- A line of host operations as a segment: over the unscoped references from the contents `W` to the contents after
    the line, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
/-- No host operation before the first propagation allocates a buffer. -/
theorem hostOps0_fresh : (hostOps0 : List (HloOp τ sig (Elt F))).Forall fun op => op.fresh = ∅ := by
  simp only [List.Forall]; repeat' constructor
/-- No host operation between the propagations allocates a buffer. -/
theorem hostOps1_fresh : (hostOps1 : List (HloOp τ sig (Elt F))).Forall fun op => op.fresh = ∅ := by
  simp only [List.Forall]; repeat' constructor
/-- No host operation after the second propagation allocates a buffer. -/
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the final contents `W5`, the generator register at
    some state. -/
abbrev Tₙ (c : Dev nD) : sProp 𝕄 := iprop(StableHlo.held (c : Thread nD τ) (Pipeline.ucRefs τ sig) (W5 m ρ c) ∗ ∃ r, prngReg c r)

/-! ## The propagations as segments -/

-- a library lemma stated over the pinned configuration `pin pcs a p` unifies with the printed one only when unification
-- may unfold plain definitions in a metavariable's type
set_option backward.isDefEq.respectTransparency.types false in
/-- Propagation 0 over the thread state: entered from every unscoped buffer at `W1`, left at `W2`. Its three arrays
    are split out of the unscoped buffers and put back at what the grid's write-backs leave; the generator register goes
    into the invariant before the first point and comes back from the invariant after the last; nothing is owed; the
    kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration `pin pcs a p` unifies with the printed one only when unification
-- may unfold plain definitions in a metavariable's type
set_option backward.isDefEq.respectTransparency.types false in
/-- Propagation 1 over the thread state: entered from every unscoped buffer at `W3`, left at `W4`. Its three arrays
    are split out of the unscoped buffers and put back at what the grid's write-backs leave; the generator register goes
    into the invariant before the first point and comes back from the invariant after the last; nothing is owed; the
    kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's five segments in order: a host segment per line of host operations from its boundary's contents, a
    region per propagation. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- The program is the run of its segments: it is the chain of its five items, and so is the segments' run. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN. -/
theorem run_main : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W5 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitr [HO]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c b hb => h c _ (mem_uc b hb))

end Cert.Kernel.Hand

end
-- ==== Proof.KI.Dat0.lean ====
/-
  Region 0 of the kernel program (the first propagation `relu (A · Y)`), at the buffer contents `V` the region is
  entered with: the blocks of its three windows, what the accumulator holds after each grid point, and the proof data.
  The grid is 4 × 4, point `t = 4 i + k`: row block `i` of the result, column block `k` of `A`.
-/
import proofs.«404076_j36386962932143_1_alg».proof.Proof.Gen.KernelIdeal.Launch
import proofs.«404076_j36386962932143_1_alg».proof.Proof.Gen.KernelIdeal.Skeleton
import proofs.«404076_j36386962932143_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 2560 × 2560 block of `A` at point `t` (rows of block `t / 4`, columns of block `t % 4`). -/
abbrev ablk0 (c : Dev nD) (t : Fin cfg0.N) : Vec F S2560x2560 .bf16 := iblk0 V c 0 t
/-- The 2560 × 128 block of `Y` at point `t` (rows of block `t % 4`). -/
abbrev yblk0 (c : Dev nD) (t : Fin cfg0.N) : Vec F S2560x128 .bf16 := iblk0 V c 1 t

/-- The accumulator after point `n`: at the first column block of a row of blocks (`n % 4 = 0`) the zero fill plus that
    block's product; otherwise what the point before left plus this block's product. -/
def accAt0 (c : Dev nD) : (n : ℕ) → n < cfg0.N → Vec F S2560x128 .f32
  | 0, h => k0_pay2 (k0_pay1 (F := F)) (ablk0 V c ⟨0, h⟩) (yblk0 V c ⟨0, h⟩)
  | n + 1, h =>
    if (n + 1) % 4 = 0 then k0_pay2 (k0_pay1 (F := F)) (ablk0 V c ⟨n + 1, h⟩) (yblk0 V c ⟨n + 1, h⟩)
    else k0_pay2 (accAt0 c n (Nat.lt_of_succ_lt h)) (ablk0 V c ⟨n + 1, h⟩) (yblk0 V c ⟨n + 1, h⟩)

/-- What the body stores into the result window's buffer at the last column block: the accumulator clipped below at zero. -/
def outAt0 (c : Dev nD) (t : Fin cfg0.N) : Vec F S2560x128 .f32 := k0_pay3 (accAt0 V c t.val t.isLt)

/-- The accumulator as a memref: the whole scratch buffer. -/
abbrev scM0 : Memref sig .tc .vmem S2560x128 .f32 := Memref.whole cc0_scratch0

/-- The core's scoped buffers other than this region's staging buffers and its accumulator, each whole at some contents. -/
def restS0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_scratch0), ((c : Thread nD τ).loc cc1_scratch0) ↦{fullShare} f))

/-- The region invariant before position `n`: before the first point every scoped buffer the pipeline does not stage at
    anything and the generator register at some state; afterwards the accumulator at what the point before left in it
    (`accAt0`), the other such buffers at anything, the register at some state. -/
def PhiS0 (V : (c : Dev nD) → (b : Ref sig .tc) → Buf (Elt F) ((c : Thread nD τ).loc b)) (c : Dev nD) :
    (n : ℕ) → n ≤ cfg0.N → sProp 𝕄
  | 0, _ => Pipeline.ΦA spec0 c
  | n + 1, hn => iprop(owns (c : Thread nD τ) scM0 fullShare (accAt0 V c n hn) ∗ restS0 (F := F) c ∗ (∃ r, prngReg c r))

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outAt0 V c t := by dsimp only [dat0]

end Cert.KernelIdeal.Hand

end
-- ==== Proof.KI.Dat1.lean ====
/-
  Region 1 of the kernel program (the second propagation `relu (A · Y)`), at the buffer contents `V` the region is
  entered with: the blocks of its three windows, what the accumulator holds after each grid point, and the proof data.
  The grid is 4 × 4, point `t = 4 i + k`: row block `i` of the result, column block `k` of `A`.
-/
import proofs.«404076_j36386962932143_1_alg».proof.Proof.Gen.KernelIdeal.Launch
import proofs.«404076_j36386962932143_1_alg».proof.Proof.Gen.KernelIdeal.Skeleton
import proofs.«404076_j36386962932143_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The 2560 × 2560 block of `A` at point `t` (rows of block `t / 4`, columns of block `t % 4`). -/
abbrev ablk1 (c : Dev nD) (t : Fin cfg1.N) : Vec F S2560x2560 .bf16 := iblk1 V c 0 t
/-- The 2560 × 128 block of `Y` at point `t` (rows of block `t % 4`). -/
abbrev yblk1 (c : Dev nD) (t : Fin cfg1.N) : Vec F S2560x128 .bf16 := iblk1 V c 1 t

/-- The accumulator after point `n`: at the first column block of a row of blocks (`n % 4 = 0`) the zero fill plus that
    block's product; otherwise what the point before left plus this block's product. -/
def accAt1 (c : Dev nD) : (n : ℕ) → n < cfg1.N → Vec F S2560x128 .f32
  | 0, h => k1_pay2 (k1_pay1 (F := F)) (ablk1 V c ⟨0, h⟩) (yblk1 V c ⟨0, h⟩)
  | n + 1, h =>
    if (n + 1) % 4 = 0 then k1_pay2 (k1_pay1 (F := F)) (ablk1 V c ⟨n + 1, h⟩) (yblk1 V c ⟨n + 1, h⟩)
    else k1_pay2 (accAt1 c n (Nat.lt_of_succ_lt h)) (ablk1 V c ⟨n + 1, h⟩) (yblk1 V c ⟨n + 1, h⟩)

/-- What the body stores into the result window's buffer at the last column block: the accumulator clipped below at zero. -/
def outAt1 (c : Dev nD) (t : Fin cfg1.N) : Vec F S2560x128 .f32 := k1_pay3 (accAt1 V c t.val t.isLt)

/-- The accumulator as a memref: the whole scratch buffer. -/
abbrev scM1 : Memref sig .tc .vmem S2560x128 .f32 := Memref.whole cc1_scratch0

/-- The core's scoped buffers other than this region's staging buffers and its accumulator, each whole at some contents. -/
def restS1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_scratch0), ((c : Thread nD τ).loc cc0_scratch0) ↦{fullShare} f))

/-- The region invariant before position `n`: before the first point every scoped buffer the pipeline does not stage at
    anything and the generator register at some state; afterwards the accumulator at what the point before left in it
    (`accAt1`), the other such buffers at anything, the register at some state. -/
def PhiS1 (V : (c : Dev nD) → (b : Ref sig .tc) → Buf (Elt F) ((c : Thread nD τ).loc b)) (c : Dev nD) :
    (n : ℕ) → n ≤ cfg1.N → sProp 𝕄
  | 0, _ => Pipeline.ΦA spec1 c
  | n + 1, hn => iprop(owns (c : Thread nD τ) scM1 fullShare (accAt1 V c n hn) ∗ restS1 (F := F) c ∗ (∃ r, prngReg c r))

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt1 V c t := by dsimp only [dat1]

end Cert.KernelIdeal.Hand

end
-- ==== Proof.KI.Bounds.lean ====
/-
  The buffer contents at each boundary of the kernel program's run: at launch, after the host operations before the
  first propagation, after the first propagation (its result array at what the grid's write-backs leave), after the
  host operations between the two, after the second propagation, and at the end.
-/
import proofs.«404076_j36386962932143_1_alg».proof.Proof.KI.Dat0
import proofs.«404076_j36386962932143_1_alg».proof.Proof.KI.Dat1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host operations before the first propagation. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first propagation: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host operations between the two propagations. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second propagation. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- At the end: after the host operations that follow the second propagation. -/
abbrev W5 : Dev nD → Valuation τ sig (Elt F) := fun c => StableHlo.after hostOps2 (W4 m ρ c)

end Cert.KernelIdeal.Hand

end
-- ==== Proof.KI.Body0.lean ====
/-
  Region 0's kernel body at every grid point: from the invariant and the three windows' buffers before the point it
  runs to the invariant and the buffers after it; and how the invariant meets the launch at its two ends.
-/
import proofs.«404076_j36386962932143_1_alg».proof.Proof.KI.Dat0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two branch conditions, over the grid -/

/-- The first branch's condition: the column-block coordinate is zero. -/
abbrev cond0_a (i : grid0.Coords) : Prop :=
  (Scalar.cmpi .ne (Scalar.extui (Scalar.cmpi .eq (BitVec.ofNat 32 (i 1).val) 0#32)) 0#32) = 1#1
/-- It holds exactly at the first column block of each row of blocks. -/
theorem hcond0_a : ∀ t : Fin cfg0.N, cond0_a (grid0.coords t) ↔ t.val % 4 = 0 :=
  (by decide +kernel : ∀ t : Fin grid0.N, cond0_a (grid0.coords t) ↔ t.val % 4 = 0)

/-- The second branch's condition: the column-block coordinate is the last. -/
abbrev cond0_b (i : grid0.Coords) : Prop := k0_cond2 i = 1#1
/-- It holds exactly at the last column block of each row of blocks. -/
theorem hcond0_b : ∀ t : Fin cfg0.N, cond0_b (grid0.coords t) ↔ t.val % 4 = 3 :=
  (by decide +kernel : ∀ t : Fin grid0.N, cond0_b (grid0.coords t) ↔ t.val % 4 = 3)

/-! ## Where the windows are idle -/

/-- The two input windows are never idle. -/
theorem idle0_a : ∀ t : Fin cfg0.N, cfg0.idle 0 (grid0.coords t) = false := by decide +kernel
theorem idle0_y : ∀ t : Fin cfg0.N, cfg0.idle 1 (grid0.coords t) = false := by decide +kernel
/-- The result window is idle away from the last column block, -/
theorem idle0_out : ∀ t : Fin cfg0.N, ¬t.val % 4 = 3 → cfg0.idle 2 (grid0.coords t) = true := by decide +kernel
/-- is not written back there, -/
theorem flush0_out : ∀ t : Fin cfg0.N, ¬t.val % 4 = 3 → (cfg0.win 2).flush t = false := by decide +kernel
/-- and is live at the last column block. -/
theorem idle0_last : ∀ t : Fin cfg0.N, t.val % 4 = 3 → cfg0.idle 2 (grid0.coords t) = false := by decide +kernel

/-! ## What the input windows' buffers hold at a point -/

/-- The block of `A` is fetched at every point, so its current buffer holds it. -/
theorem before0_0 (c : Dev nD) (t : Fin cfg0.N) (d) : (dat0 V c).before 0 t d = iblk0 V c 0 t :=
  ((dat0 V c).before_fetched 0 t (fetch0_0 t) d).trans
    (by unfold Dat.fetched Dat.blockOf iblk0; rw [A_eq0]; try rfl)
/-- So is the block of `Y`. -/
theorem before0_1 (c : Dev nD) (t : Fin cfg0.N) (d) : (dat0 V c).before 1 t d = iblk0 V c 1 t :=
  ((dat0 V c).before_fetched 1 t (fetch0_1 t) d).trans
    (by unfold Dat.fetched Dat.blockOf iblk0; rw [A_eq0]; try rfl)

/-! ## The launch's invariant with the accumulator set apart -/

/-- Separating conjunction is associative, as an equation between assertions. -/
private theorem sep_assoc_eq (X Y Z : sProp 𝕄) : iprop((X ∗ Y) ∗ Z) = iprop(X ∗ Y ∗ Z) :=
  BI.Entails.antisymm
    (show iprop((X ∗ Y) ∗ Z) ⊢ iprop(X ∗ Y ∗ Z) from by
      iintro ⟨⟨Hx, Hy⟩, Hz⟩
      isplitl [Hx]; · iexact Hx
      isplitl [Hy]; · iexact Hy
      iexact Hz)
    (show iprop(X ∗ Y ∗ Z) ⊢ iprop((X ∗ Y) ∗ Z) from by
      iintro ⟨Hx, Hy, Hz⟩
      isplitl [Hx Hy]
      · isplitl [Hx]; · iexact Hx
        iexact Hy
      iexact Hz)

/-- The scoped buffers the pipeline does not stage and the generator register, the accumulator named first. -/
theorem PhiA0_eq (c : Dev nD) :
    (Pipeline.ΦA spec0 c : sProp 𝕄)
      = iprop((∃ d, owns (c : Thread nD τ) scM0 fullShare d) ∗ restS0 (F := F) c ∗ (∃ r, prngReg c r)) := by
  unfold Pipeline.ΦA; rw [scopedRest0_eq]; unfold restS0; simp only [scM0, owns_whole]
  exact sep_assoc_eq _ _ _

/-! ## The body's run, one triple for each way its two branches go

Each access of the body is a whole buffer: the unit rectangle at zero offsets. -/

/-- Those offsets are zero on both axes. -/
private theorem hzero : (![0, 0] : Fin 2 → Nat) = fun _ => 0 := funext fun a => by fin_cases a <;> rfl

/-- A buffer whose last write is a whole-buffer store reads back as that store's payload, whatever was written before. -/
private theorem read_writes_unit {Val : EltTy → Type} [∀ e, Nonempty (Val e)] {sg : RefSig} {κ : Kind} {sp : Space}
    {S : Shape} {e : EltTy} (v : View sg κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, .head _, View.mem_set_unit_zero h inb y⟩)).trans
    (View.canon_cons_unit_zero h inb w L)

set_option maxHeartbeats 1000000 in
/-- The first column block (first branch taken, second not): the accumulator, whatever it held, is filled with
    zeros and gains this block's product; the result window's buffer is not touched. -/
theorem sound_kernel0_a (c : Dev nD) (E : Set ℕ) (i : grid0.Coords)
    (arg2 : Memref sig .tc .vmem S2560x2560 .bf16) (harg2 : arg2.IsWhole)
    (arg3 : Memref sig .tc .vmem S2560x128 .bf16) (harg3 : arg3.IsWhole)
    (arg4 : Memref sig .tc .vmem S2560x128 .f32) (harg4 : arg4.IsWhole)
    (arg5 : Memref sig .tc .vmem S2560x128 .f32) (harg5 : arg5.IsWhole)
    (hca : cond0_a i) (hcb : ¬cond0_b i)
    (xa : Vec F S2560x2560 .bf16) (xy : Vec F S2560x128 .bf16) (xo : Vec F S2560x128 .f32)
    (K : PUnit → sProp 𝕄) :
    iprop(owns (c : Thread nD τ) arg2 fullShare xa ∗ owns (c : Thread nD τ) arg3 fullShare xy
        ∗ owns (c : Thread nD τ) arg4 fullShare xo ∗ (∃ d, owns (c : Thread nD τ) arg5 fullShare d)
        ∗ (iprop(owns (c : Thread nD τ) arg2 fullShare xa ∗ owns (c : Thread nD τ) arg3 fullShare xy
            ∗ owns (c : Thread nD τ) arg4 fullShare xo
            ∗ owns (c : Thread nD τ) arg5 fullShare (k0_pay2 (k0_pay1 (F := F)) xa xy)) -∗ K ⟨⟩))
      ⊢ wp frame (wpE (defs₀ (F := F)) Variants.none c none) E (cc0__prop_kernel i arg2 harg2 arg3 harg3 arg4 harg4 arg5 harg5) K := by
  simp only [cc0__prop_kernel_eq_skeleton]; unfold cc0__prop_kernel_skel
  unfold owns
  iintro ⟨⟨%fa, %hfa, Ha⟩, ⟨%fy, %hfy, Hy⟩, ⟨%fo, %hfo, Ho⟩, ⟨%ds, %fs, -, Hs⟩, Hk⟩
  subst hfa; subst hfy; subst hfo
  sl_exec (disch := first | exact hca | exact hcb)
  sl_step
  iapply Hk
  isplitl [Ha]
  · iexists fa; isplitr; · ipureintro; rfl
    iexact Ha
  isplitl [Hy]
  · iexists fy; isplitr; · ipureintro; rfl
    iexact Hy
  isplitl [Ho]
  · iexists fo; isplitr; · ipureintro; rfl
    iexact Ho
  iexists _; isplitr
  swap; · iexact Hs
  ipureintro
  sl_unfold_run_names
  rw [read_writes_unit _ _ hzero, View.readCov_unit_zero (S := S2560x128) _ hzero]
  simp only [View.readAt_eq_ld, View.ld_unit_zero (S := S2560x128) hzero, View.ld_unit_zero (S := S2560x2560) hzero]

set_option maxHeartbeats 1000000 in
/-- A middle column block (neither branch taken): the accumulator gains this block's product; the result
    window's buffer is not touched. -/
theorem sound_kernel0_b (c : Dev nD) (E : Set ℕ) (i : grid0.Coords)
    (arg2 : Memref sig .tc .vmem S2560x2560 .bf16) (harg2 : arg2.IsWhole)
    (arg3 : Memref sig .tc .vmem S2560x128 .bf16) (harg3 : arg3.IsWhole)
    (arg4 : Memref sig .tc .vmem S2560x128 .f32) (harg4 : arg4.IsWhole)
    (arg5 : Memref sig .tc .vmem S2560x128 .f32) (harg5 : arg5.IsWhole)
    (hca : ¬cond0_a i) (hcb : ¬cond0_b i)
    (xa : Vec F S2560x2560 .bf16) (xy : Vec F S2560x128 .bf16) (xo : Vec F S2560x128 .f32) (acc : Vec F S2560x128 .f32)
    (K : PUnit → sProp 𝕄) :
    iprop(owns (c : Thread nD τ) arg2 fullShare xa ∗ owns (c : Thread nD τ) arg3 fullShare xy
        ∗ owns (c : Thread nD τ) arg4 fullShare xo ∗ owns (c : Thread nD τ) arg5 fullShare acc
        ∗ (iprop(owns (c : Thread nD τ) arg2 fullShare xa ∗ owns (c : Thread nD τ) arg3 fullShare xy
            ∗ owns (c : Thread nD τ) arg4 fullShare xo
            ∗ owns (c : Thread nD τ) arg5 fullShare (k0_pay2 acc xa xy)) -∗ K ⟨⟩))
      ⊢ wp frame (wpE (defs₀ (F := F)) Variants.none c none) E (cc0__prop_kernel i arg2 harg2 arg3 harg3 arg4 harg4 arg5 harg5) K := by
  simp only [cc0__prop_kernel_eq_skeleton]; unfold cc0__prop_kernel_skel
  unfold owns
  iintro ⟨⟨%fa, %hfa, Ha⟩, ⟨%fy, %hfy, Hy⟩, ⟨%fo, %hfo, Ho⟩, ⟨%fs, %hfs, Hs⟩, Hk⟩
  subst hfa; subst hfy; subst hfo; subst hfs
  sl_exec (disch := first | exact hca | exact hcb)
  sl_step
  iapply Hk
  isplitl [Ha]
  · iexists fa; isplitr; · ipureintro; rfl
    iexact Ha
  isplitl [Hy]
  · iexists fy; isplitr; · ipureintro; rfl
    iexact Hy
  isplitl [Ho]
  · iexists fo; isplitr; · ipureintro; rfl
    iexact Ho
  iexists _; isplitr
  swap; · iexact Hs
  ipureintro
  rw [read_writes_unit _ _ hzero]
  simp only [View.readAt_eq_ld, View.ld_unit_zero (S := S2560x128) hzero, View.ld_unit_zero (S := S2560x2560) hzero]

set_option maxHeartbeats 1000000 in
/-- The last column block (second branch taken, first not): the accumulator gains this block's product, and the
    result window's buffer, whatever it held, receives the accumulator clipped below at zero. -/
theorem sound_kernel0_c (c : Dev nD) (E : Set ℕ) (i : grid0.Coords)
    (arg2 : Memref sig .tc .vmem S2560x2560 .bf16) (harg2 : arg2.IsWhole)
    (arg3 : Memref sig .tc .vmem S2560x128 .bf16) (harg3 : arg3.IsWhole)
    (arg4 : Memref sig .tc .vmem S2560x128 .f32) (harg4 : arg4.IsWhole)
    (arg5 : Memref sig .tc .vmem S2560x128 .f32) (harg5 : arg5.IsWhole)
    (hca : ¬cond0_a i) (hcb : cond0_b i)
    (xa : Vec F S2560x2560 .bf16) (xy : Vec F S2560x128 .bf16) (acc : Vec F S2560x128 .f32)
    (K : PUnit → sProp 𝕄) :
    iprop(owns (c : Thread nD τ) arg2 fullShare xa ∗ owns (c : Thread nD τ) arg3 fullShare xy
        ∗ (∃ d, owns (c : Thread nD τ) arg4 fullShare d) ∗ owns (c : Thread nD τ) arg5 fullShare acc
        ∗ (iprop(owns (c : Thread nD τ) arg2 fullShare xa ∗ owns (c : Thread nD τ) arg3 fullShare xy
            ∗ owns (c : Thread nD τ) arg4 fullShare (k0_pay3 (k0_pay2 acc xa xy))
            ∗ owns (c : Thread nD τ) arg5 fullShare (k0_pay2 acc xa xy)) -∗ K ⟨⟩))
      ⊢ wp frame (wpE (defs₀ (F := F)) Variants.none c none) E (cc0__prop_kernel i arg2 harg2 arg3 harg3 arg4 harg4 arg5 harg5) K := by
  simp only [cc0__prop_kernel_eq_skeleton]; unfold cc0__prop_kernel_skel
  unfold owns
  iintro ⟨⟨%fa, %hfa, Ha⟩, ⟨%fy, %hfy, Hy⟩, ⟨%dout, %fo, -, Ho⟩, ⟨%fs, %hfs, Hs⟩, Hk⟩
  subst hfa; subst hfy; subst hfs
  sl_exec (disch := first | exact hca | exact hcb)
  sl_step
  iapply Hk
  isplitl [Ha]
  · iexists fa; isplitr; · ipureintro; rfl
    iexact Ha
  isplitl [Hy]
  · iexists fy; isplitr; · ipureintro; rfl
    iexact Hy
  isplitl [Ho]
  · iexists _; isplitr
    swap; · iexact Ho
    ipureintro
    sl_unfold_run_names
    rw [read_writes_unit _ _ hzero, View.readCov_unit_zero (S := S2560x128) _ hzero]
    simp only [View.readAt_eq_ld, View.ld_unit_zero (S := S2560x128) hzero, View.ld_unit_zero (S := S2560x2560) hzero]
  iexists _; isplitr
  swap; · iexact Hs
  ipureintro
  sl_unfold_run_names
  rw [read_writes_unit _ _ hzero]
  simp only [View.readAt_eq_ld, View.ld_unit_zero (S := S2560x128) hzero, View.ld_unit_zero (S := S2560x2560) hzero]

/-! ## The invariant, position by position -/

theorem PhiS0_zero (c : Dev nD) (n : ℕ) (h : n ≤ cfg0.N) (hz : n = 0) : PhiS0 V c n h = Pipeline.ΦA spec0 c := by
  subst hz; rfl

/-- After point `n`: the accumulator at that point's contents. -/
theorem PhiS0_succ (c : Dev nD) (n : ℕ) (hn : n < cfg0.N) :
    PhiS0 V c (n + 1) hn
      = iprop(owns (c : Thread nD τ) scM0 fullShare (accAt0 V c n hn) ∗ restS0 (F := F) c ∗ (∃ r, prngReg c r)) := rfl

/-- Before a point that is not the first: the accumulator at what the point before left. -/
theorem PhiS0_pos (c : Dev nD) (n : ℕ) (h : n ≤ cfg0.N) (hz : n ≠ 0) :
    PhiS0 V c n h
      = iprop(owns (c : Thread nD τ) scM0 fullShare (accAt0 V c (n - 1) (by omega)) ∗ restS0 (F := F) c ∗ (∃ r, prngReg c r)) := by
  cases n with
  | zero => exact absurd rfl hz
  | succ n => rfl

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-! ## The accumulator's recursion, at a point of the grid -/

/-- At the first column block of a row of blocks the accumulator restarts from the zero fill. -/
theorem accAt0_first (c : Dev nD) (t : Fin cfg0.N) (hz : t.val % 4 = 0) :
    accAt0 V c t.val t.isLt = k0_pay2 (k0_pay1 (F := F)) (ablk0 V c t) (yblk0 V c t) := by
  obtain ⟨n, hn⟩ := t
  cases n with
  | zero => rfl
  | succ n => exact (if_pos hz).trans rfl

/-- At any other column block it continues from what the point before left. -/
theorem accAt0_next (c : Dev nD) (t : Fin cfg0.N) (hz : ¬t.val % 4 = 0) :
    accAt0 V c t.val t.isLt
      = k0_pay2 (accAt0 V c (t.val - 1) (Nat.lt_of_le_of_lt (Nat.sub_le _ _) t.isLt)) (ablk0 V c t) (yblk0 V c t) := by
  obtain ⟨n, hn⟩ := t
  cases n with
  | zero => exact absurd (Nat.zero_mod _) hz
  | succ n => exact (if_neg hz).trans rfl

/-! ## The body obligation, at a generic point -/

/-- What the body is called with at point `t`: the invariant, what the core owes, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (win0_0.stage (cfg0.slots t 0)) fullShare ((dat0 V c).before 0 t d))
    ∗ (∃ d, owns (c : Thread nD τ) (win0_1.stage (cfg0.slots t 1)) fullShare ((dat0 V c).before 1 t d))
    ∗ (∃ d, owns (c : Thread nD τ) (win0_2.stage (cfg0.slots t 2)) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The two input buffers hold their blocks; the position in the row of blocks says which of
    the three triples applies; the invariant hands the body the accumulator at what the point before left (at
    anything at the very first point) and takes it back at this point's contents; the result window's buffer is
    handed back as found except at the last column block, where it receives the clipped accumulator; the core owes
    nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (win0_0.stage (cfg0.slots t 0)) fullShare ((dat0 V c).after 0 t) from by
    unfold Dat.leavesExact; rw [idle0_a t], after0_0]
  rw [show (dat0 V c).leavesExact 1 t = owns (c : Thread nD τ) (win0_1.stage (cfg0.slots t 1)) fullShare ((dat0 V c).after 1 t) from by
    unfold Dat.leavesExact; rw [idle0_y t], after0_1]
  by_cases hz : t.val % 4 = 0
  · have hc3 : ¬t.val % 4 = 3 := by omega
    rw [Dat.leavesExact_idle (dat0 V c) 2 t (idle0_out t hc3) (flush0_out t hc3)]
    rw [accAt0_first V c t hz]
    by_cases hfirst : t.val = 0
    · rw [PhiS0_castSucc V c t, PhiS0_zero V c _ _ hfirst, PhiA0_eq]
      iintro ⟨⟨Hs, Hr, Hg⟩, Hw, ⟨%da, Ha⟩, ⟨%dy, Hy⟩, ⟨%dout, Ho⟩⟩
      iapply (sound_kernel0_a c Set.univ (grid0.coords t) _ _ _ _ _ _ _ _ ((hcond0_a t).mpr hz) (fun h => hc3 ((hcond0_b t).mp h))
        (iblk0 V c 0 t) (iblk0 V c 1 t) ((dat0 V c).before 2 t dout) _)
      isplitl [Ha]; · iexact Ha
      isplitl [Hy]; · iexact Hy
      isplitl [Ho]; · iexact Ho
      isplitl [Hs]; · iexact Hs
      iintro ⟨Ha, Hy, Ho, Hs⟩
      isplitl [Hs Hr Hg]
      · isplitl [Hs]; · iexact Hs
        isplitl [Hr]; · iexact Hr
        iexact Hg
      isplitl [Hw]; · iexact Hw
      isplitl [Ha]; · iexact Ha
      isplitl [Hy]; · iexact Hy
      iexists _; iexact Ho
    · rw [PhiS0_castSucc V c t, PhiS0_pos V c _ _ hfirst]
      iintro ⟨⟨Hs, Hr, Hg⟩, Hw, ⟨%da, Ha⟩, ⟨%dy, Hy⟩, ⟨%dout, Ho⟩⟩
      iapply (sound_kernel0_a c Set.univ (grid0.coords t) _ _ _ _ _ _ _ _ ((hcond0_a t).mpr hz) (fun h => hc3 ((hcond0_b t).mp h))
        (iblk0 V c 0 t) (iblk0 V c 1 t) ((dat0 V c).before 2 t dout) _)
      isplitl [Ha]; · iexact Ha
      isplitl [Hy]; · iexact Hy
      isplitl [Ho]; · iexact Ho
      isplitl [Hs]; · iexists _; iexact Hs
      iintro ⟨Ha, Hy, Ho, Hs⟩
      isplitl [Hs Hr Hg]
      · isplitl [Hs]; · iexact Hs
        isplitl [Hr]; · iexact Hr
        iexact Hg
      isplitl [Hw]; · iexact Hw
      isplitl [Ha]; · iexact Ha
      isplitl [Hy]; · iexact Hy
      iexists _; iexact Ho
  · have hfirst : t.val ≠ 0 := fun h => hz (by rw [h])
    rw [accAt0_next V c t hz]
    rw [PhiS0_castSucc V c t, PhiS0_pos V c _ _ hfirst]
    by_cases hc3 : t.val % 4 = 3
    · rw [show (dat0 V c).leavesExact 2 t = owns (c : Thread nD τ) (win0_2.stage (cfg0.slots t 2)) fullShare ((dat0 V c).after 2 t) from by
        unfold Dat.leavesExact; rw [idle0_last t hc3], after0_2]
      unfold outAt0
      rw [accAt0_next V c t hz]
      iintro ⟨⟨Hs, Hr, Hg⟩, Hw, ⟨%da, Ha⟩, ⟨%dy, Hy⟩, ⟨%dout, Ho⟩⟩
      iapply (sound_kernel0_c c Set.univ (grid0.coords t) _ _ _ _ _ _ _ _ (fun h => hz ((hcond0_a t).mp h)) ((hcond0_b t).mpr hc3)
        (iblk0 V c 0 t) (iblk0 V c 1 t) (accAt0 V c (t.val - 1) _) _)
      isplitl [Ha]; · iexact Ha
      isplitl [Hy]; · iexact Hy
      isplitl [Ho]; · iexists _; iexact Ho
      isplitl [Hs]; · iexact Hs
      iintro ⟨Ha, Hy, Ho, Hs⟩
      isplitl [Hs Hr Hg]
      · isplitl [Hs]; · iexact Hs
        isplitl [Hr]; · iexact Hr
        iexact Hg
      isplitl [Hw]; · iexact Hw
      isplitl [Ha]; · iexact Ha
      isplitl [Hy]; · iexact Hy
      iexact Ho
    · rw [Dat.leavesExact_idle (dat0 V c) 2 t (idle0_out t hc3) (flush0_out t hc3)]
      iintro ⟨⟨Hs, Hr, Hg⟩, Hw, ⟨%da, Ha⟩, ⟨%dy, Hy⟩, ⟨%dout, Ho⟩⟩
      iapply (sound_kernel0_b c Set.univ (grid0.coords t) _ _ _ _ _ _ _ _ (fun h => hz ((hcond0_a t).mp h)) (fun h => hc3 ((hcond0_b t).mp h))
        (iblk0 V c 0 t) (iblk0 V c 1 t) ((dat0 V c).before 2 t dout) (accAt0 V c (t.val - 1) _) _)
      isplitl [Ha]; · iexact Ha
      isplitl [Hy]; · iexact Hy
      isplitl [Ho]; · iexact Ho
      isplitl [Hs]; · iexact Hs
      iintro ⟨Ha, Hy, Ho, Hs⟩
      isplitl [Hs Hr Hg]
      · isplitl [Hs]; · iexact Hs
        isplitl [Hr]; · iexact Hr
        iexact Hg
      isplitl [Hw]; · iexact Hw
      isplitl [Ha]; · iexact Ha
      isplitl [Hy]; · iexact Hy
      iexists _; iexact Ho

/-! ## The three obligations of the launch -/

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the scoped rest and the register back: what the accumulator holds is
    forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 16 := N_0; omega), PhiA0_eq]
  iintro ⟨Hs, Hr, Hg⟩
  isplitl [Hs]; · iexists _; iexact Hs
  isplitl [Hr]; · iexact Hr
  iexact Hg

end Cert.KernelIdeal.Hand

end
-- ==== Proof.KI.Body1.lean ====
/-
  Region 1's kernel body at every grid point: from the invariant and the three windows' buffers before the point it
  runs to the invariant and the buffers after it; and how the invariant meets the launch at its two ends.
-/
import proofs.«404076_j36386962932143_1_alg».proof.Proof.KI.Dat1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two branch conditions, over the grid -/

/-- The first branch's condition: the column-block coordinate is zero. -/
abbrev cond1_a (i : grid1.Coords) : Prop :=
  (Scalar.cmpi .ne (Scalar.extui (Scalar.cmpi .eq (BitVec.ofNat 32 (i 1).val) 0#32)) 0#32) = 1#1
/-- It holds exactly at the first column block of each row of blocks. -/
theorem hcond1_a : ∀ t : Fin cfg1.N, cond1_a (grid1.coords t) ↔ t.val % 4 = 0 :=
  (by decide +kernel : ∀ t : Fin grid1.N, cond1_a (grid1.coords t) ↔ t.val % 4 = 0)

/-- The second branch's condition: the column-block coordinate is the last. -/
abbrev cond1_b (i : grid1.Coords) : Prop := k1_cond2 i = 1#1
/-- It holds exactly at the last column block of each row of blocks. -/
theorem hcond1_b : ∀ t : Fin cfg1.N, cond1_b (grid1.coords t) ↔ t.val % 4 = 3 :=
  (by decide +kernel : ∀ t : Fin grid1.N, cond1_b (grid1.coords t) ↔ t.val % 4 = 3)

/-! ## Where the windows are idle -/

/-- The two input windows are never idle. -/
theorem idle1_a : ∀ t : Fin cfg1.N, cfg1.idle 0 (grid1.coords t) = false := by decide +kernel
theorem idle1_y : ∀ t : Fin cfg1.N, cfg1.idle 1 (grid1.coords t) = false := by decide +kernel
/-- The result window is idle away from the last column block, -/
theorem idle1_out : ∀ t : Fin cfg1.N, ¬t.val % 4 = 3 → cfg1.idle 2 (grid1.coords t) = true := by decide +kernel
/-- is not written back there, -/
theorem flush1_out : ∀ t : Fin cfg1.N, ¬t.val % 4 = 3 → (cfg1.win 2).flush t = false := by decide +kernel
/-- and is live at the last column block. -/
theorem idle1_last : ∀ t : Fin cfg1.N, t.val % 4 = 3 → cfg1.idle 2 (grid1.coords t) = false := by decide +kernel

/-! ## What the input windows' buffers hold at a point -/

/-- The block of `A` is fetched at every point, so its current buffer holds it. -/
theorem before1_0 (c : Dev nD) (t : Fin cfg1.N) (d) : (dat1 V c).before 0 t d = iblk1 V c 0 t :=
  ((dat1 V c).before_fetched 0 t (fetch1_0 t) d).trans
    (by unfold Dat.fetched Dat.blockOf iblk1; rw [A_eq1]; try rfl)
/-- So is the block of `Y`. -/
theorem before1_1 (c : Dev nD) (t : Fin cfg1.N) (d) : (dat1 V c).before 1 t d = iblk1 V c 1 t :=
  ((dat1 V c).before_fetched 1 t (fetch1_1 t) d).trans
    (by unfold Dat.fetched Dat.blockOf iblk1; rw [A_eq1]; try rfl)

/-! ## The launch's invariant with the accumulator set apart -/

/-- Separating conjunction is associative, as an equation between assertions. -/
private theorem sep_assoc_eq (X Y Z : sProp 𝕄) : iprop((X ∗ Y) ∗ Z) = iprop(X ∗ Y ∗ Z) :=
  BI.Entails.antisymm
    (show iprop((X ∗ Y) ∗ Z) ⊢ iprop(X ∗ Y ∗ Z) from by
      iintro ⟨⟨Hx, Hy⟩, Hz⟩
      isplitl [Hx]; · iexact Hx
      isplitl [Hy]; · iexact Hy
      iexact Hz)
    (show iprop(X ∗ Y ∗ Z) ⊢ iprop((X ∗ Y) ∗ Z) from by
      iintro ⟨Hx, Hy, Hz⟩
      isplitl [Hx Hy]
      · isplitl [Hx]; · iexact Hx
        iexact Hy
      iexact Hz)

/-- Eight assertions and a ninth: the last of the eight may be named first, as an equation between assertions. -/
private theorem sep_last_first_eq (B1 B2 B3 B4 B5 B6 B7 S G : sProp 𝕄) :
    iprop((B1 ∗ B2 ∗ B3 ∗ B4 ∗ B5 ∗ B6 ∗ B7 ∗ S) ∗ G) = iprop(S ∗ (B1 ∗ B2 ∗ B3 ∗ B4 ∗ B5 ∗ B6 ∗ B7) ∗ G) :=
  BI.Entails.antisymm
    (show iprop((B1 ∗ B2 ∗ B3 ∗ B4 ∗ B5 ∗ B6 ∗ B7 ∗ S) ∗ G) ⊢ iprop(S ∗ (B1 ∗ B2 ∗ B3 ∗ B4 ∗ B5 ∗ B6 ∗ B7) ∗ G) from by
      iintro ⟨⟨H1, H2, H3, H4, H5, H6, H7, Hs⟩, Hg⟩
      isplitl [Hs]; · iexact Hs
      isplitr [Hg]
      · isplitl [H1]; · iexact H1
        isplitl [H2]; · iexact H2
        isplitl [H3]; · iexact H3
        isplitl [H4]; · iexact H4
        isplitl [H5]; · iexact H5
        isplitl [H6]; · iexact H6
        iexact H7
      · iexact Hg)
    (show iprop(S ∗ (B1 ∗ B2 ∗ B3 ∗ B4 ∗ B5 ∗ B6 ∗ B7) ∗ G) ⊢ iprop((B1 ∗ B2 ∗ B3 ∗ B4 ∗ B5 ∗ B6 ∗ B7 ∗ S) ∗ G) from by
      iintro ⟨Hs, ⟨H1, H2, H3, H4, H5, H6, H7⟩, Hg⟩
      isplitr [Hg]
      · isplitl [H1]; · iexact H1
        isplitl [H2]; · iexact H2
        isplitl [H3]; · iexact H3
        isplitl [H4]; · iexact H4
        isplitl [H5]; · iexact H5
        isplitl [H6]; · iexact H6
        isplitl [H7]; · iexact H7
        iexact Hs
      · iexact Hg)

/-- The scoped buffers the pipeline does not stage and the generator register, the accumulator named first. -/
theorem PhiA1_eq (c : Dev nD) :
    (Pipeline.ΦA spec1 c : sProp 𝕄)
      = iprop((∃ d, owns (c : Thread nD τ) scM1 fullShare d) ∗ restS1 (F := F) c ∗ (∃ r, prngReg c r)) := by
  unfold Pipeline.ΦA; rw [scopedRest1_eq]; unfold restS1; simp only [scM1, owns_whole]
  exact sep_last_first_eq _ _ _ _ _ _ _ _ _

/-! ## The body's run, one triple for each way its two branches go

Each access of the body is a whole buffer: the unit rectangle at zero offsets. -/

/-- Those offsets are zero on both axes. -/
private theorem hzero : (![0, 0] : Fin 2 → Nat) = fun _ => 0 := funext fun a => by fin_cases a <;> rfl

/-- A buffer whose last write is a whole-buffer store reads back as that store's payload, whatever was written before. -/
private theorem read_writes_unit {Val : EltTy → Type} [∀ e, Nonempty (Val e)] {sg : RefSig} {κ : Kind} {sp : Space}
    {S : Shape} {e : EltTy} (v : View sg κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, .head _, View.mem_set_unit_zero h inb y⟩)).trans
    (View.canon_cons_unit_zero h inb w L)

set_option maxHeartbeats 1000000 in
/-- The first column block (first branch taken, second not): the accumulator, whatever it held, is filled with
    zeros and gains this block's product; the result window's buffer is not touched. -/
theorem sound_kernel1_a (c : Dev nD) (E : Set ℕ) (i : grid1.Coords)
    (arg2 : Memref sig .tc .vmem S2560x2560 .bf16) (harg2 : arg2.IsWhole)
    (arg3 : Memref sig .tc .vmem S2560x128 .bf16) (harg3 : arg3.IsWhole)
    (arg4 : Memref sig .tc .vmem S2560x128 .f32) (harg4 : arg4.IsWhole)
    (arg5 : Memref sig .tc .vmem S2560x128 .f32) (harg5 : arg5.IsWhole)
    (hca : cond1_a i) (hcb : ¬cond1_b i)
    (xa : Vec F S2560x2560 .bf16) (xy : Vec F S2560x128 .bf16) (xo : Vec F S2560x128 .f32)
    (K : PUnit → sProp 𝕄) :
    iprop(owns (c : Thread nD τ) arg2 fullShare xa ∗ owns (c : Thread nD τ) arg3 fullShare xy
        ∗ owns (c : Thread nD τ) arg4 fullShare xo ∗ (∃ d, owns (c : Thread nD τ) arg5 fullShare d)
        ∗ (iprop(owns (c : Thread nD τ) arg2 fullShare xa ∗ owns (c : Thread nD τ) arg3 fullShare xy
            ∗ owns (c : Thread nD τ) arg4 fullShare xo
            ∗ owns (c : Thread nD τ) arg5 fullShare (k1_pay2 (k1_pay1 (F := F)) xa xy)) -∗ K ⟨⟩))
      ⊢ wp frame (wpE (defs₀ (F := F)) Variants.none c none) E (cc1__prop_kernel i arg2 harg2 arg3 harg3 arg4 harg4 arg5 harg5) K := by
  simp only [cc1__prop_kernel_eq_skeleton]; unfold cc1__prop_kernel_skel
  unfold owns
  iintro ⟨⟨%fa, %hfa, Ha⟩, ⟨%fy, %hfy, Hy⟩, ⟨%fo, %hfo, Ho⟩, ⟨%ds, %fs, -, Hs⟩, Hk⟩
  subst hfa; subst hfy; subst hfo
  sl_exec (disch := first | exact hca | exact hcb)
  sl_step
  iapply Hk
  isplitl [Ha]
  · iexists fa; isplitr; · ipureintro; rfl
    iexact Ha
  isplitl [Hy]
  · iexists fy; isplitr; · ipureintro; rfl
    iexact Hy
  isplitl [Ho]
  · iexists fo; isplitr; · ipureintro; rfl
    iexact Ho
  iexists _; isplitr
  swap; · iexact Hs
  ipureintro
  sl_unfold_run_names
  rw [read_writes_unit _ _ hzero, View.readCov_unit_zero (S := S2560x128) _ hzero]
  simp only [View.readAt_eq_ld, View.ld_unit_zero (S := S2560x128) hzero, View.ld_unit_zero (S := S2560x2560) hzero]

set_option maxHeartbeats 1000000 in
/-- A middle column block (neither branch taken): the accumulator gains this block's product; the result
    window's buffer is not touched. -/
theorem sound_kernel1_b (c : Dev nD) (E : Set ℕ) (i : grid1.Coords)
    (arg2 : Memref sig .tc .vmem S2560x2560 .bf16) (harg2 : arg2.IsWhole)
    (arg3 : Memref sig .tc .vmem S2560x128 .bf16) (harg3 : arg3.IsWhole)
    (arg4 : Memref sig .tc .vmem S2560x128 .f32) (harg4 : arg4.IsWhole)
    (arg5 : Memref sig .tc .vmem S2560x128 .f32) (harg5 : arg5.IsWhole)
    (hca : ¬cond1_a i) (hcb : ¬cond1_b i)
    (xa : Vec F S2560x2560 .bf16) (xy : Vec F S2560x128 .bf16) (xo : Vec F S2560x128 .f32) (acc : Vec F S2560x128 .f32)
    (K : PUnit → sProp 𝕄) :
    iprop(owns (c : Thread nD τ) arg2 fullShare xa ∗ owns (c : Thread nD τ) arg3 fullShare xy
        ∗ owns (c : Thread nD τ) arg4 fullShare xo ∗ owns (c : Thread nD τ) arg5 fullShare acc
        ∗ (iprop(owns (c : Thread nD τ) arg2 fullShare xa ∗ owns (c : Thread nD τ) arg3 fullShare xy
            ∗ owns (c : Thread nD τ) arg4 fullShare xo
            ∗ owns (c : Thread nD τ) arg5 fullShare (k1_pay2 acc xa xy)) -∗ K ⟨⟩))
      ⊢ wp frame (wpE (defs₀ (F := F)) Variants.none c none) E (cc1__prop_kernel i arg2 harg2 arg3 harg3 arg4 harg4 arg5 harg5) K := by
  simp only [cc1__prop_kernel_eq_skeleton]; unfold cc1__prop_kernel_skel
  unfold owns
  iintro ⟨⟨%fa, %hfa, Ha⟩, ⟨%fy, %hfy, Hy⟩, ⟨%fo, %hfo, Ho⟩, ⟨%fs, %hfs, Hs⟩, Hk⟩
  subst hfa; subst hfy; subst hfo; subst hfs
  sl_exec (disch := first | exact hca | exact hcb)
  sl_step
  iapply Hk
  isplitl [Ha]
  · iexists fa; isplitr; · ipureintro; rfl
    iexact Ha
  isplitl [Hy]
  · iexists fy; isplitr; · ipureintro; rfl
    iexact Hy
  isplitl [Ho]
  · iexists fo; isplitr; · ipureintro; rfl
    iexact Ho
  iexists _; isplitr
  swap; · iexact Hs
  ipureintro
  rw [read_writes_unit _ _ hzero]
  simp only [View.readAt_eq_ld, View.ld_unit_zero (S := S2560x128) hzero, View.ld_unit_zero (S := S2560x2560) hzero]

set_option maxHeartbeats 1000000 in
/-- The last column block (second branch taken, first not): the accumulator gains this block's product, and the
    result window's buffer, whatever it held, receives the accumulator clipped below at zero. -/
theorem sound_kernel1_c (c : Dev nD) (E : Set ℕ) (i : grid1.Coords)
    (arg2 : Memref sig .tc .vmem S2560x2560 .bf16) (harg2 : arg2.IsWhole)
    (arg3 : Memref sig .tc .vmem S2560x128 .bf16) (harg3 : arg3.IsWhole)
    (arg4 : Memref sig .tc .vmem S2560x128 .f32) (harg4 : arg4.IsWhole)
    (arg5 : Memref sig .tc .vmem S2560x128 .f32) (harg5 : arg5.IsWhole)
    (hca : ¬cond1_a i) (hcb : cond1_b i)
    (xa : Vec F S2560x2560 .bf16) (xy : Vec F S2560x128 .bf16) (acc : Vec F S2560x128 .f32)
    (K : PUnit → sProp 𝕄) :
    iprop(owns (c : Thread nD τ) arg2 fullShare xa ∗ owns (c : Thread nD τ) arg3 fullShare xy
        ∗ (∃ d, owns (c : Thread nD τ) arg4 fullShare d) ∗ owns (c : Thread nD τ) arg5 fullShare acc
        ∗ (iprop(owns (c : Thread nD τ) arg2 fullShare xa ∗ owns (c : Thread nD τ) arg3 fullShare xy
            ∗ owns (c : Thread nD τ) arg4 fullShare (k1_pay3 (k1_pay2 acc xa xy))
            ∗ owns (c : Thread nD τ) arg5 fullShare (k1_pay2 acc xa xy)) -∗ K ⟨⟩))
      ⊢ wp frame (wpE (defs₀ (F := F)) Variants.none c none) E (cc1__prop_kernel i arg2 harg2 arg3 harg3 arg4 harg4 arg5 harg5) K := by
  simp only [cc1__prop_kernel_eq_skeleton]; unfold cc1__prop_kernel_skel
  unfold owns
  iintro ⟨⟨%fa, %hfa, Ha⟩, ⟨%fy, %hfy, Hy⟩, ⟨%dout, %fo, -, Ho⟩, ⟨%fs, %hfs, Hs⟩, Hk⟩
  subst hfa; subst hfy; subst hfs
  sl_exec (disch := first | exact hca | exact hcb)
  sl_step
  iapply Hk
  isplitl [Ha]
  · iexists fa; isplitr; · ipureintro; rfl
    iexact Ha
  isplitl [Hy]
  · iexists fy; isplitr; · ipureintro; rfl
    iexact Hy
  isplitl [Ho]
  · iexists _; isplitr
    swap; · iexact Ho
    ipureintro
    sl_unfold_run_names
    rw [read_writes_unit _ _ hzero, View.readCov_unit_zero (S := S2560x128) _ hzero]
    simp only [View.readAt_eq_ld, View.ld_unit_zero (S := S2560x128) hzero, View.ld_unit_zero (S := S2560x2560) hzero]
  iexists _; isplitr
  swap; · iexact Hs
  ipureintro
  sl_unfold_run_names
  rw [read_writes_unit _ _ hzero]
  simp only [View.readAt_eq_ld, View.ld_unit_zero (S := S2560x128) hzero, View.ld_unit_zero (S := S2560x2560) hzero]

/-! ## The invariant, position by position -/

theorem PhiS1_zero (c : Dev nD) (n : ℕ) (h : n ≤ cfg1.N) (hz : n = 0) : PhiS1 V c n h = Pipeline.ΦA spec1 c := by
  subst hz; rfl

/-- After point `n`: the accumulator at that point's contents. -/
theorem PhiS1_succ (c : Dev nD) (n : ℕ) (hn : n < cfg1.N) :
    PhiS1 V c (n + 1) hn
      = iprop(owns (c : Thread nD τ) scM1 fullShare (accAt1 V c n hn) ∗ restS1 (F := F) c ∗ (∃ r, prngReg c r)) := rfl

/-- Before a point that is not the first: the accumulator at what the point before left. -/
theorem PhiS1_pos (c : Dev nD) (n : ℕ) (h : n ≤ cfg1.N) (hz : n ≠ 0) :
    PhiS1 V c n h
      = iprop(owns (c : Thread nD τ) scM1 fullShare (accAt1 V c (n - 1) (by omega)) ∗ restS1 (F := F) c ∗ (∃ r, prngReg c r)) := by
  cases n with
  | zero => exact absurd rfl hz
  | succ n => rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## The accumulator's recursion, at a point of the grid -/

/-- At the first column block of a row of blocks the accumulator restarts from the zero fill. -/
theorem accAt1_first (c : Dev nD) (t : Fin cfg1.N) (hz : t.val % 4 = 0) :
    accAt1 V c t.val t.isLt = k1_pay2 (k1_pay1 (F := F)) (ablk1 V c t) (yblk1 V c t) := by
  obtain ⟨n, hn⟩ := t
  cases n with
  | zero => rfl
  | succ n => exact (if_pos hz).trans rfl

/-- At any other column block it continues from what the point before left. -/
theorem accAt1_next (c : Dev nD) (t : Fin cfg1.N) (hz : ¬t.val % 4 = 0) :
    accAt1 V c t.val t.isLt
      = k1_pay2 (accAt1 V c (t.val - 1) (Nat.lt_of_le_of_lt (Nat.sub_le _ _) t.isLt)) (ablk1 V c t) (yblk1 V c t) := by
  obtain ⟨n, hn⟩ := t
  cases n with
  | zero => exact absurd (Nat.zero_mod _) hz
  | succ n => exact (if_neg hz).trans rfl

/-! ## The body obligation, at a generic point -/

/-- What the body is called with at point `t`: the invariant, what the core owes, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The two input buffers hold their blocks; the position in the row of blocks says which of
    the three triples applies; the invariant hands the body the accumulator at what the point before left (at
    anything at the very first point) and takes it back at this point's contents; the result window's buffer is
    handed back as found except at the last column block, where it receives the clipped accumulator; the core owes
    nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (win1_0.stage (cfg1.slots t 0)) fullShare ((dat1 V c).after 0 t) from by
    unfold Dat.leavesExact; rw [idle1_a t], after1_0]
  rw [show (dat1 V c).leavesExact 1 t = owns (c : Thread nD τ) (win1_1.stage (cfg1.slots t 1)) fullShare ((dat1 V c).after 1 t) from by
    unfold Dat.leavesExact; rw [idle1_y t], after1_1]
  by_cases hz : t.val % 4 = 0
  · have hc3 : ¬t.val % 4 = 3 := by omega
    rw [Dat.leavesExact_idle (dat1 V c) 2 t (idle1_out t hc3) (flush1_out t hc3)]
    rw [accAt1_first V c t hz]
    by_cases hfirst : t.val = 0
    · rw [PhiS1_castSucc V c t, PhiS1_zero V c _ _ hfirst, PhiA1_eq]
      iintro ⟨⟨Hs, Hr, Hg⟩, Hw, ⟨%da, Ha⟩, ⟨%dy, Hy⟩, ⟨%dout, Ho⟩⟩
      iapply (sound_kernel1_a c Set.univ (grid1.coords t) _ _ _ _ _ _ _ _ ((hcond1_a t).mpr hz) (fun h => hc3 ((hcond1_b t).mp h))
        (iblk1 V c 0 t) (iblk1 V c 1 t) ((dat1 V c).before 2 t dout) _)
      isplitl [Ha]; · iexact Ha
      isplitl [Hy]; · iexact Hy
      isplitl [Ho]; · iexact Ho
      isplitl [Hs]; · iexact Hs
      iintro ⟨Ha, Hy, Ho, Hs⟩
      isplitl [Hs Hr Hg]
      · isplitl [Hs]; · iexact Hs
        isplitl [Hr]; · iexact Hr
        iexact Hg
      isplitl [Hw]; · iexact Hw
      isplitl [Ha]; · iexact Ha
      isplitl [Hy]; · iexact Hy
      iexists _; iexact Ho
    · rw [PhiS1_castSucc V c t, PhiS1_pos V c _ _ hfirst]
      iintro ⟨⟨Hs, Hr, Hg⟩, Hw, ⟨%da, Ha⟩, ⟨%dy, Hy⟩, ⟨%dout, Ho⟩⟩
      iapply (sound_kernel1_a c Set.univ (grid1.coords t) _ _ _ _ _ _ _ _ ((hcond1_a t).mpr hz) (fun h => hc3 ((hcond1_b t).mp h))
        (iblk1 V c 0 t) (iblk1 V c 1 t) ((dat1 V c).before 2 t dout) _)
      isplitl [Ha]; · iexact Ha
      isplitl [Hy]; · iexact Hy
      isplitl [Ho]; · iexact Ho
      isplitl [Hs]; · iexists _; iexact Hs
      iintro ⟨Ha, Hy, Ho, Hs⟩
      isplitl [Hs Hr Hg]
      · isplitl [Hs]; · iexact Hs
        isplitl [Hr]; · iexact Hr
        iexact Hg
      isplitl [Hw]; · iexact Hw
      isplitl [Ha]; · iexact Ha
      isplitl [Hy]; · iexact Hy
      iexists _; iexact Ho
  · have hfirst : t.val ≠ 0 := fun h => hz (by rw [h])
    rw [accAt1_next V c t hz]
    rw [PhiS1_castSucc V c t, PhiS1_pos V c _ _ hfirst]
    by_cases hc3 : t.val % 4 = 3
    · rw [show (dat1 V c).leavesExact 2 t = owns (c : Thread nD τ) (win1_2.stage (cfg1.slots t 2)) fullShare ((dat1 V c).after 2 t) from by
        unfold Dat.leavesExact; rw [idle1_last t hc3], after1_2]
      unfold outAt1
      rw [accAt1_next V c t hz]
      iintro ⟨⟨Hs, Hr, Hg⟩, Hw, ⟨%da, Ha⟩, ⟨%dy, Hy⟩, ⟨%dout, Ho⟩⟩
      iapply (sound_kernel1_c c Set.univ (grid1.coords t) _ _ _ _ _ _ _ _ (fun h => hz ((hcond1_a t).mp h)) ((hcond1_b t).mpr hc3)
        (iblk1 V c 0 t) (iblk1 V c 1 t) (accAt1 V c (t.val - 1) _) _)
      isplitl [Ha]; · iexact Ha
      isplitl [Hy]; · iexact Hy
      isplitl [Ho]; · iexists _; iexact Ho
      isplitl [Hs]; · iexact Hs
      iintro ⟨Ha, Hy, Ho, Hs⟩
      isplitl [Hs Hr Hg]
      · isplitl [Hs]; · iexact Hs
        isplitl [Hr]; · iexact Hr
        iexact Hg
      isplitl [Hw]; · iexact Hw
      isplitl [Ha]; · iexact Ha
      isplitl [Hy]; · iexact Hy
      iexact Ho
    · rw [Dat.leavesExact_idle (dat1 V c) 2 t (idle1_out t hc3) (flush1_out t hc3)]
      iintro ⟨⟨Hs, Hr, Hg⟩, Hw, ⟨%da, Ha⟩, ⟨%dy, Hy⟩, ⟨%dout, Ho⟩⟩
      iapply (sound_kernel1_b c Set.univ (grid1.coords t) _ _ _ _ _ _ _ _ (fun h => hz ((hcond1_a t).mp h)) (fun h => hc3 ((hcond1_b t).mp h))
        (iblk1 V c 0 t) (iblk1 V c 1 t) ((dat1 V c).before 2 t dout) (accAt1 V c (t.val - 1) _) _)
      isplitl [Ha]; · iexact Ha
      isplitl [Hy]; · iexact Hy
      isplitl [Ho]; · iexact Ho
      isplitl [Hs]; · iexact Hs
      iintro ⟨Ha, Hy, Ho, Hs⟩
      isplitl [Hs Hr Hg]
      · isplitl [Hs]; · iexact Hs
        isplitl [Hr]; · iexact Hr
        iexact Hg
      isplitl [Hw]; · iexact Hw
      isplitl [Ha]; · iexact Ha
      isplitl [Hy]; · iexact Hy
      iexists _; iexact Ho

/-! ## The three obligations of the launch -/

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped rest and the register back: what the accumulator holds is
    forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 16 := N_1; omega), PhiA1_eq]
  iintro ⟨Hs, Hr, Hg⟩
  isplitl [Hs]; · iexists _; iexact Hs
  isplitl [Hr]; · iexact Hr
  iexact Hg

end Cert.KernelIdeal.Hand

end
-- ==== Proof.KI.Run.lean ====
/-
  The kernel program's run: host operations, the first propagation, host operations, the second propagation, host
  operations. Every weakly fair execution terminates, and every final memory holds, at each buffer that outlives the
  regions, the contents `W5` the boundaries' fold computes; the arguments' buffers are never written.
-/
import proofs.«404076_j36386962932143_1_alg».proof.Proof.KI.Bounds
import proofs.«404076_j36386962932143_1_alg».proof.Proof.KI.Body0
import proofs.«404076_j36386962932143_1_alg».proof.Proof.KI.Body1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## No host operation and no region writes an argument's buffer -/

/-- Of a line of host operations, each writing one named buffer: the reference at hand is none of those buffers. -/
local macro "unwritten " ops:ident : tactic => `(tactic| (
  refine List.forall_iff_forall_mem.mp ?_
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

set_option maxHeartbeats 4000000 in
/-- No host operation and no region writes an argument's buffer: each propagation's arrays are three intermediate
    buffers, and every host operation writes an intermediate buffer, so the fold walks back to the launch memory. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (by unwritten hostOps2)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (by unwritten hostOps1)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (by unwritten hostOps0)
    _ = m ((c : Thread nD τ).loc main_arg0) := rfl
set_option maxHeartbeats 4000000 in
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (by unwritten hostOps2)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (by unwritten hostOps1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (by unwritten hostOps0)
    _ = m ((c : Thread nD τ).loc main_arg1) := rfl
set_option maxHeartbeats 4000000 in
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (by unwritten hostOps2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (by unwritten hostOps1)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (by unwritten hostOps0)
    _ = m ((c : Thread nD τ).loc main_arg2) := rfl
set_option maxHeartbeats 4000000 in
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (by unwritten hostOps2)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (by unwritten hostOps1)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (by unwritten hostOps0)
    _ = m ((c : Thread nD τ).loc main_arg3) := rfl
set_option maxHeartbeats 4000000 in
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_forall_not_mem (b := Proc.devRef .tc main_arg4) _ _ (by unwritten hostOps2)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (by unwritten hostOps1)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (by unwritten hostOps0)
    _ = m ((c : Thread nD τ).loc main_arg4) := rfl
set_option maxHeartbeats 4000000 in
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_forall_not_mem (b := Proc.devRef .tc main_arg5) _ _ (by unwritten hostOps2)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (by unwritten hostOps1)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (by unwritten hostOps0)
    _ = m ((c : Thread nD τ).loc main_arg5) := rfl
set_option maxHeartbeats 4000000 in
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_forall_not_mem (b := Proc.devRef .tc main_arg6) _ _ (by unwritten hostOps2)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (by unwritten hostOps1)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (by unwritten hostOps0)
    _ = m ((c : Thread nD τ).loc main_arg6) := rfl
set_option maxHeartbeats 4000000 in
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_forall_not_mem (b := Proc.devRef .tc main_arg7) _ _ (by unwritten hostOps2)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (by unwritten hostOps1)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (by unwritten hostOps0)
    _ = m ((c : Thread nD τ).loc main_arg7) := rfl

/-! ## The proof data family and the thread state -/

/-- The prefetched tables' admissible contents: no pipeline has a table. -/
abbrev adm : (p : Fin 2) → (pcfgs (F := F) p).Adm := fun p => (cfgs p).toPCfg_adm
/-- Each propagation's proof data at the contents its region is entered with. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debts,
    none. -/
abbrev R (c : Dev nD) : sProp 𝕄 := iprop((∃ r, prngReg c r) ∗ ∃ W, owes (c : Thread nD τ) (0 : CellTallies nD τ sig Unit) W)
/-- A line of host operations as a segment: over the unscoped references from the contents `W` to the contents after
    the line, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
/-- No host operation before the first propagation allocates a buffer. -/
theorem hostOps0_fresh : (hostOps0 : List (HloOp τ sig (Elt F))).Forall fun op => op.fresh = ∅ := by
  simp only [List.Forall]; repeat' constructor
/-- No host operation between the propagations allocates a buffer. -/
theorem hostOps1_fresh : (hostOps1 : List (HloOp τ sig (Elt F))).Forall fun op => op.fresh = ∅ := by
  simp only [List.Forall]; repeat' constructor
/-- No host operation after the second propagation allocates a buffer. -/
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the final contents `W5`, the generator register at
    some state. -/
abbrev Tₙ (c : Dev nD) : sProp 𝕄 := iprop(StableHlo.held (c : Thread nD τ) (Pipeline.ucRefs τ sig) (W5 m ρ c) ∗ ∃ r, prngReg c r)

/-! ## The propagations as segments -/

-- a library lemma stated over the pinned configuration `pin pcs a p` unifies with the printed one only when unification
-- may unfold plain definitions in a metavariable's type
set_option backward.isDefEq.respectTransparency.types false in
/-- Propagation 0 over the thread state: entered from every unscoped buffer at `W1`, left at `W2`. Its three arrays
    are split out of the unscoped buffers and put back at what the grid's write-backs leave; the generator register goes
    into the invariant before the first point and comes back from the invariant after the last; nothing is owed; the
    kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration `pin pcs a p` unifies with the printed one only when unification
-- may unfold plain definitions in a metavariable's type
set_option backward.isDefEq.respectTransparency.types false in
/-- Propagation 1 over the thread state: entered from every unscoped buffer at `W3`, left at `W4`. Its three arrays
    are split out of the unscoped buffers and put back at what the grid's write-backs leave; the generator register goes
    into the invariant before the first point and comes back from the invariant after the last; nothing is owed; the
    kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's five segments in order: a host segment per line of host operations from its boundary's contents, a
    region per propagation. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- The program is the run of its segments: it is the chain of its five items, and so is the segments' run. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN. -/
theorem run_main : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W5 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitr [HO]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c b hb => h c _ (mem_uc b hb))

end Cert.KernelIdeal.Hand

end
-- ==== Proof.LibGatherScatter.lean ====
import Idealize.ShloMosaic.PureOps.Ideal
import Idealize.ShloMosaic.Lib.ValueIdx
import Idealize.ShloMosaic.Lib.ValueIdxRank1
import Mathlib.Algebra.BigOperators.Group.Finset.Basic

/-!
# Row gathers and segment scatters, read at an index

`table[ids]` for a table of `N` rows of length `C` and `n` ids lowers to a gather whose start indices are the
ids as an `[n, 1]` array: result row `t` is the table's row at the id, read as a signed integer and clamped into
`[0, N - 1]`. A segment sum (`segment_sum(v, ids, K)`) lowers to a scatter-add of the `n` updates into `K`
zeros at the ids as an `[n, 1]` array: update `t` lands on element `s` exactly when the id, read signed and NOT
clamped, is `s`; an id outside `[0, K)` lands nowhere.
-/

noncomputable section

open scoped BigOperators
open Idealize.ShloMosaic Idealize.ShloMosaic.ValueIdx

namespace Cert.Lib

/-- The row a start word selects among `N` rows: the word read as a signed integer, clamped into `[0, N - 1]`. -/
def clampRow (N : Nat) (hN : 0 < N) (w : BitVec 32) : Fin N := ⟨min w.toInt.toNat (N - 1), by omega⟩

/-- A negative index counted from the end: `w + n` when `w < 0` (signed), else `w`. -/
def normIdx (n w : BitVec 32) : BitVec 32 := Scalar.select (IntOp.cmpi .slt w 0#32) (IntOp.addi w n) w

/-- The dimension numbers of a row gather: operand `[N, C]`, start indices `[n, 1]`, result `[n, C]`. -/
abbrev rowGatherDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(t, k)`: the operand's row at the clamped start word, place `k`. -/
theorem gather_rows_apply {α : Type} {N C n : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ 32) (t : Fin n) (k : Fin C) :
    Host.gather (rowGatherDims N C n wf) x idx (ix2 t k) = x (ix2 (clampRow N hN (idx (ix2 t 0))) k) := by
  unfold Host.gather
  congr 1
  -- axis 0 is collapsed and start-indexed: the clamped start word, no batching and no offset coordinate
  have h0 : (rowGatherDims N C n wf).start (ix2 t k) idx (0 : Fin 2) + (rowGatherDims N C n wf).batchCoord (ix2 t k) (0 : Fin 2)
      + (rowGatherDims N C n wf).offCoord (ix2 t k) (0 : Fin 2) = (clampRow N hN (idx (ix2 t 0))).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C n wf).startIndexMap from List.mem_singleton.mpr rfl)]
    have hsi : (rowGatherDims N C n wf).siIdx (ix2 t k) ⟨List.idxOf (0 : Fin 2) (rowGatherDims N C n wf).startIndexMap,
        List.idxOf_lt_length_iff.2 (List.mem_singleton.mpr rfl)⟩ = ix2 t 0 := by
      funext b; refine Fin.ext ?_
      match b with
      | ⟨0, _⟩ => rfl
      | ⟨1, _⟩ => rfl
    rw [hsi]
    rfl
  -- axis 1 is kept and not start-indexed: start 0, and the offset coordinate is the result's second coordinate
  have h1 : (rowGatherDims N C n wf).start (ix2 t k) idx (1 : Fin 2) + (rowGatherDims N C n wf).batchCoord (ix2 t k) (1 : Fin 2)
      + (rowGatherDims N C n wf).offCoord (ix2 t k) (1 : Fin 2) = k.val := by
    rw [GatherDims.batchCoord_eq_zero _ _ _ List.not_mem_nil]
    have hnot : (1 : Fin 2) ∉ (rowGatherDims N C n wf).startIndexMap := by
      show (1 : Fin 2) ∉ ([0] : List (Fin 2))
      decide
    have hk : (1 : Fin 2) ∈ (rowGatherDims N C n wf).sKept := by
      rw [GatherDims.mem_sKept]
      refine ⟨?_, List.not_mem_nil⟩
      show (1 : Fin 2) ∉ ([0] : List (Fin 2))
      decide
    unfold GatherDims.start
    rw [dif_neg hnot]
    simp only [Nat.zero_add, Nat.add_zero]
    unfold GatherDims.offCoord
    rw [dif_pos hk]
    rfl
  funext a
  refine Fin.ext ?_
  match a with
  | ⟨0, _⟩ => exact h0
  | ⟨1, _⟩ => exact h1

/-- The dimension numbers of an element gather from a flat table: operand `[N]`, start indices `[n, 1]`, result `[n]`. -/
abbrev eltGatherDims (N n : Nat)
    (wf : GatherDims.WF ⟨1, ![N]⟩ ⟨2, ![n, 1]⟩ ⟨1, ![n]⟩ [] [0] [] [0] [] 1 ![1]) :
    GatherDims ⟨1, ![N]⟩ ⟨2, ![n, 1]⟩ ⟨1, ![n]⟩ where
  offsetDims := []
  collapsedSliceDims := [0]
  operandBatchingDims := []
  startIndicesBatchingDims := []
  startIndexMap := [0]
  indexVectorDim := 1
  sliceSizes := ![1]
  wf := wf

/-- THE ELEMENT GATHER READ AT `t`: the table at the clamped start word. -/
theorem gather_elts_apply {α : Type} {N n : Nat} (hN : 0 < N)
    (wf : GatherDims.WF ⟨1, ![N]⟩ ⟨2, ![n, 1]⟩ ⟨1, ![n]⟩ [] [0] [] [0] [] 1 ![1])
    (x : (⟨1, ![N]⟩ : Shape).Idx → α) (idx : IVec ⟨2, ![n, 1]⟩ 32) (t : Fin n) :
    Host.gather (eltGatherDims N n wf) x idx (ix1 t) = x (ix1 (clampRow N hN (idx (ix2 t 0)))) := by
  unfold Host.gather
  congr 1
  funext a
  obtain rfl : a = 0 := Subsingleton.elim _ _
  refine Fin.ext ?_
  show (eltGatherDims N n wf).start (ix1 t) idx 0 + (eltGatherDims N n wf).batchCoord (ix1 t) 0
    + (eltGatherDims N n wf).offCoord (ix1 t) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (eltGatherDims N n wf).startIndexMap from List.mem_singleton.mpr rfl)]
  have hsi : (eltGatherDims N n wf).siIdx (ix1 t) ⟨List.idxOf (0 : Fin 1) (eltGatherDims N n wf).startIndexMap,
      List.idxOf_lt_length_iff.2 (List.mem_singleton.mpr rfl)⟩ = ix2 t 0 := by
    funext b; refine Fin.ext ?_
    match b with
    | ⟨0, _⟩ => rfl
    | ⟨1, _⟩ => rfl
  rw [hsi]
  rfl

/-- The dimension numbers of a segment scatter: operand `[K]`, scatter indices `[n, 1]`, updates `[n]`. -/
abbrev segScatterDims (K n : Nat) (wf : ScatterDims.WF ⟨1, ![K]⟩ ⟨2, ![n, 1]⟩ ⟨1, ![n]⟩ [] [0] [0] 1) :
    ScatterDims ⟨1, ![K]⟩ ⟨2, ![n, 1]⟩ ⟨1, ![n]⟩ where
  updateWindowDims := []
  insertedWindowDims := [0]
  scatterDimsToOperandDims := [0]
  indexVectorDim := 1
  wf := wf

/-- Update `t` of a segment scatter lands on element `s` exactly when its index word, read signed, is `s`. -/
theorem segScatter_resultIdx_iff {K n : Nat} (wf : ScatterDims.WF ⟨1, ![K]⟩ ⟨2, ![n, 1]⟩ ⟨1, ![n]⟩ [] [0] [0] 1)
    (idx : IVec ⟨2, ![n, 1]⟩ 32) (t : Fin n) (s : Fin K) :
    (segScatterDims K n wf).resultIdx? (ix1 t) idx = some (ix1 s) ↔ (idx (ix2 t 0)).toInt = (s.val : Int) := by
  -- on the operand's one axis the start is the index word read signed, and the window coordinate is 0 (the axis is inserted)
  have hstart : (segScatterDims K n wf).start (ix1 t) idx (0 : Fin 1) = (idx (ix2 t 0)).toInt := by
    unfold ScatterDims.start
    rw [dif_pos (show (0 : Fin 1) ∈ (segScatterDims K n wf).scatterDimsToOperandDims from List.mem_singleton.mpr rfl)]
    have hsi : (segScatterDims K n wf).siIdx (ix1 t) ⟨List.idxOf (0 : Fin 1) (segScatterDims K n wf).scatterDimsToOperandDims,
        List.idxOf_lt_length_iff.2 (List.mem_singleton.mpr rfl)⟩ = ix2 t 0 := by
      funext b; refine Fin.ext ?_
      match b with
      | ⟨0, _⟩ => rfl
      | ⟨1, _⟩ => rfl
    rw [hsi]
  have hwin : (segScatterDims K n wf).window (ix1 t) (0 : Fin 1) = 0 := by
    unfold ScatterDims.window
    rw [dif_neg]
    show (0 : Fin 1) ∉ (⟨1, ![K]⟩ : Shape).kept [0]
    simp [Shape.kept]
  have hsz : (⟨1, ![K]⟩ : Shape).size (0 : Fin 1) = K := rfl
  have hs := s.isLt
  unfold ScatterDims.resultIdx?
  constructor
  · intro h
    split at h
    · rename_i hin
      have h2 := congrArg Fin.val (congrFun (Option.some.inj h) (0 : Fin 1))
      have h3 := (hin 0).1
      rw [hstart, hwin] at h3
      change ((segScatterDims K n wf).start (ix1 t) idx 0 + ((segScatterDims K n wf).window (ix1 t) 0 : Nat)).toNat = s.val at h2
      rw [hstart, hwin] at h2
      omega
    · exact absurd h (by simp)
  · intro hv
    have hin : ∀ a, 0 ≤ (segScatterDims K n wf).start (ix1 t) idx a + ((segScatterDims K n wf).window (ix1 t) a : Nat)
        ∧ (segScatterDims K n wf).start (ix1 t) idx a + ((segScatterDims K n wf).window (ix1 t) a : Nat)
          < ((⟨1, ![K]⟩ : Shape).size a : Nat) := by
      intro a
      obtain rfl : a = 0 := Subsingleton.elim _ _
      rw [hstart, hwin, hv, hsz]
      omega
    rw [dif_pos hin]
    congr 1
    funext a
    obtain rfl : a = 0 := Subsingleton.elim _ _
    refine Fin.ext ?_
    show ((segScatterDims K n wf).start (ix1 t) idx 0 + ((segScatterDims K n wf).window (ix1 t) 0 : Nat)).toNat = s.val
    rw [hstart, hwin, hv]
    simp

/-- A signed 32-bit word is the small natural `s` exactly when it is the word of `s`. -/
theorem toInt_eq_iff_eq_ofNat (w : BitVec 32) (s : Nat) (hs : s < 2 ^ 31) :
    w.toInt = (s : Int) ↔ w = BitVec.ofNat 32 s := by
  constructor
  · intro h
    have h2 := congrArg (BitVec.ofInt 32) h
    rwa [BitVec.ofInt_toInt, BitVec.ofInt_natCast] at h2
  · rintro rfl
    rw [BitVec.toInt_eq_toNat_cond, BitVec.toNat_ofNat]
    have hmod : s % 2 ^ 32 = s := Nat.mod_eq_of_lt (by omega)
    rw [hmod, if_pos (by omega)]

/-- THE SEGMENT SCATTER-ADD READ AT `s` (at the ideal instance): the operand's element plus the sum of the updates
    whose index word is the word of `s`. -/
theorem hostScatterAdd_seg_apply {K n : Nat} (hK : K ≤ 2 ^ 31)
    (wf : ScatterDims.WF ⟨1, ![K]⟩ ⟨2, ![n, 1]⟩ ⟨1, ![n]⟩ [] [0] [0] 1)
    (x : (⟨1, ![K]⟩ : Shape).Idx → EReal) (idx : IVec ⟨2, ![n, 1]⟩ 32) (upd : (⟨1, ![n]⟩ : Shape).Idx → EReal)
    (s : Fin K) :
    Ideal.hostScatterAdd (segScatterDims K n wf) x idx upd (ix1 s)
      = x (ix1 s) + ∑ t ∈ Finset.univ.filter (fun t : Fin n => idx (ix2 t 0) = BitVec.ofNat 32 s.val), upd (ix1 t) := by
  unfold Ideal.hostScatterAdd
  congr 1
  -- re-index the updates' rank-1 indices by their coordinate; an update lands on `s` iff its word is the word of `s`
  refine Finset.sum_equiv idxEquiv1 ?_ ?_
  · intro j
    obtain ⟨t, rfl⟩ : ∃ t : Fin n, j = ix1 t := ⟨j 0, eq_ix1 j⟩
    simp only [Finset.mem_filter, Finset.mem_univ, true_and]
    show _ ↔ idx (ix2 t 0) = BitVec.ofNat 32 s.val
    rw [segScatter_resultIdx_iff, toInt_eq_iff_eq_ofNat _ _ (by have := s.isLt; omega)]
  · intro j _
    obtain ⟨t, rfl⟩ : ∃ t : Fin n, j = ix1 t := ⟨j 0, eq_ix1 j⟩
    rfl

end Cert.Lib

end
-- ==== Proof.Spec.lean ====
/-
  The mathematics both programs compute, index by index over the extended reals.

  A graph on 10000 nodes is given by 650000 weighted edges (the 640000 of the edge list and one self loop per node):
  edge `e` goes from node `srcW e` to node `dstW e` (32-bit words read as signed integers) and carries the weight
  `nrm e ≥ 0`. One propagation step sends a feature table `Y` to the table whose row `d` is the weighted sum of the rows
  `Y (src e)` over the edges `e` into `d`, clipped below at zero (`agg`). The kernel program instead builds the dense
  10240 × 10240 matrix `adj` whose entry `(d, s)` is the total weight of the edges from `s` into `d` and multiplies a
  zero-padded table by it (`propK`). The two agree on the first 10000 rows: a sum of non-negative weights times one
  entry is the sum of the products (distributivity holds on the extended reals for non-negative summands), and the
  double sum over (source node, edge with that source) is the single sum over the edges.
-/
import Idealize.ShloMosaic.PureOps.Ideal
import Idealize.ShloMosaic.PureOps.Ideal.Laws
import Idealize.ShloMosaic.Lib.ValueIdx
import proofs.«404076_j36386962932143_1_alg».proof.Proof.LibGatherScatter

noncomputable section

open scoped BigOperators

namespace Cert.Spec

open Idealize.ShloMosaic Idealize.ShloMosaic.ValueIdx Cert.Lib

/-- A rank-2 array of extended reals. -/
abbrev Arr2 (a b : Nat) : Type := (⟨2, ![a, b]⟩ : Shape).Idx → EReal
/-- A rank-1 array of extended reals. -/
abbrev Arr1 (a : Nat) : Type := (⟨1, ![a]⟩ : Shape).Idx → EReal
/-- A vector of 32-bit words. -/
abbrev Words (n : Nat) : Type := (⟨1, ![n]⟩ : Shape).Idx → BitVec 32

/-- Every edge's two end words are node numbers: non-negative as signed integers and below 10000. -/
def InRange (srcW dstW : Words 650000) : Prop :=
  ∀ e : Fin 650000, (0 ≤ (srcW (ix1 e)).toInt ∧ (srcW (ix1 e)).toInt < 10000)
    ∧ (0 ≤ (dstW (ix1 e)).toInt ∧ (dstW (ix1 e)).toInt < 10000)

/-- A dense layer: `H · W + b`, at row `r` and column `f`. -/
def lin {R : Nat} (H : Fin R → Fin 128 → EReal) (W : Arr2 128 128) (b : Arr1 128) (r : Fin R) (f : Fin 128) : EReal :=
  (∑ k : Fin 128, H r k * W (ix2 k f)) + b (ix1 f)

/-- One propagation step in edge form: row `d` is the sum over the edges into `d` of the source row times the edge's
    weight, clipped below at zero. (The source word is clamped into the table as a row gather clamps it.) -/
def agg (srcW dstW : Words 650000) (nrm : Arr1 650000) (Y : Fin 10000 → Fin 128 → EReal) (d : Fin 10000) (f : Fin 128) : EReal :=
  max (0 + ∑ e ∈ Finset.univ.filter (fun e : Fin 650000 => (dstW (ix1 e)).toInt = (d.val : Int)),
      Y (clampRow 10000 (by decide) (srcW (ix1 e))) f * nrm (ix1 e)) 0

/-- The dense adjacency: entry `(d, s)` is the total weight of the edges from `s` into `d`. -/
def adj (srcW dstW : Words 650000) (nrm : Arr1 650000) (d s : Fin 10240) : EReal :=
  0 + ∑ e ∈ Finset.univ.filter (fun e : Fin 650000 =>
      (dstW (ix1 e)).toInt = (d.val : Int) ∧ (srcW (ix1 e)).toInt = (s.val : Int)), nrm (ix1 e)

/-- One propagation step in matrix form: `A · Y` clipped below at zero, at row `d` and column `f`. -/
def propK (A : Arr2 10240 10240) (Y : Arr2 10240 128) (d : Fin 10240) (f : Fin 128) : EReal :=
  max (∑ s : Fin 10240, A (ix2 d s) * Y (ix2 s f)) 0

/-- The last stage: each row divided by the larger of its Euclidean norm and a small constant, then a dense layer. -/
def head (H : Fin 10000 → Fin 128 → EReal) (Wc : Arr2 128 40) (bc : Arr1 40) (r : Fin 10000) (q : Fin 40) : EReal :=
  (∑ k : Fin 128, Ideal.div (H r k)
      (max (Ideal.sqrt (0 + ∑ k' : Fin 128, H r k' * H r k')) (Ideal.ofBits .f32 0x2B8CBCCC#32)) * Wc (ix2 k q))
    + bc (ix1 q)

/-- The whole network at row `r`, column `q`: dense layer, propagation, dense layer, propagation, the last stage. -/
def model (x : Arr2 10000 128) (srcW dstW : Words 650000) (nrm : Arr1 650000) (W1 : Arr2 128 128) (b1 : Arr1 128)
    (W2 : Arr2 128 128) (b2 : Arr1 128) (Wc : Arr2 128 40) (bc : Arr1 40) (r : Fin 10000) (q : Fin 40) : EReal :=
  head (agg srcW dstW nrm (lin (agg srcW dstW nrm (lin (fun r k => x (ix2 r k)) W1 b1)) W2 b2)) Wc bc r q

/-- On the extended reals a finite sum of non-negative terms times any factor (infinite ones included) is the sum of
    the products: distributivity holds for non-negative summands. -/
theorem sum_mul_of_nonneg {ι : Type} (S : Finset ι) (n : ι → EReal) (hn : ∀ e ∈ S, 0 ≤ n e) (y : EReal) :
    (∑ e ∈ S, n e) * y = ∑ e ∈ S, n e * y := by
  classical
  induction S using Finset.induction_on with
  | empty => simp
  | insert a S ha ih =>
    rw [Finset.sum_insert ha, Finset.sum_insert ha,
      EReal.right_distrib_of_nonneg (hn a (Finset.mem_insert_self a S))
        (Finset.sum_nonneg (fun e he => hn e (Finset.mem_insert_of_mem he))),
      ih (fun e he => hn e (Finset.mem_insert_of_mem he))]

/-- The double sum over (node, edge with that node as its source) is the single sum over the edges: every edge has
    exactly one source node `g e`. The predicate `Q e s` says "edge `e` is selected and its source is `s`". -/
theorem sum_fiber_mul {ι : Type} [Fintype ι] {M : Nat} (g : ι → Fin M)
    (P : ι → Prop) [DecidablePred P] (Q : ι → Fin M → Prop) [∀ e s, Decidable (Q e s)]
    (hQ : ∀ e s, Q e s ↔ (P e ∧ g e = s))
    (n : ι → EReal) (hn : ∀ e, 0 ≤ n e) (Yp : Fin M → EReal) :
    ∑ s : Fin M, (∑ e ∈ Finset.univ.filter (fun e => Q e s), n e) * Yp s
      = ∑ e ∈ Finset.univ.filter P, n e * Yp (g e) := by
  rw [← Finset.sum_fiberwise (Finset.univ.filter P) g (fun e => n e * Yp (g e))]
  refine Finset.sum_congr rfl (fun s _ => ?_)
  rw [sum_mul_of_nonneg _ _ (fun e _ => hn e), Finset.filter_filter]
  have hf : Finset.univ.filter (fun e => Q e s) = Finset.univ.filter (fun e => P e ∧ g e = s) :=
    Finset.filter_congr (fun e _ => hQ e s)
  rw [hf]
  refine Finset.sum_congr rfl (fun e he => ?_)
  rw [(Finset.mem_filter.mp he).2.2]

/-- THE LAW JOINING THE TWO FORMS. With node numbers in range and non-negative weights, the matrix form on a table that
    agrees with `Y` on the first 10000 rows is the edge form on `Y`, on the first 10000 rows. -/
theorem propK_eq_agg (srcW dstW : Words 650000) (nrm : Arr1 650000) (hR : InRange srcW dstW)
    (hn : ∀ e : Fin 650000, 0 ≤ nrm (ix1 e))
    (A : Arr2 10240 10240) (hA : ∀ d s : Fin 10240, A (ix2 d s) = adj srcW dstW nrm d s)
    (Yp : Arr2 10240 128) (Y : Fin 10000 → Fin 128 → EReal)
    (hY : ∀ (s : Fin 10000) (f : Fin 128), Yp (ix2 ⟨s.val, by omega⟩ f) = Y s f)
    (d : Fin 10000) (f : Fin 128) :
    propK A Yp ⟨d.val, by omega⟩ f = agg srcW dstW nrm Y d f := by
  -- the source node of an edge, as a row of the padded table
  let g : Fin 650000 → Fin 10240 := fun e => ⟨(clampRow 10000 (by decide) (srcW (ix1 e))).val, by omega⟩
  unfold propK agg
  refine congrArg (fun x : EReal => max x 0) ?_
  rw [zero_add]
  have h1 : ∀ s : Fin 10240, A (ix2 ⟨d.val, by omega⟩ s) * Yp (ix2 s f)
      = (∑ e ∈ Finset.univ.filter (fun e : Fin 650000 =>
          (dstW (ix1 e)).toInt = (d.val : Int) ∧ (srcW (ix1 e)).toInt = (s.val : Int)), nrm (ix1 e)) * Yp (ix2 s f) := by
    intro s
    rw [hA, adj, zero_add]
  rw [Finset.sum_congr rfl (fun s _ => h1 s)]
  rw [sum_fiber_mul g (fun e => (dstW (ix1 e)).toInt = (d.val : Int))
    (fun e s => (dstW (ix1 e)).toInt = (d.val : Int) ∧ (srcW (ix1 e)).toInt = (s.val : Int))
    ?_ (fun e => nrm (ix1 e)) hn (fun s => Yp (ix2 s f))]
  · refine Finset.sum_congr rfl (fun e _ => ?_)
    rw [EReal.mul_comm]
    exact congrArg (· * nrm (ix1 e)) (hY (clampRow 10000 (by decide) (srcW (ix1 e))) f)
  · intro e s
    have hs := (hR e).1
    have hsv := s.isLt
    refine and_congr_right (fun _ => ?_)
    show _ ↔ g e = s
    rw [Fin.ext_iff]
    show _ ↔ min (srcW (ix1 e)).toInt.toNat (10000 - 1) = s.val
    omega

end Cert.Spec

end
-- ==== Proof.LibIndexDims.lean ====
import Idealize.ShloMosaic.PureOps.Ideal
import Idealize.ShloMosaic.Lib.ValueIdx

/-!
# Gathers and scatters along one axis, read at an index

Three layouts of a host gather or scatter whose indices are an `[n, 1]` array of 32-bit words, one word per
index:

* a scatter along the LAST axis of a rank-3 operand `[A, B, N]` with updates `[A, B, n]`: update `(a, b, j)`
  lands on `(a, b, k)` exactly when word `j`, read as a signed integer and NOT clamped, is `k`;
* a scatter of rows into a rank-2 operand `[N, C]` with updates `[n, C]`: update `(i, o)` lands on `(k, o)`
  exactly when word `i`, read signed and not clamped, is `k`;
* a gather along the last axis of a rank-3 operand `[A, B, N]` with result `[A, B, n]`: result `(a, b, i)` is the
  operand at `(a, b, c)` where `c` is word `i` read signed and clamped into `[0, N - 1]`.

Each is proved axis by axis: on an axis the index map names, the start is the index word; on the other axes the
start is `0` and the window (offset) coordinate is the update's (result's) own coordinate.
-/

noncomputable section

open Idealize.ShloMosaic Idealize.ShloMosaic.ValueIdx

namespace Cert.Lib

/-- A statement about the three axes of a rank-3 array holds once it holds on each. -/
theorem forall_fin3 {P : Fin 3 → Prop} (h0 : P 0) (h1 : P 1) (h2 : P 2) : ∀ a, P a := by
  intro a
  match a with
  | ⟨0, _⟩ => exact h0
  | ⟨1, _⟩ => exact h1
  | ⟨2, _⟩ => exact h2

/-- A statement about the two axes of a rank-2 array holds once it holds on each. -/
theorem forall_fin2 {P : Fin 2 → Prop} (h0 : P 0) (h1 : P 1) : ∀ a, P a := by
  intro a
  match a with
  | ⟨0, _⟩ => exact h0
  | ⟨1, _⟩ => exact h1

/-- The dimension numbers of a scatter along the last axis: operand `[A, B, N]`, scatter indices `[n, 1]`, updates
    `[A, B, n]`; the updates' first two axes are window axes onto the operand's first two, the operand's last axis is
    the inserted one the index words address. -/
abbrev lastAxisScatterDims (A B N n : Nat)
    (wf : ScatterDims.WF ⟨3, ![A, B, N]⟩ ⟨2, ![n, 1]⟩ ⟨3, ![A, B, n]⟩ [0, 1] [2] [2] 1) :
    ScatterDims ⟨3, ![A, B, N]⟩ ⟨2, ![n, 1]⟩ ⟨3, ![A, B, n]⟩ where
  updateWindowDims := [0, 1]
  insertedWindowDims := [2]
  scatterDimsToOperandDims := [2]
  indexVectorDim := 1
  wf := wf

/-- Update `(a, b, j)` of a scatter along the last axis lands on `(a', b', k)` exactly when `a = a'`, `b = b'` and
    index word `j`, read signed and not clamped, is `k`. -/
theorem lastAxisScatter_resultIdx_iff {A B N n : Nat}
    (wf : ScatterDims.WF ⟨3, ![A, B, N]⟩ ⟨2, ![n, 1]⟩ ⟨3, ![A, B, n]⟩ [0, 1] [2] [2] 1)
    (idx : IVec ⟨2, ![n, 1]⟩ 32) (a : Fin A) (b : Fin B) (j : Fin n) (a' : Fin A) (b' : Fin B) (k : Fin N) :
    (lastAxisScatterDims A B N n wf).resultIdx? (ix3 a b j) idx = some (ix3 a' b' k)
      ↔ a = a' ∧ b = b' ∧ (idx (ix2 j 0)).toInt = (k.val : Int) := by
  -- the index map names the last axis only: there the start is the index word read signed, elsewhere it is 0
  have hs0 : (lastAxisScatterDims A B N n wf).start (ix3 a b j) idx (0 : Fin 3) = 0 := by
    unfold ScatterDims.start
    rw [dif_neg]
    show (0 : Fin 3) ∉ ([2] : List (Fin 3))
    decide
  have hs1 : (lastAxisScatterDims A B N n wf).start (ix3 a b j) idx (1 : Fin 3) = 0 := by
    unfold ScatterDims.start
    rw [dif_neg]
    show (1 : Fin 3) ∉ ([2] : List (Fin 3))
    decide
  have hs2 : (lastAxisScatterDims A B N n wf).start (ix3 a b j) idx (2 : Fin 3) = (idx (ix2 j 0)).toInt := by
    unfold ScatterDims.start
    rw [dif_pos (show (2 : Fin 3) ∈ (lastAxisScatterDims A B N n wf).scatterDimsToOperandDims from List.mem_singleton.mpr rfl)]
    have hsi : (lastAxisScatterDims A B N n wf).siIdx (ix3 a b j)
        ⟨List.idxOf (2 : Fin 3) (lastAxisScatterDims A B N n wf).scatterDimsToOperandDims,
          List.idxOf_lt_length_iff.2 (List.mem_singleton.mpr rfl)⟩ = ix2 j 0 := by
      funext c; refine Fin.ext ?_
      match c with
      | ⟨0, _⟩ => rfl
      | ⟨1, _⟩ => rfl
    rw [hsi]
  -- the first two axes are window axes carrying the update's first two coordinates; the last axis is inserted
  have hw0 : (lastAxisScatterDims A B N n wf).window (ix3 a b j) (0 : Fin 3) = a.val := by
    unfold ScatterDims.window
    rw [dif_pos (show (0 : Fin 3) ∈ (⟨3, ![A, B, N]⟩ : Shape).kept [2] from by simp [Shape.kept])]
    rfl
  have hw1 : (lastAxisScatterDims A B N n wf).window (ix3 a b j) (1 : Fin 3) = b.val := by
    unfold ScatterDims.window
    rw [dif_pos (show (1 : Fin 3) ∈ (⟨3, ![A, B, N]⟩ : Shape).kept [2] from by simp [Shape.kept])]
    rfl
  have hw2 : (lastAxisScatterDims A B N n wf).window (ix3 a b j) (2 : Fin 3) = 0 := by
    unfold ScatterDims.window
    rw [dif_neg]
    show (2 : Fin 3) ∉ (⟨3, ![A, B, N]⟩ : Shape).kept [2]
    simp [Shape.kept]
  have hz0 : (⟨3, ![A, B, N]⟩ : Shape).size (0 : Fin 3) = A := rfl
  have hz1 : (⟨3, ![A, B, N]⟩ : Shape).size (1 : Fin 3) = B := rfl
  have hz2 : (⟨3, ![A, B, N]⟩ : Shape).size (2 : Fin 3) = N := rfl
  have ha := a.isLt
  have hb := b.isLt
  have hk := k.isLt
  unfold ScatterDims.resultIdx?
  constructor
  · intro h
    split at h
    · rename_i hin
      have hf := Option.some.inj h
      have e0 := congrArg Fin.val (congrFun hf (0 : Fin 3))
      have e1 := congrArg Fin.val (congrFun hf (1 : Fin 3))
      have e2 := congrArg Fin.val (congrFun hf (2 : Fin 3))
      have p2 := (hin 2).1
      change ((lastAxisScatterDims A B N n wf).start (ix3 a b j) idx 0
        + ((lastAxisScatterDims A B N n wf).window (ix3 a b j) 0 : Nat)).toNat = a'.val at e0
      change ((lastAxisScatterDims A B N n wf).start (ix3 a b j) idx 1
        + ((lastAxisScatterDims A B N n wf).window (ix3 a b j) 1 : Nat)).toNat = b'.val at e1
      change ((lastAxisScatterDims A B N n wf).start (ix3 a b j) idx 2
        + ((lastAxisScatterDims A B N n wf).window (ix3 a b j) 2 : Nat)).toNat = k.val at e2
      rw [hs0, hw0] at e0
      rw [hs1, hw1] at e1
      rw [hs2, hw2] at e2 p2
      refine ⟨Fin.ext (by omega), Fin.ext (by omega), by omega⟩
    · exact absurd h (by simp)
  · rintro ⟨rfl, rfl, hv⟩
    have hin : ∀ c, 0 ≤ (lastAxisScatterDims A B N n wf).start (ix3 a b j) idx c
          + ((lastAxisScatterDims A B N n wf).window (ix3 a b j) c : Nat)
        ∧ (lastAxisScatterDims A B N n wf).start (ix3 a b j) idx c
          + ((lastAxisScatterDims A B N n wf).window (ix3 a b j) c : Nat)
          < ((⟨3, ![A, B, N]⟩ : Shape).size c : Nat) := by
      refine forall_fin3 ?_ ?_ ?_
      · rw [hs0, hw0, hz0]; omega
      · rw [hs1, hw1, hz1]; omega
      · rw [hs2, hw2, hz2, hv]; omega
    rw [dif_pos hin]
    congr 1
    funext c
    refine Fin.ext ?_
    revert c
    refine forall_fin3 ?_ ?_ ?_
    · show ((lastAxisScatterDims A B N n wf).start (ix3 a b j) idx 0
        + ((lastAxisScatterDims A B N n wf).window (ix3 a b j) 0 : Nat)).toNat = a.val
      rw [hs0, hw0]; omega
    · show ((lastAxisScatterDims A B N n wf).start (ix3 a b j) idx 1
        + ((lastAxisScatterDims A B N n wf).window (ix3 a b j) 1 : Nat)).toNat = b.val
      rw [hs1, hw1]; omega
    · show ((lastAxisScatterDims A B N n wf).start (ix3 a b j) idx 2
        + ((lastAxisScatterDims A B N n wf).window (ix3 a b j) 2 : Nat)).toNat = k.val
      rw [hs2, hw2, hv]; omega

/-- The dimension numbers of a scatter of rows: operand `[N, C]`, scatter indices `[n, 1]`, updates `[n, C]`; the
    updates' second axis is the window axis onto the operand's second, the operand's first axis is the inserted one
    the index words address. -/
abbrev rowScatterDims (N C n : Nat) (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ where
  updateWindowDims := [1]
  insertedWindowDims := [0]
  scatterDimsToOperandDims := [0]
  indexVectorDim := 1
  wf := wf

/-- Update `(i, o)` of a scatter of rows lands on `(k, o')` exactly when index word `i`, read signed and not
    clamped, is `k`, and `o = o'`. -/
theorem rowScatter_resultIdx_iff {N C n : Nat}
    (wf : ScatterDims.WF ⟨2, ![N, C]⟩ ⟨2, ![n, 1]⟩ ⟨2, ![n, C]⟩ [1] [0] [0] 1)
    (idx : IVec ⟨2, ![n, 1]⟩ 32) (i : Fin n) (o : Fin C) (k : Fin N) (o' : Fin C) :
    (rowScatterDims N C n wf).resultIdx? (ix2 i o) idx = some (ix2 k o')
      ↔ (idx (ix2 i 0)).toInt = (k.val : Int) ∧ o = o' := by
  -- the index map names the first axis only: there the start is the index word read signed, on the second it is 0
  have hs0 : (rowScatterDims N C n wf).start (ix2 i o) idx (0 : Fin 2) = (idx (ix2 i 0)).toInt := by
    unfold ScatterDims.start
    rw [dif_pos (show (0 : Fin 2) ∈ (rowScatterDims N C n wf).scatterDimsToOperandDims from List.mem_singleton.mpr rfl)]
    have hsi : (rowScatterDims N C n wf).siIdx (ix2 i o)
        ⟨List.idxOf (0 : Fin 2) (rowScatterDims N C n wf).scatterDimsToOperandDims,
          List.idxOf_lt_length_iff.2 (List.mem_singleton.mpr rfl)⟩ = ix2 i 0 := by
      funext c; refine Fin.ext ?_
      match c with
      | ⟨0, _⟩ => rfl
      | ⟨1, _⟩ => rfl
    rw [hsi]
  have hs1 : (rowScatterDims N C n wf).start (ix2 i o) idx (1 : Fin 2) = 0 := by
    unfold ScatterDims.start
    rw [dif_neg]
    show (1 : Fin 2) ∉ ([0] : List (Fin 2))
    decide
  -- the first axis is inserted (window coordinate 0); the second is the window axis carrying the update's second coordinate
  have hw0 : (rowScatterDims N C n wf).window (ix2 i o) (0 : Fin 2) = 0 := by
    unfold ScatterDims.window
    rw [dif_neg]
    show (0 : Fin 2) ∉ (⟨2, ![N, C]⟩ : Shape).kept [0]
    simp [Shape.kept]
  have hw1 : (rowScatterDims N C n wf).window (ix2 i o) (1 : Fin 2) = o.val := by
    unfold ScatterDims.window
    rw [dif_pos (show (1 : Fin 2) ∈ (⟨2, ![N, C]⟩ : Shape).kept [0] from by simp [Shape.kept])]
    rfl
  have hz0 : (⟨2, ![N, C]⟩ : Shape).size (0 : Fin 2) = N := rfl
  have hz1 : (⟨2, ![N, C]⟩ : Shape).size (1 : Fin 2) = C := rfl
  have ho := o.isLt
  have hk := k.isLt
  unfold ScatterDims.resultIdx?
  constructor
  · intro h
    split at h
    · rename_i hin
      have hf := Option.some.inj h
      have e0 := congrArg Fin.val (congrFun hf (0 : Fin 2))
      have e1 := congrArg Fin.val (congrFun hf (1 : Fin 2))
      have p0 := (hin 0).1
      change ((rowScatterDims N C n wf).start (ix2 i o) idx 0
        + ((rowScatterDims N C n wf).window (ix2 i o) 0 : Nat)).toNat = k.val at e0
      change ((rowScatterDims N C n wf).start (ix2 i o) idx 1
        + ((rowScatterDims N C n wf).window (ix2 i o) 1 : Nat)).toNat = o'.val at e1
      rw [hs0, hw0] at e0 p0
      rw [hs1, hw1] at e1
      refine ⟨by omega, Fin.ext (by omega)⟩
    · exact absurd h (by simp)
  · rintro ⟨hv, rfl⟩
    have hin : ∀ c, 0 ≤ (rowScatterDims N C n wf).start (ix2 i o) idx c
          + ((rowScatterDims N C n wf).window (ix2 i o) c : Nat)
        ∧ (rowScatterDims N C n wf).start (ix2 i o) idx c
          + ((rowScatterDims N C n wf).window (ix2 i o) c : Nat)
          < ((⟨2, ![N, C]⟩ : Shape).size c : Nat) := by
      refine forall_fin2 ?_ ?_
      · rw [hs0, hw0, hz0, hv]; omega
      · rw [hs1, hw1, hz1]; omega
    rw [dif_pos hin]
    congr 1
    funext c
    refine Fin.ext ?_
    revert c
    refine forall_fin2 ?_ ?_
    · show ((rowScatterDims N C n wf).start (ix2 i o) idx 0
        + ((rowScatterDims N C n wf).window (ix2 i o) 0 : Nat)).toNat = k.val
      rw [hs0, hw0, hv]; omega
    · show ((rowScatterDims N C n wf).start (ix2 i o) idx 1
        + ((rowScatterDims N C n wf).window (ix2 i o) 1 : Nat)).toNat = o.val
      rw [hs1, hw1]; omega

/-- The dimension numbers of a gather along the last axis: operand `[A, B, N]`, start indices `[n, 1]`, result
    `[A, B, n]`; the result's first two axes are offset axes over the operand's first two (taken whole), the
    operand's last axis is collapsed and addressed by the start words. -/
abbrev lastAxisGatherDims (A B N n : Nat)
    (wf : GatherDims.WF ⟨3, ![A, B, N]⟩ ⟨2, ![n, 1]⟩ ⟨3, ![A, B, n]⟩ [0, 1] [2] [] [2] [] 1 ![A, B, 1]) :
    GatherDims ⟨3, ![A, B, N]⟩ ⟨2, ![n, 1]⟩ ⟨3, ![A, B, n]⟩ where
  offsetDims := [0, 1]
  collapsedSliceDims := [2]
  operandBatchingDims := []
  startIndicesBatchingDims := []
  startIndexMap := [2]
  indexVectorDim := 1
  sliceSizes := ![A, B, 1]
  wf := wf

/-- THE GATHER ALONG THE LAST AXIS READ AT `(a, b, i)`: the operand at `(a, b, c)`, `c` the start word `i` read
    signed and clamped into `[0, N - 1]`. -/
theorem lastAxisGather_apply {α : Type} {A B N n : Nat} (hN : 0 < N)
    (wf : GatherDims.WF ⟨3, ![A, B, N]⟩ ⟨2, ![n, 1]⟩ ⟨3, ![A, B, n]⟩ [0, 1] [2] [] [2] [] 1 ![A, B, 1])
    (x : (⟨3, ![A, B, N]⟩ : Shape).Idx → α) (idx : IVec ⟨2, ![n, 1]⟩ 32) (a : Fin A) (b : Fin B) (i : Fin n) :
    Host.gather (lastAxisGatherDims A B N n wf) x idx (ix3 a b i)
      = x (ix3 a b ⟨min (idx (ix2 i 0)).toInt.toNat (N - 1), by omega⟩) := by
  unfold Host.gather
  congr 1
  have hnot0 : (0 : Fin 3) ∉ (lastAxisGatherDims A B N n wf).startIndexMap := by
    show (0 : Fin 3) ∉ ([2] : List (Fin 3))
    decide
  have hnot1 : (1 : Fin 3) ∉ (lastAxisGatherDims A B N n wf).startIndexMap := by
    show (1 : Fin 3) ∉ ([2] : List (Fin 3))
    decide
  have hk0 : (0 : Fin 3) ∈ (lastAxisGatherDims A B N n wf).sKept := by
    rw [GatherDims.mem_sKept]
    refine ⟨?_, List.not_mem_nil⟩
    show (0 : Fin 3) ∉ ([2] : List (Fin 3))
    decide
  have hk1 : (1 : Fin 3) ∈ (lastAxisGatherDims A B N n wf).sKept := by
    rw [GatherDims.mem_sKept]
    refine ⟨?_, List.not_mem_nil⟩
    show (1 : Fin 3) ∉ ([2] : List (Fin 3))
    decide
  -- axes 0 and 1 are kept and not start-indexed: start 0, no batching, the offset coordinate is the result's own
  have h0 : (lastAxisGatherDims A B N n wf).start (ix3 a b i) idx (0 : Fin 3)
      + (lastAxisGatherDims A B N n wf).batchCoord (ix3 a b i) (0 : Fin 3)
      + (lastAxisGatherDims A B N n wf).offCoord (ix3 a b i) (0 : Fin 3) = a.val := by
    rw [GatherDims.batchCoord_eq_zero _ _ _ List.not_mem_nil]
    unfold GatherDims.start
    rw [dif_neg hnot0]
    simp only [Nat.zero_add, Nat.add_zero]
    unfold GatherDims.offCoord
    rw [dif_pos hk0]
    rfl
  have h1 : (lastAxisGatherDims A B N n wf).start (ix3 a b i) idx (1 : Fin 3)
      + (lastAxisGatherDims A B N n wf).batchCoord (ix3 a b i) (1 : Fin 3)
      + (lastAxisGatherDims A B N n wf).offCoord (ix3 a b i) (1 : Fin 3) = b.val := by
    rw [GatherDims.batchCoord_eq_zero _ _ _ List.not_mem_nil]
    unfold GatherDims.start
    rw [dif_neg hnot1]
    simp only [Nat.zero_add, Nat.add_zero]
    unfold GatherDims.offCoord
    rw [dif_pos hk1]
    rfl
  -- axis 2 is collapsed and start-indexed: the clamped start word, no batching and no offset coordinate
  have h2 : (lastAxisGatherDims A B N n wf).start (ix3 a b i) idx (2 : Fin 3)
      + (lastAxisGatherDims A B N n wf).batchCoord (ix3 a b i) (2 : Fin 3)
      + (lastAxisGatherDims A B N n wf).offCoord (ix3 a b i) (2 : Fin 3)
      = min (idx (ix2 i 0)).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (lastAxisGatherDims A B N n wf).startIndexMap from List.mem_singleton.mpr rfl)]
    have hsi : (lastAxisGatherDims A B N n wf).siIdx (ix3 a b i)
        ⟨List.idxOf (2 : Fin 3) (lastAxisGatherDims A B N n wf).startIndexMap,
          List.idxOf_lt_length_iff.2 (List.mem_singleton.mpr rfl)⟩ = ix2 i 0 := by
      funext c; refine Fin.ext ?_
      match c with
      | ⟨0, _⟩ => rfl
      | ⟨1, _⟩ => rfl
    rw [hsi]
    rfl
  funext c
  refine Fin.ext ?_
  match c with
  | ⟨0, _⟩ => exact h0
  | ⟨1, _⟩ => exact h1
  | ⟨2, _⟩ => exact h2

end Cert.Lib

end
-- ==== Proof.KI.Adj.lean ====
/-
  What the host operations before the first propagation leave, at the ideal instance: the edge list with its self
  loops (source and destination words), the edges' weights, and the dense adjacency built from them by a scatter-add
  at the pairs (destination, source).
-/
import proofs.«404076_j36386962932143_1_alg».proof.Proof.KI.Bounds
import proofs.«404076_j36386962932143_1_alg».proof.Proof.Spec
import proofs.«404076_j36386962932143_1_alg».proof.Proof.LibGatherScatter
import proofs.«404076_j36386962932143_1_alg».proof.Proof.LibIndexDims
import Idealize.ShloMosaic.Lib.StableHlo.Run
import Idealize.ShloMosaic.Lib.IdealHost
import Idealize.ShloMosaic.Lib.Pipeline.Value
import Idealize.ShloMosaic.Lib.Affine
import Mathlib.Data.EReal.Operations

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Lib
open scoped BigOperators

namespace AdjStage

/-! ## A scatter at pairs of coordinates, read at an index -/

/-- The dimension numbers of a scatter at pairs of coordinates: operand `[N, M]`, scatter indices `[n, 2]` (row `t`
    holds the two coordinates update `t` goes to), updates `[n]`; both operand axes are inserted, so an update is
    one element. -/
abbrev pairScatterDims (N M n : Nat) (wf : ScatterDims.WF ⟨2, ![N, M]⟩ ⟨2, ![n, 2]⟩ ⟨1, ![n]⟩ [] [0, 1] [0, 1] 1) :
    ScatterDims ⟨2, ![N, M]⟩ ⟨2, ![n, 2]⟩ ⟨1, ![n]⟩ where
  updateWindowDims := []
  insertedWindowDims := [0, 1]
  scatterDimsToOperandDims := [0, 1]
  indexVectorDim := 1
  wf := wf

/-- Update `t` of a scatter at pairs lands on `(d, s)` exactly when the two index words of row `t`, read signed and
    not clamped, are `d` and `s`. -/
theorem pairScatter_resultIdx_iff {N M n : Nat}
    (wf : ScatterDims.WF ⟨2, ![N, M]⟩ ⟨2, ![n, 2]⟩ ⟨1, ![n]⟩ [] [0, 1] [0, 1] 1)
    (idx : IVec ⟨2, ![n, 2]⟩ 32) (t : Fin n) (d : Fin N) (s : Fin M) :
    (pairScatterDims N M n wf).resultIdx? (ix1 t) idx = some (ix2 d s)
      ↔ (idx (ix2 t 0)).toInt = (d.val : Int) ∧ (idx (ix2 t 1)).toInt = (s.val : Int) := by
  have m0 : (0 : Fin 2) ∈ (pairScatterDims N M n wf).scatterDimsToOperandDims := by
    show (0 : Fin 2) ∈ ([0, 1] : List (Fin 2)); decide
  have m1 : (1 : Fin 2) ∈ (pairScatterDims N M n wf).scatterDimsToOperandDims := by
    show (1 : Fin 2) ∈ ([0, 1] : List (Fin 2)); decide
  -- on operand axis `a` the start is word `a` of row `t`, read signed
  have hs0 : (pairScatterDims N M n wf).start (ix1 t) idx (0 : Fin 2) = (idx (ix2 t 0)).toInt := by
    unfold ScatterDims.start
    rw [dif_pos m0]
    have hsi : (pairScatterDims N M n wf).siIdx (ix1 t)
        ⟨List.idxOf (0 : Fin 2) (pairScatterDims N M n wf).scatterDimsToOperandDims,
          List.idxOf_lt_length_iff.2 m0⟩ = ix2 t 0 := by
      funext b; refine Fin.ext ?_
      match b with
      | ⟨0, _⟩ => rfl
      | ⟨1, _⟩ => rfl
    rw [hsi]
  have hs1 : (pairScatterDims N M n wf).start (ix1 t) idx (1 : Fin 2) = (idx (ix2 t 1)).toInt := by
    unfold ScatterDims.start
    rw [dif_pos m1]
    have hsi : (pairScatterDims N M n wf).siIdx (ix1 t)
        ⟨List.idxOf (1 : Fin 2) (pairScatterDims N M n wf).scatterDimsToOperandDims,
          List.idxOf_lt_length_iff.2 m1⟩ = ix2 t 1 := by
      funext b; refine Fin.ext ?_
      match b with
      | ⟨0, _⟩ => rfl
      | ⟨1, _⟩ => rfl
    rw [hsi]
  -- both operand axes are inserted: the window coordinate is 0 on each
  have hw0 : (pairScatterDims N M n wf).window (ix1 t) (0 : Fin 2) = 0 := by
    unfold ScatterDims.window
    rw [dif_neg]
    show (0 : Fin 2) ∉ (⟨2, ![N, M]⟩ : Shape).kept [0, 1]
    simp [Shape.kept]
  have hw1 : (pairScatterDims N M n wf).window (ix1 t) (1 : Fin 2) = 0 := by
    unfold ScatterDims.window
    rw [dif_neg]
    show (1 : Fin 2) ∉ (⟨2, ![N, M]⟩ : Shape).kept [0, 1]
    simp [Shape.kept]
  have hz0 : (⟨2, ![N, M]⟩ : Shape).size (0 : Fin 2) = N := rfl
  have hz1 : (⟨2, ![N, M]⟩ : Shape).size (1 : Fin 2) = M := rfl
  have hd := d.isLt
  have hs := s.isLt
  unfold ScatterDims.resultIdx?
  constructor
  · intro h
    split at h
    · rename_i hin
      have hf := Option.some.inj h
      have e0 := congrArg Fin.val (congrFun hf (0 : Fin 2))
      have e1 := congrArg Fin.val (congrFun hf (1 : Fin 2))
      have p0 := (hin 0).1
      have p1 := (hin 1).1
      change ((pairScatterDims N M n wf).start (ix1 t) idx 0
        + ((pairScatterDims N M n wf).window (ix1 t) 0 : Nat)).toNat = d.val at e0
      change ((pairScatterDims N M n wf).start (ix1 t) idx 1
        + ((pairScatterDims N M n wf).window (ix1 t) 1 : Nat)).toNat = s.val at e1
      rw [hs0, hw0] at e0 p0
      rw [hs1, hw1] at e1 p1
      refine ⟨by omega, by omega⟩
    · exact absurd h (by simp)
  · rintro ⟨hv0, hv1⟩
    have hin : ∀ a, 0 ≤ (pairScatterDims N M n wf).start (ix1 t) idx a
          + ((pairScatterDims N M n wf).window (ix1 t) a : Nat)
        ∧ (pairScatterDims N M n wf).start (ix1 t) idx a
          + ((pairScatterDims N M n wf).window (ix1 t) a : Nat)
          < ((⟨2, ![N, M]⟩ : Shape).size a : Nat) := by
      refine forall_fin2 ?_ ?_
      · rw [hs0, hw0, hz0, hv0]; omega
      · rw [hs1, hw1, hz1, hv1]; omega
    rw [dif_pos hin]
    congr 1
    funext a
    refine Fin.ext ?_
    revert a
    refine forall_fin2 ?_ ?_
    · show ((pairScatterDims N M n wf).start (ix1 t) idx 0
        + ((pairScatterDims N M n wf).window (ix1 t) 0 : Nat)).toNat = d.val
      rw [hs0, hw0, hv0]; omega
    · show ((pairScatterDims N M n wf).start (ix1 t) idx 1
        + ((pairScatterDims N M n wf).window (ix1 t) 1 : Nat)).toNat = s.val
      rw [hs1, hw1, hv1]; omega

/-- THE SCATTER-ADD AT PAIRS READ AT `(d, s)` (at the ideal instance): the operand's element plus the sum of the
    updates whose two index words, read signed, are `d` and `s`. -/
theorem hostScatterAdd_pair_apply {N M n : Nat}
    (wf : ScatterDims.WF ⟨2, ![N, M]⟩ ⟨2, ![n, 2]⟩ ⟨1, ![n]⟩ [] [0, 1] [0, 1] 1)
    (x : (⟨2, ![N, M]⟩ : Shape).Idx → EReal) (idx : IVec ⟨2, ![n, 2]⟩ 32) (upd : (⟨1, ![n]⟩ : Shape).Idx → EReal)
    (d : Fin N) (s : Fin M) :
    Ideal.hostScatterAdd (pairScatterDims N M n wf) x idx upd (ix2 d s)
      = x (ix2 d s) + ∑ t ∈ Finset.univ.filter (fun t : Fin n =>
          (idx (ix2 t 0)).toInt = (d.val : Int) ∧ (idx (ix2 t 1)).toInt = (s.val : Int)), upd (ix1 t) := by
  unfold Ideal.hostScatterAdd
  congr 1
  refine Finset.sum_equiv idxEquiv1 ?_ ?_
  · intro j
    obtain ⟨t, rfl⟩ : ∃ t : Fin n, j = ix1 t := ⟨j 0, eq_ix1 j⟩
    simp only [Finset.mem_filter, Finset.mem_univ, true_and]
    show _ ↔ (idx (ix2 t 0)).toInt = (d.val : Int) ∧ (idx (ix2 t 1)).toInt = (s.val : Int)
    exact pairScatter_resultIdx_iff wf idx t d s
  · intro j _
    obtain ⟨t, rfl⟩ : ∃ t : Fin n, j = ix1 t := ⟨j 0, eq_ix1 j⟩
    rfl

/-! ## A negative index counted from the end, on a non-negative word -/

/-- A word that is non-negative as a signed integer is left as it is. -/
theorem normIdx_of_nonneg (n w : BitVec 32) (h : 0 ≤ w.toInt) : normIdx n w = w := by
  unfold normIdx
  have hc : IntOp.cmpi .slt w 0#32 = 0#1 := by
    apply eq_zero_of_ne_one
    intro hlt
    rw [IntOp.cmpi_slt] at hlt
    have h0 : (0#32 : BitVec 32).toInt = 0 := by decide
    omega
  rw [hc, select_zero]

/-! ## The inverse square root of a number at least one -/

/-- The inverse square root of an extended real at least one is non-negative. -/
theorem rsqrt_nonneg_of_one_le {y : EReal} (h : 1 ≤ y) : 0 ≤ Ideal.rsqrt y := by
  induction y using EReal.rec with
  | bot => exact absurd (lt_of_lt_of_le (by exact_mod_cast EReal.bot_lt_coe 1 : (⊥ : EReal) < 1) h) (lt_irrefl _)
  | top => rw [Ideal.rsqrt_top]
  | coe r =>
    have hr : (1 : ℝ) ≤ r := by exact_mod_cast h
    rw [Ideal.rsqrt_coe, if_neg (by linarith), if_neg (by intro h0; linarith)]
    exact EReal.coe_nonneg.mpr (inv_nonneg.mpr (Real.sqrt_nonneg r))

/-! ## The host stages as functions of the buffers they read -/

/-- The inverse square roots of the degrees, each degree first raised to at least one. -/
def dinvOf (deg : FVec Ideal S10000 .f32) : FVec Ideal S10000 .f32 :=
  Host.rsqrt (maximumf deg (broadcastInDim S10000 ![] bcast_S_S10000 (constant S_ .f32 0x3F800000#32)))

/-- The edges' weights from the table of inverse square roots and the two columns of node numbers. -/
def nrmOf (x : FVec Ideal S10000 .f32) (i j : IVec S650000x1 32) : FVec Ideal S650000 .f32 :=
  mulf (Host.gather gather_S10000_S650000x1_S650000_n_0_n_n_0_1_1 x i)
    (Host.gather gather_S10000_S650000x1_S650000_n_0_n_n_0_1_1 x j)

/-- A vector of node numbers with the negative ones counted from the end `n`. -/
def normVec (n : BitVec 32) (k : IVec S650000 32) : IVec S650000 32 :=
  select (cmpi .slt k (broadcastInDim S650000 ![] bcast_S_S650000 (constantI S_ 32 0#32)))
    (addi k (broadcastInDim S650000 ![] bcast_S_S650000 (constantI S_ 32 n))) k

/-- The rows `(destination, source)` the weights are scattered to. -/
def pairsOf (kd ks : IVec S650000 32) : IVec S650000x2 32 :=
  concatenate S650000x2 1
    [⟨S650000x1, broadcastInDim S650000x1 ![0] bcast_S650000_S650000x1_0 (normVec 10240#32 kd)⟩,
     ⟨S650000x1, broadcastInDim S650000x1 ![0] bcast_S650000_S650000x1_0 (normVec 10240#32 ks)⟩]
    concatenates_S650000x1_S650000x1_S650000x2_d1

/-- The square table of zeros the weights are added into. -/
def zeroAdj : FVec Ideal S10240x10240 .f32 :=
  broadcastInDim S10240x10240 ![] bcast_S_S10240x10240 (constant S_ .f32 0x00000000#32)

/-- The dense adjacency: the weights scatter-added into zeros at the rows `(destination, source)`. -/
def adjOf (kd ks : IVec S650000 32) (nrm : FVec Ideal S650000 .f32) : FVec Ideal S10240x10240 .bf16 :=
  truncf .bf16 (Host.scatterAdd scatter_S10240x10240_S650000x2_S650000_n_01_01_1 zeroAdj (pairsOf kd ks) nrm)
    bitsLt_bf16_f32

/-! ## The stages read at an index -/

/-- Every inverse square root in the table is non-negative: it is taken of a number at least one. -/
theorem dinvOf_nonneg (deg : FVec Ideal S10000 .f32) (r : Fin 10000) : 0 ≤ dinvOf deg (ix1 r) := by
  unfold dinvOf
  show 0 ≤ Ideal.rsqrt (max (deg (ix1 r))
    (broadcastInDim S10000 ![] bcast_S_S10000 (constant (F := Ideal) S_ .f32 0x3F800000#32) (ix1 r)))
  rw [broadcastInDim_scalar_apply, constant_apply, Ideal.ofBits_one_f32]
  exact rsqrt_nonneg_of_one_le (le_max_right _ _)

/-- A weight is the product of two entries of the table. -/
theorem nrmOf_nonneg (x : FVec Ideal S10000 .f32) (hx : ∀ r : Fin 10000, 0 ≤ x (ix1 r)) (i j : IVec S650000x1 32)
    (e : Fin 650000) : 0 ≤ nrmOf x i j (ix1 e) := by
  unfold nrmOf
  show 0 ≤ Host.gather (eltGatherDims 10000 650000 gather_S10000_S650000x1_S650000_n_0_n_n_0_1_1_wf) x i (ix1 e)
    * Host.gather (eltGatherDims 10000 650000 gather_S10000_S650000x1_S650000_n_0_n_n_0_1_1_wf) x j (ix1 e)
  rw [gather_elts_apply (by decide), gather_elts_apply (by decide)]
  exact EReal.mul_nonneg (hx _) (hx _)

/-- A normalised vector at an index is the word there, normalised. -/
theorem normVec_apply (n : BitVec 32) (k : IVec S650000 32) (e : Fin 650000) :
    normVec n k (ix1 e) = normIdx n (k (ix1 e)) := by
  unfold normVec normIdx
  show Scalar.select (IntOp.cmpi .slt (k (ix1 e)) (broadcastInDim S650000 ![] bcast_S_S650000 (constantI S_ 32 0#32) (ix1 e)))
    (IntOp.addi (k (ix1 e)) (broadcastInDim S650000 ![] bcast_S_S650000 (constantI S_ 32 n) (ix1 e))) (k (ix1 e)) = _
  rw [broadcastInDim_scalar_apply, broadcastInDim_scalar_apply]
  rfl

/-- A vector laid out as a column, read at row `e`. -/
theorem column_apply (k : IVec S650000 32) (e : Fin 650000) :
    broadcastInDim S650000x1 ![0] bcast_S650000_S650000x1_0 k (ix2 e 0) = k (ix1 e) := by
  refine broadcastInDim_apply _ _ _ _ (ix1 e) ?_
  intro a
  obtain rfl : a = 0 := Subsingleton.elim _ _
  rfl

/-- Row `e` of the pairs: the destination word first. -/
theorem pairsOf_apply_0 (kd ks : IVec S650000 32) (e : Fin 650000) :
    pairsOf kd ks (ix2 e 0) = normIdx 10240#32 (kd (ix1 e)) := by
  unfold pairsOf
  refine (concatenate_pair_apply_left (t := S650000x2) (s₁ := S650000x1) (s₂ := S650000x1) 1 _ _
    concatenates_S650000x1_S650000x1_S650000x2_d1 (ix2 e 0) rfl (ix2 e 0)
    (fun b => by match b with | ⟨0, _⟩ => rfl | ⟨1, _⟩ => rfl)).trans ?_
  rw [column_apply, normVec_apply]

/-- Row `e` of the pairs: the source word second. -/
theorem pairsOf_apply_1 (kd ks : IVec S650000 32) (e : Fin 650000) :
    pairsOf kd ks (ix2 e 1) = normIdx 10240#32 (ks (ix1 e)) := by
  unfold pairsOf
  refine (concatenate_pair_apply_right (t := S650000x2) (s₁ := S650000x1) (s₂ := S650000x1) 1 _ _
    concatenates_S650000x1_S650000x1_S650000x2_d1 (ix2 e 1) rfl rfl (ix2 e 0)
    (fun b hb => by
      match b with
      | ⟨0, _⟩ => rfl
      | ⟨1, _⟩ => exact absurd rfl hb)
    rfl).trans ?_
  rw [column_apply, normVec_apply]

/-- Every entry of the table of zeros is zero. -/
theorem zeroAdj_apply (i : S10240x10240.Idx) : zeroAdj i = 0 := by
  unfold zeroAdj
  rw [broadcastInDim_scalar_apply, constant_apply, Ideal.ofBits_zero_f32]

/-- The program's scatter record is the scatter at pairs. -/
theorem scatter_rec_eq : scatter_S10240x10240_S650000x2_S650000_n_01_01_1
    = pairScatterDims 10240 10240 650000 scatter_S10240x10240_S650000x2_S650000_n_01_01_1_wf := rfl

/-- Rounding to the narrower format changes nothing over the extended reals. -/
theorem adjOf_eq_host (kd ks : IVec S650000 32) (nrm : FVec Ideal S650000 .f32) (i : S10240x10240.Idx) :
    adjOf kd ks nrm i
      = Host.scatterAdd scatter_S10240x10240_S650000x2_S650000_n_01_01_1 zeroAdj (pairsOf kd ks) nrm i := by
  unfold adjOf
  rw [truncf_apply]

/-- The host's scatter-add over the extended reals is the exact sum. -/
theorem hostScatterAdd_eq (Z : FVec Ideal S10240x10240 .f32) (P : IVec S650000x2 32) (nrm : FVec Ideal S650000 .f32)
    (i : S10240x10240.Idx) :
    Host.scatterAdd scatter_S10240x10240_S650000x2_S650000_n_01_01_1 Z P nrm i
      = Ideal.hostScatterAdd scatter_S10240x10240_S650000x2_S650000_n_01_01_1 Z P nrm i := by
  unfold Host.scatterAdd
  rw [Ideal.hostScatterAdd_def]

/-- The same with the record written as the scatter at pairs. -/
theorem hostScatterAdd_rec (Z : FVec Ideal S10240x10240 .f32) (P : IVec S650000x2 32) (nrm : FVec Ideal S650000 .f32)
    (i : S10240x10240.Idx) :
    Ideal.hostScatterAdd scatter_S10240x10240_S650000x2_S650000_n_01_01_1 Z P nrm i
      = Ideal.hostScatterAdd
          (pairScatterDims 10240 10240 650000 scatter_S10240x10240_S650000x2_S650000_n_01_01_1_wf) Z P nrm i := by
  rw [scatter_rec_eq]

/-- The adjacency stage at `(d, s)`: the sum over the rows whose two words are `d` and `s`. -/
theorem adjOf_eq_sum (kd ks : IVec S650000 32) (nrm : FVec Ideal S650000 .f32) (d s : Fin 10240) :
    adjOf kd ks nrm (ix2 d s)
      = 0 + ∑ t ∈ Finset.univ.filter (fun t : Fin 650000 =>
          (pairsOf kd ks (ix2 t 0)).toInt = (d.val : Int) ∧ (pairsOf kd ks (ix2 t 1)).toInt = (s.val : Int)),
            nrm (ix1 t) := by
  rw [adjOf_eq_host, hostScatterAdd_eq, hostScatterAdd_rec, hostScatterAdd_pair_apply, zeroAdj_apply]

/-- THE ADJACENCY STAGE READ AT `(d, s)`: with node numbers in range no word is counted from the end, and the entry
    is the total weight of the edges whose destination word is `d` and whose source word is `s`. -/
theorem adjOf_apply (kd ks : IVec S650000 32) (nrm : FVec Ideal S650000 .f32) (hR : Cert.Spec.InRange ks kd)
    (d s : Fin 10240) : adjOf kd ks nrm (ix2 d s) = Cert.Spec.adj ks kd nrm d s := by
  rw [adjOf_eq_sum]
  unfold Cert.Spec.adj
  refine congrArg (fun z => (0 : EReal) + z) (Finset.sum_congr (Finset.filter_congr fun e _ => ?_) fun _ _ => rfl)
  rw [pairsOf_apply_0, pairsOf_apply_1, normIdx_of_nonneg _ _ (hR e).2.1, normIdx_of_nonneg _ _ (hR e).1.1]

end AdjStage

variable (m : (ℓ : Loc nD τ sig) → Buf (Elt Ideal) ℓ) (ρ : Dev nD → PrngReg)

/-- The source words of the 650000 edges (the edge list's first row, then one self loop per node). -/
def kSrc (c : Dev nD) : Cert.Spec.Words 650000 := W1 m ρ c (Proc.devRef .tc main_v5)
/-- The destination words. -/
def kDst (c : Dev nD) : Cert.Spec.Words 650000 := W1 m ρ c (Proc.devRef .tc main_v6)
/-- The edges' weights: the product of the two ends' inverse square-rooted degrees. -/
def kNrm (c : Dev nD) : Cert.Spec.Arr1 650000 := W1 m ρ c (Proc.devRef .tc main_v28)

namespace AdjStage

/-! ## The buffers after the host operations -/

/-- The host operations cut at place `k`: the first `k` run, then the rest. -/
theorem W1_cut (k : Nat) (c : Dev nD) :
    W1 m ρ c = StableHlo.after (hostOps0.drop k) (StableHlo.after (hostOps0.take k) (W0 m ρ c)) := by
  show StableHlo.after hostOps0 (W0 m ρ c) = _
  rw [← StableHlo.after_append, List.take_append_drop]

set_option maxHeartbeats 4000000 in
/-- The weights are products of gathered inverse square roots of numbers raised to at least one. -/
theorem v28_form (c : Dev nD) : ∃ (X : FVec Ideal S10000 .f32) (I J : IVec S650000x1 32),
    (W1 m ρ c (Proc.devRef .tc main_v28) : FVec Ideal S650000 .f32) = nrmOf (dinvOf X) I J := by
  rw [W1_cut m ρ 13 c]
  generalize StableHlo.after (hostOps0.take 13) (W0 m ρ c) = V
  refine ⟨V (Proc.devRef .tc main_v10),
    broadcastInDim S650000x1 ![0] bcast_S650000_S650000x1_0 (normVec 10000#32 (V (Proc.devRef .tc main_v5))),
    broadcastInDim S650000x1 ![0] bcast_S650000_S650000x1_0 (normVec 10000#32 (V (Proc.devRef .tc main_v6))), ?_⟩
  simp only [hostOps0, List.drop_succ_cons, List.drop_zero]
  unfold nrmOf dinvOf normVec
  after_results

set_option maxHeartbeats 4000000 in
/-- The adjacency buffer is the adjacency stage of the destination words, the source words and the weights. -/
theorem v44_read (c : Dev nD) :
    (W1 m ρ c (Proc.devRef .tc main_v44) : FVec Ideal S10240x10240 .bf16)
      = adjOf (W1 m ρ c (Proc.devRef .tc main_v6)) (W1 m ρ c (Proc.devRef .tc main_v5))
          (W1 m ρ c (Proc.devRef .tc main_v28)) := by
  rw [W1_cut m ρ 36 c]
  generalize StableHlo.after (hostOps0.take 36) (W0 m ρ c) = V
  simp only [hostOps0, List.drop_succ_cons, List.drop_zero]
  unfold adjOf zeroAdj pairsOf normVec
  after_results

end AdjStage

open AdjStage

/-- Every weight is non-negative: a product of two inverse square roots of numbers at least one. -/
theorem kNrm_nonneg (c : Dev nD) (e : Fin 650000) : 0 ≤ kNrm m ρ c (ix1 e) := by
  obtain ⟨X, I, J, h⟩ := v28_form m ρ c
  have hv : kNrm m ρ c (ix1 e) = nrmOf (dinvOf X) I J (ix1 e) := congrFun h (ix1 e)
  rw [hv]
  exact nrmOf_nonneg _ (dinvOf_nonneg X) I J e

/-- THE ADJACENCY READ AT `(d, s)`: with node numbers in range, the total weight of the edges from `s` into `d`. -/
theorem adj_apply (c : Dev nD) (hR : Cert.Spec.InRange (kSrc m ρ c) (kDst m ρ c)) (d s : Fin 10240) :
    (W1 m ρ c (Proc.devRef .tc main_v44) : S10240x10240.Idx → EReal) (ix2 d s)
      = Cert.Spec.adj (kSrc m ρ c) (kDst m ρ c) (kNrm m ρ c) d s := by
  exact (congrFun (v44_read m ρ c) (ix2 d s)).trans (adjOf_apply _ _ _ hR d s)

end Cert.KernelIdeal.Hand

end
-- ==== Proof.KI.Value0.lean ====
/-
  What the first propagation leaves in its result array, at the ideal instance: entry `(d, f)` is the sum over all
  10240 columns `s` of `A (d, s) · Y (s, f)`, clipped below at zero — the four column blocks' partial products added up
  in the accumulator, block row by block row.
-/
import proofs.«404076_j36386962932143_1_alg».proof.Proof.KI.Dat0
import proofs.«404076_j36386962932143_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (V : (c : Dev nD) → (b : Ref sig .tc) → Buf (Elt Ideal) ((c : Thread nD τ).loc b))

/-! ## The body's arithmetic at an index -/

theorem k0_lhs_axisRow (i : S2560x128.Idx) (q : dot_S2560x2560_S2560x128_S2560x128_1_0_0_1_n_n.contr.Idx) :
    (dot_S2560x2560_S2560x128_S2560x128_1_0_0_1_n_n.lhsIdx i q 0).val = (i 0).val := by
  unfold DotDims.lhsIdx
  rw [dif_neg (show ¬(0 : Fin S2560x2560.rank) ∈ dot_S2560x2560_S2560x128_S2560x128_1_0_0_1_n_n.lhsBatch by decide), dif_pos (show (0 : Fin S2560x2560.rank) ∈ dot_S2560x2560_S2560x128_S2560x128_1_0_0_1_n_n.lhsNonContracting by decide)]
  rfl
theorem k0_lhs_axisCol (i : S2560x128.Idx) (q : dot_S2560x2560_S2560x128_S2560x128_1_0_0_1_n_n.contr.Idx) :
    (dot_S2560x2560_S2560x128_S2560x128_1_0_0_1_n_n.lhsIdx i q 1).val = (q ⟨0, by decide⟩).val :=
  dot_S2560x2560_S2560x128_S2560x128_1_0_0_1_n_n.lhsIdx_val_of_single rfl i q
theorem k0_rhs_axisRow (i : S2560x128.Idx) (q : dot_S2560x2560_S2560x128_S2560x128_1_0_0_1_n_n.contr.Idx) :
    (dot_S2560x2560_S2560x128_S2560x128_1_0_0_1_n_n.rhsIdx i q 0).val = (q ⟨0, by decide⟩).val :=
  dot_S2560x2560_S2560x128_S2560x128_1_0_0_1_n_n.rhsIdx_val_of_single rfl i q
theorem k0_rhs_axisCol (i : S2560x128.Idx) (q : dot_S2560x2560_S2560x128_S2560x128_1_0_0_1_n_n.contr.Idx) :
    (dot_S2560x2560_S2560x128_S2560x128_1_0_0_1_n_n.rhsIdx i q 1).val = (i 1).val := by
  unfold DotDims.rhsIdx
  rw [dif_neg (show ¬(1 : Fin S2560x128.rank) ∈ dot_S2560x2560_S2560x128_S2560x128_1_0_0_1_n_n.rhsBatch by decide), dif_pos (show (1 : Fin S2560x128.rank) ∈ dot_S2560x2560_S2560x128_S2560x128_1_0_0_1_n_n.rhsNonContracting by decide)]
  rfl

/-- The zero fill, at an entry. -/
theorem k0_fill_apply (p : Fin 2560) (q : Fin 128) : (k0_pay1 (F := Ideal)) (ix2 p q) = 0 := by
  unfold k0_pay1
  simp only [shapeCast_self]
  exact Ideal.ofBits_zero_f32

/-- One accumulation step, at an entry: the accumulator plus row `p` of the block of `A` times column `q` of the block of `Y`. -/
theorem k0_step_apply (acc : Vec Ideal S2560x128 .f32) (a : Vec Ideal S2560x2560 .bf16) (y : Vec Ideal S2560x128 .bf16)
    (p : Fin 2560) (q : Fin 128) :
    k0_pay2 acc a y (ix2 p q) = acc (ix2 p q) + ∑ j : Fin 2560, a (ix2 p j) * y (ix2 j q) := by
  unfold k0_pay2
  simp only [shapeCast_self]
  show acc (ix2 p q) + matmul (F := Ideal) dot_S2560x2560_S2560x128_S2560x128_1_0_0_1_n_n none a y (constant (F := Ideal) S2560x128 .f32 0x00000000#32) (ix2 p q) = _
  refine congrArg (acc (ix2 p q) + ·) ?_
  simp only [matmul]
  rw [Ideal.matmul_constant_zero_apply, ← Equiv.sum_comp (ValueIdx.contrEquiv1 dot_S2560x2560_S2560x128_S2560x128_1_0_0_1_n_n 2560 rfl rfl).symm]
  refine Finset.sum_congr rfl fun k _ => ?_
  have hk := ValueIdx.contrEquiv1_symm_val dot_S2560x2560_S2560x128_S2560x128_1_0_0_1_n_n 2560 rfl rfl k
  have el : dot_S2560x2560_S2560x128_S2560x128_1_0_0_1_n_n.lhsIdx (ix2 p q) ((ValueIdx.contrEquiv1 dot_S2560x2560_S2560x128_S2560x128_1_0_0_1_n_n 2560 rfl rfl).symm k) = ix2 p k := funext fun b => Fin.ext (by
    match b with
    | ⟨0, _⟩ => exact k0_lhs_axisRow _ _
    | ⟨1, _⟩ => exact (k0_lhs_axisCol _ _).trans hk)
  have er : dot_S2560x2560_S2560x128_S2560x128_1_0_0_1_n_n.rhsIdx (ix2 p q) ((ValueIdx.contrEquiv1 dot_S2560x2560_S2560x128_S2560x128_1_0_0_1_n_n 2560 rfl rfl).symm k) = ix2 k q := funext fun b => Fin.ext (by
    match b with
    | ⟨0, _⟩ => exact (k0_rhs_axisRow _ _).trans hk
    | ⟨1, _⟩ => exact k0_rhs_axisCol _ _)
  rw [el, er]

/-- The clip, at an entry. -/
theorem k0_clip_apply (v : Vec Ideal S2560x128 .f32) (p : Fin 2560) (q : Fin 128) :
    k0_pay3 v (ix2 p q) = max (v (ix2 p q)) 0 := by
  unfold k0_pay3
  show max (v (ix2 p q)) (Ideal.ofBits .f32 0x00000000#32) = _
  rw [Ideal.ofBits_zero_f32]

/-! ## Blocks are pieces of the arrays -/

/-- The adjacency the region reads, as an array of extended reals. -/
abbrev ablk0_arr (c : Dev nD) : Cert.Spec.Arr2 10240 10240 := V c main_v44
/-- The feature table the region reads, as an array of extended reals. -/
abbrev yblk0_arr (c : Dev nD) : Cert.Spec.Arr2 10240 128 := V c main_v52

/-- The printed index maps, decided over the grid: at point `t` the block of `A` is (row block `t / 4`, column block
    `t % 4`), the block of `Y` is row block `t % 4`, the result block is row block `t / 4`. -/
theorem win0_index_facts : ∀ t : Fin cfg0.N, win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = t.val / 4 ∧ win0_2.index t (1 : Fin 2) = 0 :=
  (by decide +kernel : ∀ t : Fin grid0.N, _)

/-- Position `p` inside block `i` of an axis of 10240 cut into four blocks of 2560. -/
def grid0_inBlock (i : Fin 4) (p : Fin 2560) : Fin 10240 := ⟨2560 * i.val + p.val, by omega⟩

/-- The block of `A` at point `4 i + k`, at an entry. -/
theorem ablk0_apply (c : Dev nD) (t : Fin cfg0.N) (i k : Fin 4) (ht : t.val = 4 * i.val + k.val) (p j : Fin 2560) :
    (ablk0 V c t : S2560x2560.Idx → EReal) (ix2 p j) = ablk0_arr V c (ix2 (grid0_inBlock i p) (grid0_inBlock k j)) := by
  obtain ⟨ea, eb, -, -, -, -⟩ := win0_index_facts t
  have hk := k.isLt
  show (V c main_v44 : S10240x10240.Idx → EReal) (((cfg0.win 0).blk t).view.emb (ix2 p j)) = _
  refine congrArg (V c main_v44 : S10240x10240.Idx → EReal) ?_
  funext a; apply Fin.ext
  match a with
  | ⟨0, _⟩ => show win0_0.index t (0 : Fin 2) * 2560 + 1 * p.val = 2560 * i.val + p.val; rw [ea, ht]; omega
  | ⟨1, _⟩ => show win0_0.index t (1 : Fin 2) * 2560 + 1 * j.val = 2560 * k.val + j.val; rw [eb, ht]; omega

/-- The block of `Y` at point `4 i + k`, at an entry. -/
theorem yblk0_apply (c : Dev nD) (t : Fin cfg0.N) (i k : Fin 4) (ht : t.val = 4 * i.val + k.val) (j : Fin 2560) (q : Fin 128) :
    (yblk0 V c t : S2560x128.Idx → EReal) (ix2 j q) = yblk0_arr V c (ix2 (grid0_inBlock k j) q) := by
  obtain ⟨-, -, ea, eb, -, -⟩ := win0_index_facts t
  have hk := k.isLt
  show (V c main_v52 : S10240x128.Idx → EReal) (((cfg0.win 1).blk t).view.emb (ix2 j q)) = _
  refine congrArg (V c main_v52 : S10240x128.Idx → EReal) ?_
  funext a; apply Fin.ext
  match a with
  | ⟨0, _⟩ => show win0_1.index t (0 : Fin 2) * 2560 + 1 * j.val = 2560 * k.val + j.val; rw [ea, ht]; omega
  | ⟨1, _⟩ => show win0_1.index t (1 : Fin 2) * 128 + 1 * q.val = q.val; rw [eb]; omega

/-- One block product at `(p, q)`, read off the arrays: row `p` of block row `i` of `A` against column `q` of `Y`,
    over the positions of column block `k`. -/
theorem k0_blockDot (c : Dev nD) (t : Fin cfg0.N) (i k : Fin 4) (ht : t.val = 4 * i.val + k.val) (p : Fin 2560) (q : Fin 128) :
    ∑ j : Fin 2560, (ablk0 V c t : S2560x2560.Idx → EReal) (ix2 p j) * (yblk0 V c t : S2560x128.Idx → EReal) (ix2 j q)
      = ∑ j : Fin 2560, ablk0_arr V c (ix2 (grid0_inBlock i p) (grid0_inBlock k j)) * yblk0_arr V c (ix2 (grid0_inBlock k j) q) :=
  Finset.sum_congr rfl fun j _ => by rw [ablk0_apply V c t i k ht, yblk0_apply V c t i k ht]

/-! ## Four column blocks make the whole row -/

/-- (block, position in the block) ↔ position on the axis. -/
def grid0_inBlockEquiv : Fin 4 × Fin 2560 ≃ Fin 10240 where
  toFun x := grid0_inBlock x.1 x.2
  invFun s := (⟨s.val / 2560, by omega⟩, ⟨s.val % 2560, by omega⟩)
  left_inv x := Prod.ext (Fin.ext (by show (2560 * x.1.val + x.2.val) / 2560 = x.1.val; omega))
    (Fin.ext (by show (2560 * x.1.val + x.2.val) % 2560 = x.2.val; omega))
  right_inv s := Fin.ext (by show 2560 * (s.val / 2560) + s.val % 2560 = s.val; omega)

/-- A sum along the axis is the sum over the four blocks of the sums inside each. -/
theorem grid0_sum_inBlock {M : Type*} [AddCommMonoid M] (g : Fin 10240 → M) :
    ∑ s : Fin 10240, g s = ∑ k : Fin 4, ∑ j : Fin 2560, g (grid0_inBlock k j) := by
  rw [← Equiv.sum_comp grid0_inBlockEquiv g, Fintype.sum_prod_type]
  rfl

/-! ## The accumulator along a row of blocks -/

private theorem accAt0_first (c : Dev nD) (n : ℕ) (h : n < cfg0.N) (hn : n % 4 = 0) :
    accAt0 V c n h = k0_pay2 (k0_pay1 (F := Ideal)) (ablk0 V c ⟨n, h⟩) (yblk0 V c ⟨n, h⟩) := by
  cases n with
  | zero => rfl
  | succ n => rw [accAt0, if_pos hn]

private theorem accAt0_next (c : Dev nD) (n : ℕ) (h : n + 1 < cfg0.N) (hn : (n + 1) % 4 ≠ 0) :
    accAt0 V c (n + 1) h
      = k0_pay2 (accAt0 V c n (Nat.lt_of_succ_lt h)) (ablk0 V c ⟨n + 1, h⟩) (yblk0 V c ⟨n + 1, h⟩) := by
  rw [accAt0, if_neg hn]

/-- After the fourth column block of block row `i` the accumulator holds, at `(p, q)`, row `grid0_inBlock i p` of `A`
    times column `q` of `Y`, summed over the whole axis. -/
theorem accAt0_last (c : Dev nD) (i : Fin 4) (h : 4 * i.val + 3 < cfg0.N) (p : Fin 2560) (q : Fin 128) :
    (accAt0 V c (4 * i.val + 3) h : S2560x128.Idx → EReal) (ix2 p q)
      = ∑ s : Fin 10240, ablk0_arr V c (ix2 (grid0_inBlock i p) s) * yblk0_arr V c (ix2 s q) := by
  have hN : cfg0.N = 16 := N_0
  have h2 : 4 * i.val + 2 < cfg0.N := by omega
  have h1 : 4 * i.val + 1 < cfg0.N := by omega
  have hz : 4 * i.val < cfg0.N := by omega
  rw [accAt0_next V c (4 * i.val + 2) h (by omega), k0_step_apply,
    accAt0_next V c (4 * i.val + 1) h2 (by omega), k0_step_apply,
    accAt0_next V c (4 * i.val) h1 (by omega), k0_step_apply,
    accAt0_first V c (4 * i.val) hz (by omega), k0_step_apply, k0_fill_apply, zero_add,
    k0_blockDot V c ⟨4 * i.val, hz⟩ i 0 rfl, k0_blockDot V c ⟨4 * i.val + 1, h1⟩ i 1 rfl,
    k0_blockDot V c ⟨4 * i.val + 2, h2⟩ i 2 rfl, k0_blockDot V c ⟨4 * i.val + 2 + 1, h⟩ i 3 rfl,
    grid0_sum_inBlock, Fin.sum_univ_four]

/-! ## From blocks to the array -/

/-- What the result array ends holding: `A · Y` clipped below at zero, entry by entry. -/
def outAt0_arr (c : Dev nD) : S10240x128.Idx → EReal :=
  fun i => Cert.Spec.propK (ablk0_arr V c) (yblk0_arr V c) (i 0) (i 1)

/-- The block stored after the fourth column block of block row `i`, at an entry. -/
theorem outAt0_apply (c : Dev nD) (t : Fin cfg0.N) (i : Fin 4) (hi : t.val = 4 * i.val + 3) (p : Fin 2560) (q : Fin 128) :
    (outAt0 V c t : S2560x128.Idx → EReal) (ix2 p q)
      = Cert.Spec.propK (ablk0_arr V c) (yblk0_arr V c) (grid0_inBlock i p) q := by
  obtain ⟨n, hn⟩ := t
  dsimp only at hi
  subst hi
  unfold outAt0
  rw [k0_clip_apply]
  show max ((accAt0 V c (4 * i.val + 3) hn : S2560x128.Idx → EReal) (ix2 p q)) 0 = _
  rw [accAt0_last]
  rfl

/-- What a point that writes back writes is its block of that one array. -/
theorem outAt0_flushed (c : Dev nD) (t : Fin cfg0.N) (hf : (cfg0.win 2).flush t = true) :
    (dat0 V c).flushed 2 t = ((cfg0.win 2).blk t).view.read (Elt Ideal) (outAt0_arr V c) := by
  have hN : cfg0.N = 16 := N_0
  have ht : t.val % 4 = 3 := (flush0_2 t).mp hf
  have htl := t.isLt
  obtain ⟨-, -, -, -, ea, eb⟩ := win0_index_facts t
  show (cfg0.win 2).cut (grid0.coords t) ((dat0 V c).after 2 t) = _
  rw [after0_2]
  refine funext fun (y : S2560x128.Idx) => ?_
  obtain ⟨p, q, rfl⟩ : ∃ (p : Fin 2560) (q : Fin 128), y = ix2 p q := ⟨y 0, y 1, eq_ix2 y⟩
  show (outAt0 V c t : S2560x128.Idx → EReal) (ix2 p q) = outAt0_arr V c (((cfg0.win 2).blk t).view.emb (ix2 p q))
  have he : ((cfg0.win 2).blk t).view.emb (ix2 p q)
      = (ix2 (grid0_inBlock ⟨t.val / 4, by omega⟩ p) q : S10240x128.Idx) := by
    funext a; apply Fin.ext
    match a with
    | ⟨0, _⟩ => show win0_2.index t (0 : Fin 2) * 2560 + 1 * p.val = 2560 * (t.val / 4) + p.val; rw [ea]; omega
    | ⟨1, _⟩ => show win0_2.index t (1 : Fin 2) * 128 + 1 * q.val = q.val; rw [eb]; omega
  rw [he, outAt0_apply V c t ⟨t.val / 4, by omega⟩ (by dsimp only; omega)]
  rfl

/-- Row `r` is written back by the last point of its block row, `4 (r / 2560) + 3`: it is that block's row `r % 2560`. -/
theorem outAt0_cover (i : S10240x128.Idx) :
    ∃ t : Fin cfg0.N, (cfg0.win 2).flush t = true ∧ i ∈ ((cfg0.win 2).blk t).view.set := by
  have hN : cfg0.N = 16 := N_0
  have hr : (i 0).val < 10240 := (i 0).isLt
  have hc : (i 1).val < 128 := (i 1).isLt
  obtain ⟨t, ht⟩ : ∃ t : Fin cfg0.N, t.val = 4 * ((i 0).val / 2560) + 3 := ⟨⟨_, by omega⟩, rfl⟩
  obtain ⟨-, -, -, -, ea, eb⟩ := win0_index_facts t
  refine ⟨t, (flush0_2 t).mpr (by omega), ?_⟩
  have he : i = ((cfg0.win 2).blk t).view.emb
      (ix2 (⟨(i 0).val % 2560, by omega⟩ : Fin 2560) (⟨(i 1).val, hc⟩ : Fin 128) : S2560x128.Idx) := by
    funext a; apply Fin.ext
    match a with
    | ⟨0, _⟩ =>
      show (i 0).val = win0_2.index t (0 : Fin 2) * 2560 + 1 * ((i 0).val % 2560)
      rw [ea, ht]; omega
    | ⟨1, _⟩ =>
      show (i 1).val = win0_2.index t (1 : Fin 2) * 128 + 1 * (i 1).val
      rw [eb]; omega
  rw [he]
  exact ((cfg0.win 2).blk t).view.emb_mem_set _

/-- THE RESULT ARRAY OF REGION 0, read at `(d, f)`. -/
theorem arrAt_out0 (c : Dev nD) (d : Fin 10240) (f : Fin 128) :
    ((dat0 (F := Ideal) V c).arrAt 2 cfg0.N : S10240x128.Idx → EReal) (ix2 d f)
      = Cert.Spec.propK (V c main_v44) (V c main_v52) d f := by
  rw [(dat0 (F := Ideal) V c).arrAt_eq_of_cover 2 (outAt0_arr V c) (outAt0_flushed V c) outAt0_cover]
  rfl

end Cert.KernelIdeal.Hand

end
-- ==== Proof.KI.Value1.lean ====
/-
  What the second propagation leaves in its result array, at the ideal instance: entry `(d, f)` is the sum over all
  10240 columns `s` of `A (d, s) · Y (s, f)`, clipped below at zero — the four column blocks' partial products added up
  in the accumulator, block row by block row.
-/
import proofs.«404076_j36386962932143_1_alg».proof.Proof.KI.Dat1
import proofs.«404076_j36386962932143_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (V : (c : Dev nD) → (b : Ref sig .tc) → Buf (Elt Ideal) ((c : Thread nD τ).loc b))

/-! ## The body's arithmetic at an index -/

theorem k1_lhs_axisRow (i : S2560x128.Idx) (q : dot_S2560x2560_S2560x128_S2560x128_1_0_0_1_n_n.contr.Idx) :
    (dot_S2560x2560_S2560x128_S2560x128_1_0_0_1_n_n.lhsIdx i q 0).val = (i 0).val := by
  unfold DotDims.lhsIdx
  rw [dif_neg (show ¬(0 : Fin S2560x2560.rank) ∈ dot_S2560x2560_S2560x128_S2560x128_1_0_0_1_n_n.lhsBatch by decide), dif_pos (show (0 : Fin S2560x2560.rank) ∈ dot_S2560x2560_S2560x128_S2560x128_1_0_0_1_n_n.lhsNonContracting by decide)]
  rfl
theorem k1_lhs_axisCol (i : S2560x128.Idx) (q : dot_S2560x2560_S2560x128_S2560x128_1_0_0_1_n_n.contr.Idx) :
    (dot_S2560x2560_S2560x128_S2560x128_1_0_0_1_n_n.lhsIdx i q 1).val = (q ⟨0, by decide⟩).val :=
  dot_S2560x2560_S2560x128_S2560x128_1_0_0_1_n_n.lhsIdx_val_of_single rfl i q
theorem k1_rhs_axisRow (i : S2560x128.Idx) (q : dot_S2560x2560_S2560x128_S2560x128_1_0_0_1_n_n.contr.Idx) :
    (dot_S2560x2560_S2560x128_S2560x128_1_0_0_1_n_n.rhsIdx i q 0).val = (q ⟨0, by decide⟩).val :=
  dot_S2560x2560_S2560x128_S2560x128_1_0_0_1_n_n.rhsIdx_val_of_single rfl i q
theorem k1_rhs_axisCol (i : S2560x128.Idx) (q : dot_S2560x2560_S2560x128_S2560x128_1_0_0_1_n_n.contr.Idx) :
    (dot_S2560x2560_S2560x128_S2560x128_1_0_0_1_n_n.rhsIdx i q 1).val = (i 1).val := by
  unfold DotDims.rhsIdx
  rw [dif_neg (show ¬(1 : Fin S2560x128.rank) ∈ dot_S2560x2560_S2560x128_S2560x128_1_0_0_1_n_n.rhsBatch by decide), dif_pos (show (1 : Fin S2560x128.rank) ∈ dot_S2560x2560_S2560x128_S2560x128_1_0_0_1_n_n.rhsNonContracting by decide)]
  rfl

/-- The zero fill, at an entry. -/
theorem k1_fill_apply (p : Fin 2560) (q : Fin 128) : (k1_pay1 (F := Ideal)) (ix2 p q) = 0 := by
  unfold k1_pay1
  simp only [shapeCast_self]
  exact Ideal.ofBits_zero_f32

/-- One accumulation step, at an entry: the accumulator plus row `p` of the block of `A` times column `q` of the block of `Y`. -/
theorem k1_step_apply (acc : Vec Ideal S2560x128 .f32) (a : Vec Ideal S2560x2560 .bf16) (y : Vec Ideal S2560x128 .bf16)
    (p : Fin 2560) (q : Fin 128) :
    k1_pay2 acc a y (ix2 p q) = acc (ix2 p q) + ∑ j : Fin 2560, a (ix2 p j) * y (ix2 j q) := by
  unfold k1_pay2
  simp only [shapeCast_self]
  show acc (ix2 p q) + matmul (F := Ideal) dot_S2560x2560_S2560x128_S2560x128_1_0_0_1_n_n none a y (constant (F := Ideal) S2560x128 .f32 0x00000000#32) (ix2 p q) = _
  refine congrArg (acc (ix2 p q) + ·) ?_
  simp only [matmul]
  rw [Ideal.matmul_constant_zero_apply, ← Equiv.sum_comp (ValueIdx.contrEquiv1 dot_S2560x2560_S2560x128_S2560x128_1_0_0_1_n_n 2560 rfl rfl).symm]
  refine Finset.sum_congr rfl fun k _ => ?_
  have hk := ValueIdx.contrEquiv1_symm_val dot_S2560x2560_S2560x128_S2560x128_1_0_0_1_n_n 2560 rfl rfl k
  have el : dot_S2560x2560_S2560x128_S2560x128_1_0_0_1_n_n.lhsIdx (ix2 p q) ((ValueIdx.contrEquiv1 dot_S2560x2560_S2560x128_S2560x128_1_0_0_1_n_n 2560 rfl rfl).symm k) = ix2 p k := funext fun b => Fin.ext (by
    match b with
    | ⟨0, _⟩ => exact k1_lhs_axisRow _ _
    | ⟨1, _⟩ => exact (k1_lhs_axisCol _ _).trans hk)
  have er : dot_S2560x2560_S2560x128_S2560x128_1_0_0_1_n_n.rhsIdx (ix2 p q) ((ValueIdx.contrEquiv1 dot_S2560x2560_S2560x128_S2560x128_1_0_0_1_n_n 2560 rfl rfl).symm k) = ix2 k q := funext fun b => Fin.ext (by
    match b with
    | ⟨0, _⟩ => exact (k1_rhs_axisRow _ _).trans hk
    | ⟨1, _⟩ => exact k1_rhs_axisCol _ _)
  rw [el, er]

/-- The clip, at an entry. -/
theorem k1_clip_apply (v : Vec Ideal S2560x128 .f32) (p : Fin 2560) (q : Fin 128) :
    k1_pay3 v (ix2 p q) = max (v (ix2 p q)) 0 := by
  unfold k1_pay3
  show max (v (ix2 p q)) (Ideal.ofBits .f32 0x00000000#32) = _
  rw [Ideal.ofBits_zero_f32]

/-! ## Blocks are pieces of the arrays -/

/-- The adjacency the region reads, as an array of extended reals. -/
abbrev ablk1_arr (c : Dev nD) : Cert.Spec.Arr2 10240 10240 := V c main_v44
/-- The feature table the region reads, as an array of extended reals. -/
abbrev yblk1_arr (c : Dev nD) : Cert.Spec.Arr2 10240 128 := V c main_v58

/-- The printed index maps, decided over the grid: at point `t` the block of `A` is (row block `t / 4`, column block
    `t % 4`), the block of `Y` is row block `t % 4`, the result block is row block `t / 4`. -/
theorem win1_index_facts : ∀ t : Fin cfg1.N, win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0 :=
  (by decide +kernel : ∀ t : Fin grid1.N, _)

/-- Position `p` inside block `i` of an axis of 10240 cut into four blocks of 2560. -/
def grid1_inBlock (i : Fin 4) (p : Fin 2560) : Fin 10240 := ⟨2560 * i.val + p.val, by omega⟩

/-- The block of `A` at point `4 i + k`, at an entry. -/
theorem ablk1_apply (c : Dev nD) (t : Fin cfg1.N) (i k : Fin 4) (ht : t.val = 4 * i.val + k.val) (p j : Fin 2560) :
    (ablk1 V c t : S2560x2560.Idx → EReal) (ix2 p j) = ablk1_arr V c (ix2 (grid1_inBlock i p) (grid1_inBlock k j)) := by
  obtain ⟨ea, eb, -, -, -, -⟩ := win1_index_facts t
  have hk := k.isLt
  show (V c main_v44 : S10240x10240.Idx → EReal) (((cfg1.win 0).blk t).view.emb (ix2 p j)) = _
  refine congrArg (V c main_v44 : S10240x10240.Idx → EReal) ?_
  funext a; apply Fin.ext
  match a with
  | ⟨0, _⟩ => show win1_0.index t (0 : Fin 2) * 2560 + 1 * p.val = 2560 * i.val + p.val; rw [ea, ht]; omega
  | ⟨1, _⟩ => show win1_0.index t (1 : Fin 2) * 2560 + 1 * j.val = 2560 * k.val + j.val; rw [eb, ht]; omega

/-- The block of `Y` at point `4 i + k`, at an entry. -/
theorem yblk1_apply (c : Dev nD) (t : Fin cfg1.N) (i k : Fin 4) (ht : t.val = 4 * i.val + k.val) (j : Fin 2560) (q : Fin 128) :
    (yblk1 V c t : S2560x128.Idx → EReal) (ix2 j q) = yblk1_arr V c (ix2 (grid1_inBlock k j) q) := by
  obtain ⟨-, -, ea, eb, -, -⟩ := win1_index_facts t
  have hk := k.isLt
  show (V c main_v58 : S10240x128.Idx → EReal) (((cfg1.win 1).blk t).view.emb (ix2 j q)) = _
  refine congrArg (V c main_v58 : S10240x128.Idx → EReal) ?_
  funext a; apply Fin.ext
  match a with
  | ⟨0, _⟩ => show win1_1.index t (0 : Fin 2) * 2560 + 1 * j.val = 2560 * k.val + j.val; rw [ea, ht]; omega
  | ⟨1, _⟩ => show win1_1.index t (1 : Fin 2) * 128 + 1 * q.val = q.val; rw [eb]; omega

/-- One block product at `(p, q)`, read off the arrays: row `p` of block row `i` of `A` against column `q` of `Y`,
    over the positions of column block `k`. -/
theorem k1_blockDot (c : Dev nD) (t : Fin cfg1.N) (i k : Fin 4) (ht : t.val = 4 * i.val + k.val) (p : Fin 2560) (q : Fin 128) :
    ∑ j : Fin 2560, (ablk1 V c t : S2560x2560.Idx → EReal) (ix2 p j) * (yblk1 V c t : S2560x128.Idx → EReal) (ix2 j q)
      = ∑ j : Fin 2560, ablk1_arr V c (ix2 (grid1_inBlock i p) (grid1_inBlock k j)) * yblk1_arr V c (ix2 (grid1_inBlock k j) q) :=
  Finset.sum_congr rfl fun j _ => by rw [ablk1_apply V c t i k ht, yblk1_apply V c t i k ht]

/-! ## Four column blocks make the whole row -/

/-- (block, position in the block) ↔ position on the axis. -/
def grid1_inBlockEquiv : Fin 4 × Fin 2560 ≃ Fin 10240 where
  toFun x := grid1_inBlock x.1 x.2
  invFun s := (⟨s.val / 2560, by omega⟩, ⟨s.val % 2560, by omega⟩)
  left_inv x := Prod.ext (Fin.ext (by show (2560 * x.1.val + x.2.val) / 2560 = x.1.val; omega))
    (Fin.ext (by show (2560 * x.1.val + x.2.val) % 2560 = x.2.val; omega))
  right_inv s := Fin.ext (by show 2560 * (s.val / 2560) + s.val % 2560 = s.val; omega)

/-- A sum along the axis is the sum over the four blocks of the sums inside each. -/
theorem grid1_sum_inBlock {M : Type*} [AddCommMonoid M] (g : Fin 10240 → M) :
    ∑ s : Fin 10240, g s = ∑ k : Fin 4, ∑ j : Fin 2560, g (grid1_inBlock k j) := by
  rw [← Equiv.sum_comp grid1_inBlockEquiv g, Fintype.sum_prod_type]
  rfl

/-! ## The accumulator along a row of blocks -/

private theorem accAt1_first (c : Dev nD) (n : ℕ) (h : n < cfg1.N) (hn : n % 4 = 0) :
    accAt1 V c n h = k1_pay2 (k1_pay1 (F := Ideal)) (ablk1 V c ⟨n, h⟩) (yblk1 V c ⟨n, h⟩) := by
  cases n with
  | zero => rfl
  | succ n => rw [accAt1, if_pos hn]

private theorem accAt1_next (c : Dev nD) (n : ℕ) (h : n + 1 < cfg1.N) (hn : (n + 1) % 4 ≠ 0) :
    accAt1 V c (n + 1) h
      = k1_pay2 (accAt1 V c n (Nat.lt_of_succ_lt h)) (ablk1 V c ⟨n + 1, h⟩) (yblk1 V c ⟨n + 1, h⟩) := by
  rw [accAt1, if_neg hn]

/-- After the fourth column block of block row `i` the accumulator holds, at `(p, q)`, row `grid1_inBlock i p` of `A`
    times column `q` of `Y`, summed over the whole axis. -/
theorem accAt1_last (c : Dev nD) (i : Fin 4) (h : 4 * i.val + 3 < cfg1.N) (p : Fin 2560) (q : Fin 128) :
    (accAt1 V c (4 * i.val + 3) h : S2560x128.Idx → EReal) (ix2 p q)
      = ∑ s : Fin 10240, ablk1_arr V c (ix2 (grid1_inBlock i p) s) * yblk1_arr V c (ix2 s q) := by
  have hN : cfg1.N = 16 := N_1
  have h2 : 4 * i.val + 2 < cfg1.N := by omega
  have h1 : 4 * i.val + 1 < cfg1.N := by omega
  have hz : 4 * i.val < cfg1.N := by omega
  rw [accAt1_next V c (4 * i.val + 2) h (by omega), k1_step_apply,
    accAt1_next V c (4 * i.val + 1) h2 (by omega), k1_step_apply,
    accAt1_next V c (4 * i.val) h1 (by omega), k1_step_apply,
    accAt1_first V c (4 * i.val) hz (by omega), k1_step_apply, k1_fill_apply, zero_add,
    k1_blockDot V c ⟨4 * i.val, hz⟩ i 0 rfl, k1_blockDot V c ⟨4 * i.val + 1, h1⟩ i 1 rfl,
    k1_blockDot V c ⟨4 * i.val + 2, h2⟩ i 2 rfl, k1_blockDot V c ⟨4 * i.val + 2 + 1, h⟩ i 3 rfl,
    grid1_sum_inBlock, Fin.sum_univ_four]

/-! ## From blocks to the array -/

/-- What the result array ends holding: `A · Y` clipped below at zero, entry by entry. -/
def outAt1_arr (c : Dev nD) : S10240x128.Idx → EReal :=
  fun i => Cert.Spec.propK (ablk1_arr V c) (yblk1_arr V c) (i 0) (i 1)

/-- The block stored after the fourth column block of block row `i`, at an entry. -/
theorem outAt1_apply (c : Dev nD) (t : Fin cfg1.N) (i : Fin 4) (hi : t.val = 4 * i.val + 3) (p : Fin 2560) (q : Fin 128) :
    (outAt1 V c t : S2560x128.Idx → EReal) (ix2 p q)
      = Cert.Spec.propK (ablk1_arr V c) (yblk1_arr V c) (grid1_inBlock i p) q := by
  obtain ⟨n, hn⟩ := t
  dsimp only at hi
  subst hi
  unfold outAt1
  rw [k1_clip_apply]
  show max ((accAt1 V c (4 * i.val + 3) hn : S2560x128.Idx → EReal) (ix2 p q)) 0 = _
  rw [accAt1_last]
  rfl

/-- What a point that writes back writes is its block of that one array. -/
theorem outAt1_flushed (c : Dev nD) (t : Fin cfg1.N) (hf : (cfg1.win 2).flush t = true) :
    (dat1 V c).flushed 2 t = ((cfg1.win 2).blk t).view.read (Elt Ideal) (outAt1_arr V c) := by
  have hN : cfg1.N = 16 := N_1
  have ht : t.val % 4 = 3 := (flush1_2 t).mp hf
  have htl := t.isLt
  obtain ⟨-, -, -, -, ea, eb⟩ := win1_index_facts t
  show (cfg1.win 2).cut (grid1.coords t) ((dat1 V c).after 2 t) = _
  rw [after1_2]
  refine funext fun (y : S2560x128.Idx) => ?_
  obtain ⟨p, q, rfl⟩ : ∃ (p : Fin 2560) (q : Fin 128), y = ix2 p q := ⟨y 0, y 1, eq_ix2 y⟩
  show (outAt1 V c t : S2560x128.Idx → EReal) (ix2 p q) = outAt1_arr V c (((cfg1.win 2).blk t).view.emb (ix2 p q))
  have he : ((cfg1.win 2).blk t).view.emb (ix2 p q)
      = (ix2 (grid1_inBlock ⟨t.val / 4, by omega⟩ p) q : S10240x128.Idx) := by
    funext a; apply Fin.ext
    match a with
    | ⟨0, _⟩ => show win1_2.index t (0 : Fin 2) * 2560 + 1 * p.val = 2560 * (t.val / 4) + p.val; rw [ea]; omega
    | ⟨1, _⟩ => show win1_2.index t (1 : Fin 2) * 128 + 1 * q.val = q.val; rw [eb]; omega
  rw [he, outAt1_apply V c t ⟨t.val / 4, by omega⟩ (by dsimp only; omega)]
  rfl

/-- Row `r` is written back by the last point of its block row, `4 (r / 2560) + 3`: it is that block's row `r % 2560`. -/
theorem outAt1_cover (i : S10240x128.Idx) :
    ∃ t : Fin cfg1.N, (cfg1.win 2).flush t = true ∧ i ∈ ((cfg1.win 2).blk t).view.set := by
  have hN : cfg1.N = 16 := N_1
  have hr : (i 0).val < 10240 := (i 0).isLt
  have hc : (i 1).val < 128 := (i 1).isLt
  obtain ⟨t, ht⟩ : ∃ t : Fin cfg1.N, t.val = 4 * ((i 0).val / 2560) + 3 := ⟨⟨_, by omega⟩, rfl⟩
  obtain ⟨-, -, -, -, ea, eb⟩ := win1_index_facts t
  refine ⟨t, (flush1_2 t).mpr (by omega), ?_⟩
  have he : i = ((cfg1.win 2).blk t).view.emb
      (ix2 (⟨(i 0).val % 2560, by omega⟩ : Fin 2560) (⟨(i 1).val, hc⟩ : Fin 128) : S2560x128.Idx) := by
    funext a; apply Fin.ext
    match a with
    | ⟨0, _⟩ =>
      show (i 0).val = win1_2.index t (0 : Fin 2) * 2560 + 1 * ((i 0).val % 2560)
      rw [ea, ht]; omega
    | ⟨1, _⟩ =>
      show (i 1).val = win1_2.index t (1 : Fin 2) * 128 + 1 * (i 1).val
      rw [eb]; omega
  rw [he]
  exact ((cfg1.win 2).blk t).view.emb_mem_set _

/-- THE RESULT ARRAY OF REGION 1, read at `(d, f)`. -/
theorem arrAt_out1 (c : Dev nD) (d : Fin 10240) (f : Fin 128) :
    ((dat1 (F := Ideal) V c).arrAt 2 cfg1.N : S10240x128.Idx → EReal) (ix2 d f)
      = Cert.Spec.propK (V c main_v44) (V c main_v58) d f := by
  rw [(dat1 (F := Ideal) V c).arrAt_eq_of_cover 2 (outAt1_arr V c) (outAt1_flushed V c) outAt1_cover]
  rfl

end Cert.KernelIdeal.Hand

end
-- ==== Proof.KI.Tail.lean ====
/-
  The host operations after the second propagation, at the ideal instance, read at an index: the first 10000 rows of
  the propagation's result, each divided by the larger of its Euclidean norm and a small constant, through the last
  dense layer.
-/
import proofs.«404076_j36386962932143_1_alg».proof.Proof.KI.Bounds
import proofs.«404076_j36386962932143_1_alg».proof.Proof.Spec
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! ## The stages, each as a function of the propagation's result, the dense layer's matrix and its offset -/

section Stages

variable {F : FTy → Type} [FloatOps F]

/-- The first 10000 rows. -/
def tlRows (H : (⟨S10240x128, .f32⟩ : BufTy).Contents (Elt F)) : (⟨S10000x128, .f32⟩ : BufTy).Contents (Elt F) :=
  extractStridedSlice S10000x128 ![0, 0] H slices_S10240x128_S10000x128_0_0
/-- Each row's sum of squares. -/
def tlSum (H : (⟨S10240x128, .f32⟩ : BufTy).Contents (Elt F)) : (⟨S10000, .f32⟩ : BufTy).Contents (Elt F) :=
  Host.reduceAdd (mulf (tlRows H) (tlRows H)) (constant S_ .f32 0x00000000#32) reducesTo_S10000x128_S10000_d1 h_S_
/-- Each row's Euclidean norm, as a column. -/
def tlNorm (H : (⟨S10240x128, .f32⟩ : BufTy).Contents (Elt F)) : (⟨S10000x1, .f32⟩ : BufTy).Contents (Elt F) :=
  Host.sqrt (broadcastInDim S10000x1 ![0] bcast_S10000_S10000x1_0 (tlSum H))
/-- The small constant, as a column. -/
def tlEps : (⟨S10000x1, .f32⟩ : BufTy).Contents (Elt F) :=
  broadcastInDim S10000x1 ![] bcast_S_S10000x1 (constant S_ .f32 0x2B8CBCCC#32)
/-- The divisor of each entry: the larger of its row's norm and the small constant. -/
def tlDen (H : (⟨S10240x128, .f32⟩ : BufTy).Contents (Elt F)) : (⟨S10000x128, .f32⟩ : BufTy).Contents (Elt F) :=
  broadcastInDim S10000x128 ![0, 1] bcast_S10000x1_S10000x128_0_1 (maximumf (tlNorm H) tlEps)
/-- The rows divided by their divisors. -/
def tlUnit (H : (⟨S10240x128, .f32⟩ : BufTy).Contents (Elt F)) : (⟨S10000x128, .f32⟩ : BufTy).Contents (Elt F) :=
  Host.divf (tlRows H) (tlDen H)
/-- The offset, spread over the rows. -/
def tlBias (bc : (⟨S40, .f32⟩ : BufTy).Contents (Elt F)) : (⟨S10000x40, .f32⟩ : BufTy).Contents (Elt F) :=
  broadcastInDim S10000x40 ![0, 1] bcast_S1x40_S10000x40_0_1 (broadcastInDim S1x40 ![1] bcast_S40_S1x40_1 bc)
/-- The whole last stage. -/
def tlOut (H : (⟨S10240x128, .f32⟩ : BufTy).Contents (Elt F)) (Wc : (⟨S128x40, .f32⟩ : BufTy).Contents (Elt F))
    (bc : (⟨S40, .f32⟩ : BufTy).Contents (Elt F)) : (⟨S10000x40, .f32⟩ : BufTy).Contents (Elt F) :=
  addf (Host.dotGeneral dot_S10000x128_S128x40_S10000x40_1_0_0_1_n_n none (tlUnit H) Wc) (tlBias bc)

end Stages

/-! ## The stages at an index, over the extended reals -/

section Reads

/-- A row of the first 10000 is the same row of the whole table. -/
theorem tlRows_apply (H : (⟨S10240x128, .f32⟩ : BufTy).Contents (Elt Ideal)) (r : Fin 10000) (k : Fin 128) :
    tlRows (F := Ideal) H (ix2 r k) = H (ix2 ⟨r.val, by omega⟩ k) := by
  unfold tlRows
  exact extractStridedSlice_apply ![0, 0] H slices_S10240x128_S10000x128_0_0 (ix2 r k) (ix2 ⟨r.val, by omega⟩ k)
    (fun a => match a with
      | ⟨0, _⟩ => by show r.val = 0 + r.val; omega
      | ⟨1, _⟩ => by show k.val = 0 + k.val; omega)

/-- A row's sum of squares: zero plus the sum over the 128 columns. -/
theorem tlSum_apply (H : (⟨S10240x128, .f32⟩ : BufTy).Contents (Elt Ideal)) (r : Fin 10000) :
    tlSum (F := Ideal) H (ix1 r)
      = 0 + ∑ k : Fin 128, tlRows (F := Ideal) H (ix2 r k) * tlRows (F := Ideal) H (ix2 r k) := by
  unfold tlSum
  generalize tlRows (F := Ideal) H = y
  simp only [Host.reduceAdd, Ideal.hostReduceAdd_def]
  rw [Ideal.hostReduceAdd_single reducesTo_S10000x128_S10000_d1 (by decide)]
  refine congrArg₂ (· + ·) ?_ (Finset.sum_congr rfl fun k _ => ?_)
  · exact Ideal.ofBits_zero_f32
  · have e : (Shape.Reduces.lift (s := S10000x128) (t := S10000) (a := 1) (by decide) (ix1 r) k) = ix2 r k :=
      funext fun a => Fin.ext (by match a with | ⟨0, _⟩ => rfl | ⟨1, _⟩ => rfl)
    exact congrArg (fun j => y j * y j) e

end Reads

section Reads2

/-- A row's norm, read in the one column. -/
theorem tlNorm_apply (H : (⟨S10240x128, .f32⟩ : BufTy).Contents (Elt Ideal)) (r : Fin 10000) (z : Fin 1) :
    tlNorm (F := Ideal) H (ix2 r z) = Ideal.sqrt (tlSum (F := Ideal) H (ix1 r)) := by
  unfold tlNorm
  exact congrArg Ideal.sqrt (broadcastInDim_apply _ bcast_S10000_S10000x1_0 (tlSum (F := Ideal) H) (ix2 r z) (ix1 r)
    (fun a => match a with
      | ⟨0, _⟩ => by show r.val = if (10000 : Nat) = 1 then 0 else r.val; rw [if_neg (by decide)]))

/-- The small constant, at every place of its column. -/
theorem tlEps_apply (r : Fin 10000) (z : Fin 1) :
    tlEps (F := Ideal) (ix2 r z) = Ideal.ofBits .f32 0x2B8CBCCC#32 := by
  unfold tlEps
  exact (broadcastInDim_apply _ bcast_S_S10000x1 (constant (F := Ideal) S_ .f32 0x2B8CBCCC#32) (ix2 r z) ix0
    (fun a => a.elim0)).trans rfl

/-- The divisor of an entry is its row's. -/
theorem tlDen_apply (H : (⟨S10240x128, .f32⟩ : BufTy).Contents (Elt Ideal)) (r : Fin 10000) (k : Fin 128) :
    tlDen (F := Ideal) H (ix2 r k)
      = max (tlNorm (F := Ideal) H (ix2 r ⟨0, Nat.one_pos⟩)) (tlEps (F := Ideal) (ix2 r ⟨0, Nat.one_pos⟩)) := by
  unfold tlDen
  exact (broadcastInDim_apply _ bcast_S10000x1_S10000x128_0_1 _ (ix2 r k) (ix2 r ⟨0, Nat.one_pos⟩)
    (fun a => match a with
      | ⟨0, _⟩ => by show r.val = if (10000 : Nat) = 1 then 0 else r.val; rw [if_neg (by decide)]
      | ⟨1, _⟩ => by show 0 = if (1 : Nat) = 1 then 0 else k.val; rw [if_pos rfl])).trans rfl

/-- An entry of the divided rows. -/
theorem tlUnit_apply (H : (⟨S10240x128, .f32⟩ : BufTy).Contents (Elt Ideal)) (r : Fin 10000) (k : Fin 128) :
    tlUnit (F := Ideal) H (ix2 r k)
      = Ideal.div (tlRows (F := Ideal) H (ix2 r k)) (tlDen (F := Ideal) H (ix2 r k)) := rfl

/-- The spread offset at a place is the offset at its column. -/
theorem tlBias_apply (bc : (⟨S40, .f32⟩ : BufTy).Contents (Elt Ideal)) (r : Fin 10000) (q : Fin 40) :
    tlBias (F := Ideal) bc (ix2 r q) = bc (ix1 q) := by
  unfold tlBias
  refine (broadcastInDim_apply _ bcast_S1x40_S10000x40_0_1 _ (ix2 r q) (ix2 ⟨0, Nat.one_pos⟩ q) (fun a => match a with
    | ⟨0, _⟩ => by show 0 = if (1 : Nat) = 1 then 0 else r.val; rw [if_pos rfl]
    | ⟨1, _⟩ => by show q.val = if (40 : Nat) = 1 then 0 else q.val; rw [if_neg (by decide)])).trans ?_
  exact broadcastInDim_apply _ bcast_S40_S1x40_1 bc (ix2 ⟨0, Nat.one_pos⟩ q) (ix1 q) (fun a => match a with
    | ⟨0, _⟩ => by show q.val = if (40 : Nat) = 1 then 0 else q.val; rw [if_neg (by decide)])

/-- The dense layer's dimension numbers. -/
abbrev tlDot : DotDims S10000x128 S128x40 S10000x40 := dot_S10000x128_S128x40_S10000x40_1_0_0_1_n_n

/-- The left operand's row is the result's row. -/
theorem tlDot_lhs0 (i : S10000x40.Idx) (p : tlDot.contr.Idx) : (tlDot.lhsIdx i p 0).val = (i 0).val := by
  unfold DotDims.lhsIdx
  rw [dif_neg (show ¬(0 : Fin S10000x128.rank) ∈ tlDot.lhsBatch by decide),
    dif_pos (show (0 : Fin S10000x128.rank) ∈ tlDot.lhsNonContracting by decide)]
  rfl
/-- The right operand's column is the result's column. -/
theorem tlDot_rhs1 (i : S10000x40.Idx) (p : tlDot.contr.Idx) : (tlDot.rhsIdx i p 1).val = (i 1).val := by
  unfold DotDims.rhsIdx
  rw [dif_neg (show ¬(1 : Fin S128x40.rank) ∈ tlDot.rhsBatch by decide),
    dif_pos (show (1 : Fin S128x40.rank) ∈ tlDot.rhsNonContracting by decide)]
  rfl

/-- An entry of the result: the row of the divided table against the matrix's column, plus the offset. -/
theorem tlOut_apply (H : (⟨S10240x128, .f32⟩ : BufTy).Contents (Elt Ideal)) (Wc : (⟨S128x40, .f32⟩ : BufTy).Contents (Elt Ideal))
    (bc : (⟨S40, .f32⟩ : BufTy).Contents (Elt Ideal)) (r : Fin 10000) (q : Fin 40) :
    tlOut (F := Ideal) H Wc bc (ix2 r q)
      = (∑ k : Fin 128, tlUnit (F := Ideal) H (ix2 r k) * Wc (ix2 k q)) + tlBias (F := Ideal) bc (ix2 r q) := by
  unfold tlOut
  rw [ValueIdx.addf_apply]
  refine congrArg (· + tlBias (F := Ideal) bc (ix2 r q)) ?_
  simp only [Host.dotGeneral]
  rw [Ideal.dotGeneral_apply, ← Equiv.sum_comp (contrEquiv1 tlDot 128 rfl rfl).symm]
  refine Finset.sum_congr rfl fun k _ => ?_
  have hk := contrEquiv1_symm_val tlDot 128 rfl rfl k
  have el : tlDot.lhsIdx (ix2 r q) ((contrEquiv1 tlDot 128 rfl rfl).symm k) = ix2 r k := funext fun a => Fin.ext (by
    match a with
    | ⟨0, _⟩ => exact tlDot_lhs0 _ _
    | ⟨1, _⟩ => exact (tlDot.lhsIdx_val_of_single rfl _ _).trans hk)
  have er : tlDot.rhsIdx (ix2 r q) ((contrEquiv1 tlDot 128 rfl rfl).symm k) = ix2 k q := funext fun a => Fin.ext (by
    match a with
    | ⟨0, _⟩ => exact (tlDot.rhsIdx_val_of_single rfl _ _).trans hk
    | ⟨1, _⟩ => exact tlDot_rhs1 _ _)
  rw [el, er]

/-- THE LAST STAGE at a place, from the table's entries. -/
theorem tlOut_head (H : (⟨S10240x128, .f32⟩ : BufTy).Contents (Elt Ideal)) (Wc : (⟨S128x40, .f32⟩ : BufTy).Contents (Elt Ideal))
    (bc : (⟨S40, .f32⟩ : BufTy).Contents (Elt Ideal)) (r : Fin 10000) (q : Fin 40) :
    tlOut (F := Ideal) H Wc bc (ix2 r q)
      = Cert.Spec.head (fun r k => (H : S10240x128.Idx → EReal) (ix2 ⟨r.val, by omega⟩ k)) Wc bc r q := by
  rw [tlOut_apply, tlBias_apply]
  unfold Cert.Spec.head
  refine congrArg (· + bc (ix1 q)) (Finset.sum_congr rfl fun k _ => ?_)
  rw [tlUnit_apply, tlDen_apply, tlNorm_apply, tlEps_apply, tlSum_apply, tlRows_apply]
  refine congrArg (fun s => Ideal.div _ (max (Ideal.sqrt (0 + s)) _) * _) (Finset.sum_congr rfl fun k' _ => ?_)
  rw [tlRows_apply]

end Reads2

/-! ## The buffers the last operations read -/

section Args

variable (m : (ℓ : Loc nD τ sig) → Buf (Elt Ideal) ℓ) (ρ : Dev nD → PrngReg)

set_option maxHeartbeats 4000000 in
/-- The dense layer's matrix is never written: at the second propagation's exit it is as launched. -/
theorem W4_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg6) := rfl

set_option maxHeartbeats 4000000 in
/-- The dense layer's offset is never written either. -/
theorem W4_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg7) := rfl

set_option maxHeartbeats 8000000 in
/-- The result buffer after the last host operations is the last stage of the three buffers it reads. -/
theorem W5_v72 (c : Dev nD) :
    W5 m ρ c (Proc.devRef .tc main_v72)
      = tlOut (F := Ideal) (W4 m ρ c (Proc.devRef .tc main_v59)) (W4 m ρ c (Proc.devRef .tc main_arg6))
          (W4 m ρ c (Proc.devRef .tc main_arg7)) := by
  show StableHlo.after hostOps2 _ (Proc.devRef .tc main_v72) = _
  after_results_simp <;> rfl

end Args

variable (m : (ℓ : Loc nD τ sig) → Buf (Elt Ideal) ℓ) (ρ : Dev nD → PrngReg)

/-- THE LAST STAGE at row `r`, column `q`, from the second propagation's result array. -/
theorem tail_apply (c : Dev nD) (r : Fin 10000) (q : Fin 40) :
    (W5 m ρ c (Proc.devRef .tc main_v72) : S10000x40.Idx → EReal) (ix2 r q)
      = Cert.Spec.head (fun r k => (W4 m ρ c (Proc.devRef .tc main_v59) : S10240x128.Idx → EReal) (ix2 ⟨r.val, by omega⟩ k))
          (m ((c : Thread nD τ).loc main_arg6)) (m ((c : Thread nD τ).loc main_arg7)) r q := by
  rw [W5_v72 m ρ c, W4_arg6 m ρ c, W4_arg7 m ρ c]
  exact tlOut_head _ _ _ r q

end Cert.KernelIdeal.Hand

end
-- ==== Proof.LibScatterSet.lean ====
import Idealize.ShloMosaic.PureOps.ShapeOps
import Mathlib.Logic.Equiv.Defs

/-!
# A scatter whose combiner keeps the update

The host scatter is a left fold over the update indices in row-major order. Each step either
rewrites one element of the result (the one the update index lands on) or leaves the result
alone (the update index lands outside the operand). When the combiner returns its second
argument, the value found at a result index `i` after the whole fold is decided by the LAST
update index landing on `i`. Two consequences are proved here: if exactly one update index
lands on `i`, the result there is that update; if none does, the result there is the operand's
element.
-/

namespace Cert.Lib

open Idealize.ShloMosaic

section Fold

variable {ι σ α : Type}

/-- A left fold whose every step leaves an observed quantity `v` of the state alone: the
    observed quantity at the end is the one at the start. Here `P n` says "step `n` touches the
    observed quantity"; the hypothesis is that no element of the list does. -/
theorem foldl_obs_untouched (stp : σ → ι → σ) (v : σ → α) (P : ι → Prop)
    (hmiss : ∀ r n, ¬ P n → v (stp r n) = v r) :
    ∀ (L : List ι) (x : σ), (∀ n ∈ L, ¬ P n) → v (L.foldl stp x) = v x := by
  intro L
  induction L with
  | nil => intro x _; rfl
  | cons a L ih =>
    intro x h
    rw [List.foldl_cons, ih (stp x a) (fun n hn => h n (List.mem_cons_of_mem a hn)),
      hmiss x a (h a List.mem_cons_self)]

/-- A left fold over a list without repetitions in which exactly one element `n` touches the
    observed quantity `v`, setting it to `val n` whatever the state was: the observed quantity at
    the end is `val n`. Before `n` the state is arbitrary; at `n` the quantity becomes `val n`;
    after `n` nothing touches it, because any later element that did would equal `n`, and `n`
    does not occur twice. -/
theorem foldl_obs_set_once (stp : σ → ι → σ) (v : σ → α) (P : ι → Prop) (val : ι → α)
    (hhit : ∀ r n, P n → v (stp r n) = val n)
    (hmiss : ∀ r n, ¬ P n → v (stp r n) = v r) (n : ι) (hPn : P n) :
    ∀ (L : List ι) (x : σ), L.Nodup → n ∈ L → (∀ n' ∈ L, P n' → n' = n) →
      v (L.foldl stp x) = val n := by
  intro L
  induction L with
  | nil => intro x _ hmem; exact absurd hmem List.not_mem_nil
  | cons a L ih =>
    intro x hnd hmem huniq
    rw [List.foldl_cons]
    have hnd' := List.nodup_cons.1 hnd
    by_cases han : a = n
    · -- the head is the one touching element: the tail leaves the quantity alone
      subst han
      have htail : ∀ m ∈ L, ¬ P m := by
        intro m hm hPm
        have : m = a := huniq m (List.mem_cons_of_mem a hm) hPm
        exact hnd'.1 (this ▸ hm)
      rw [foldl_obs_untouched stp v P hmiss L (stp x a) htail, hhit x a hPn]
    · -- the touching element is in the tail
      have hmem' : n ∈ L := by
        rcases List.mem_cons.1 hmem with h | h
        · exact absurd h.symm han
        · exact h
      exact ih (stp x a) hnd'.2 hmem' (fun n' hn' => huniq n' (List.mem_cons_of_mem a hn'))

end Fold

section Scatter

variable {α : Type} {s si u : Shape} {w : Nat}

/-- One step of the scatter with the update-keeping combiner, read at a result index `i` the
    update index lands on: the update's element. -/
private theorem step_hit (d : ScatterDims s si u) (idx : IVec si w) (upd : u.Idx → α) (i : s.Idx)
    (r : s.Idx → α) (m : Fin u.numel) (h : d.resultIdx? (u.rowMajor.symm m) idx = some i) :
    (match d.resultIdx? (u.rowMajor.symm m) idx with
      | some j => fun i' => if i' = j then (fun (_ b : α) => b) (r j) (upd (u.rowMajor.symm m)) else r i'
      | none => r) i = upd (u.rowMajor.symm m) := by
  rw [h]
  exact if_pos rfl

/-- One step of the scatter, read at a result index `i` the update index does not land on: the
    element that was there. -/
private theorem step_miss (d : ScatterDims s si u) (idx : IVec si w) (upd : u.Idx → α) (i : s.Idx)
    (r : s.Idx → α) (m : Fin u.numel) (h : d.resultIdx? (u.rowMajor.symm m) idx ≠ some i) :
    (match d.resultIdx? (u.rowMajor.symm m) idx with
      | some j => fun i' => if i' = j then (fun (_ b : α) => b) (r j) (upd (u.rowMajor.symm m)) else r i'
      | none => r) i = r i := by
  generalize d.resultIdx? (u.rowMajor.symm m) idx = o at h
  cases o with
  | none => rfl
  | some j =>
    have hij : i ≠ j := fun e => h (by rw [e])
    exact if_neg hij

/-- A scatter whose combiner keeps the update, at a result index `i` on which exactly one
    update index `n` lands (`n` lands on `i`, and every update index landing on `i` is `n`): the
    result's element there is the update's element at `n`. -/
theorem scatter_set_hit (d : ScatterDims s si u) (x : s.Idx → α) (idx : IVec si w) (upd : u.Idx → α)
    (i : s.Idx) (n : u.Idx) (hn : d.resultIdx? n idx = some i)
    (huniq : ∀ n' : u.Idx, d.resultIdx? n' idx = some i → n' = n) :
    Host.scatter d (fun _ b => b) x idx upd i = upd n := by
  unfold Host.scatter
  have key := foldl_obs_set_once
    (stp := fun (r : s.Idx → α) (m : Fin u.numel) =>
      match d.resultIdx? (u.rowMajor.symm m) idx with
      | some j => fun i' => if i' = j then (fun (_ b : α) => b) (r j) (upd (u.rowMajor.symm m)) else r i'
      | none => r)
    (v := fun r => r i)
    (P := fun m => d.resultIdx? (u.rowMajor.symm m) idx = some i)
    (val := fun m => upd (u.rowMajor.symm m))
    (fun r m h => step_hit d idx upd i r m h)
    (fun r m h => step_miss d idx upd i r m h)
    (u.rowMajor n) (by show d.resultIdx? (u.rowMajor.symm (u.rowMajor n)) idx = some i
                       rw [Equiv.symm_apply_apply]; exact hn)
    (List.finRange u.numel) x (List.nodup_finRange _) (List.mem_finRange _)
    (fun m _ hm => by
      have := huniq (u.rowMajor.symm m) hm
      exact (Equiv.symm_apply_eq _).1 this)
  simp only [Equiv.symm_apply_apply] at key
  exact key

/-- A scatter whose combiner keeps the update, at a result index `i` on which no update index
    lands: the result's element there is the operand's. -/
theorem scatter_set_miss (d : ScatterDims s si u) (x : s.Idx → α) (idx : IVec si w) (upd : u.Idx → α)
    (i : s.Idx) (hmiss : ∀ n : u.Idx, d.resultIdx? n idx ≠ some i) :
    Host.scatter d (fun _ b => b) x idx upd i = x i := by
  unfold Host.scatter
  exact foldl_obs_untouched
    (stp := fun (r : s.Idx → α) (m : Fin u.numel) =>
      match d.resultIdx? (u.rowMajor.symm m) idx with
      | some j => fun i' => if i' = j then (fun (_ b : α) => b) (r j) (upd (u.rowMajor.symm m)) else r i'
      | none => r)
    (v := fun r => r i)
    (P := fun m => d.resultIdx? (u.rowMajor.symm m) idx = some i)
    (fun r m h => step_miss d idx upd i r m h)
    (List.finRange u.numel) x (fun m _ => hmiss (u.rowMajor.symm m))

end Scatter

end Cert.Lib
-- ==== Proof.KI.Dense.lean ====
/-
  The two dense layers of the kernel program at the ideal instance, read at an index on the first 10000 rows: the
  first from the input padded with zero rows (a padded row never enters), the second from the first propagation's
  result array; and the adjacency's buffer, which nothing between the two propagations writes.
-/
import proofs.«404076_j36386962932143_1_alg».proof.Proof.KI.Bounds
import proofs.«404076_j36386962932143_1_alg».proof.Proof.Spec
import proofs.«404076_j36386962932143_1_alg».proof.Proof.LibScatterSet
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! ## A dense layer `X · W + b` on a 10240 × 128 table, at an index

The contraction runs over the table's second axis and the weight's first; the bias is spread first to a 1 × 128 row and
then down the 10240 rows; the final narrowing of the float format is the identity on the extended reals. -/

/-- The left operand of the contraction is read at the result's row … -/
theorem lhs_dense_0 (i : S10240x128.Idx) (q : dot_S10240x128_S128x128_S10240x128_1_0_0_1_n_n.contr.Idx) :
    (dot_S10240x128_S128x128_S10240x128_1_0_0_1_n_n.lhsIdx i q 0).val = (i 0).val := by
  unfold DotDims.lhsIdx
  rw [dif_neg (show ¬(0 : Fin S10240x128.rank) ∈ dot_S10240x128_S128x128_S10240x128_1_0_0_1_n_n.lhsBatch by decide), dif_pos (show (0 : Fin S10240x128.rank) ∈ dot_S10240x128_S128x128_S10240x128_1_0_0_1_n_n.lhsNonContracting by decide)]
  rfl
/-- … and at the contracted position on its second axis. -/
theorem lhs_dense_1 (i : S10240x128.Idx) (q : dot_S10240x128_S128x128_S10240x128_1_0_0_1_n_n.contr.Idx) :
    (dot_S10240x128_S128x128_S10240x128_1_0_0_1_n_n.lhsIdx i q 1).val = (q ⟨0, by decide⟩).val :=
  dot_S10240x128_S128x128_S10240x128_1_0_0_1_n_n.lhsIdx_val_of_single rfl i q
/-- The right operand is read at the contracted position on its first axis … -/
theorem rhs_dense_0 (i : S10240x128.Idx) (q : dot_S10240x128_S128x128_S10240x128_1_0_0_1_n_n.contr.Idx) :
    (dot_S10240x128_S128x128_S10240x128_1_0_0_1_n_n.rhsIdx i q 0).val = (q ⟨0, by decide⟩).val :=
  dot_S10240x128_S128x128_S10240x128_1_0_0_1_n_n.rhsIdx_val_of_single rfl i q
/-- … and at the result's column. -/
theorem rhs_dense_1 (i : S10240x128.Idx) (q : dot_S10240x128_S128x128_S10240x128_1_0_0_1_n_n.contr.Idx) :
    (dot_S10240x128_S128x128_S10240x128_1_0_0_1_n_n.rhsIdx i q 1).val = (i 1).val := by
  unfold DotDims.rhsIdx
  rw [dif_neg (show ¬(1 : Fin S128x128.rank) ∈ dot_S10240x128_S128x128_S10240x128_1_0_0_1_n_n.rhsBatch by decide), dif_pos (show (1 : Fin S128x128.rank) ∈ dot_S10240x128_S128x128_S10240x128_1_0_0_1_n_n.rhsNonContracting by decide)]
  rfl

/-- The product `X · W` at row `r`, column `f`: the sum over `k` of `X (r, k) · W (k, f)`. -/
theorem dot_dense_apply (X : FVec Ideal S10240x128 .f32) (W : FVec Ideal S128x128 .f32)
    (r : Fin 10240) (f : Fin 128) :
    Host.dotGeneral (F := Ideal) dot_S10240x128_S128x128_S10240x128_1_0_0_1_n_n none X W (ix2 r f)
      = ∑ k : Fin 128, X (ix2 r k) * W (ix2 k f) := by
  simp only [Host.dotGeneral]
  rw [Ideal.dotGeneral_apply, ← Equiv.sum_comp (ValueIdx.contrEquiv1 dot_S10240x128_S128x128_S10240x128_1_0_0_1_n_n 128 rfl rfl).symm]
  refine Finset.sum_congr rfl fun k _ => ?_
  have hk := ValueIdx.contrEquiv1_symm_val dot_S10240x128_S128x128_S10240x128_1_0_0_1_n_n 128 rfl rfl k
  have el : dot_S10240x128_S128x128_S10240x128_1_0_0_1_n_n.lhsIdx (ix2 r f) ((ValueIdx.contrEquiv1 dot_S10240x128_S128x128_S10240x128_1_0_0_1_n_n 128 rfl rfl).symm k) = ix2 r k := funext fun a => Fin.ext (by
    match a with
    | ⟨0, _⟩ => exact lhs_dense_0 _ _
    | ⟨1, _⟩ => exact (lhs_dense_1 _ _).trans hk)
  have er : dot_S10240x128_S128x128_S10240x128_1_0_0_1_n_n.rhsIdx (ix2 r f) ((ValueIdx.contrEquiv1 dot_S10240x128_S128x128_S10240x128_1_0_0_1_n_n 128 rfl rfl).symm k) = ix2 k f := funext fun a => Fin.ext (by
    match a with
    | ⟨0, _⟩ => exact (rhs_dense_0 _ _).trans hk
    | ⟨1, _⟩ => exact rhs_dense_1 _ _)
  rw [el, er]

/-- The bias spread over the table, at row `r`, column `f`: the bias at `f`. -/
theorem bias_dense_apply (b : FVec Ideal S128 .f32) (r : Fin 10240) (f : Fin 128) :
    broadcastInDim S10240x128 ![0, 1] bcast_S1x128_S10240x128_0_1 (broadcastInDim S1x128 ![1] bcast_S128_S1x128_1 b) (ix2 r f)
      = b (ix1 f) := by
  generalize hy : broadcastInDim S1x128 ![1] bcast_S128_S1x128_1 b = y
  rw [broadcastInDim_apply _ bcast_S1x128_S10240x128_0_1 y (ix2 r f) (ix2 (0 : Fin 1) f) (fun a => match a with
    | ⟨0, _⟩ => by show 0 = if (1 : Nat) = 1 then 0 else r.val; rw [if_pos rfl]
    | ⟨1, _⟩ => by show f.val = if (128 : Nat) = 1 then 0 else f.val; rw [if_neg (by decide)])]
  subst hy
  exact broadcastInDim_apply _ bcast_S128_S1x128_1 b (ix2 (0 : Fin 1) f) (ix1 f) (fun a => match a with
    | ⟨0, _⟩ => by show f.val = if (128 : Nat) = 1 then 0 else f.val; rw [if_neg (by decide)])

/-- The dense layer as the program writes it: product, plus the spread bias, narrowed. -/
def denseVal (X : FVec Ideal S10240x128 .f32) (W : FVec Ideal S128x128 .f32)
    (b : FVec Ideal S128 .f32) : FVec Ideal S10240x128 .bf16 :=
  truncf .bf16 (addf (Host.dotGeneral (F := Ideal) dot_S10240x128_S128x128_S10240x128_1_0_0_1_n_n none X W)
    (broadcastInDim S10240x128 ![0, 1] bcast_S1x128_S10240x128_0_1 (broadcastInDim S1x128 ![1] bcast_S128_S1x128_1 b))) bitsLt_bf16_f32

/-- The dense layer at row `r`, column `f`: `∑ k, X (r, k) · W (k, f) + b f`. -/
theorem denseVal_apply (X : FVec Ideal S10240x128 .f32) (W : FVec Ideal S128x128 .f32)
    (b : FVec Ideal S128 .f32) (r : Fin 10240) (f : Fin 128) :
    (denseVal X W b : S10240x128.Idx → EReal) (ix2 r f) = (∑ k : Fin 128, X (ix2 r k) * W (ix2 k f)) + b (ix1 f) := by
  show Host.dotGeneral (F := Ideal) dot_S10240x128_S128x128_S10240x128_1_0_0_1_n_n none X W (ix2 r f)
      + broadcastInDim S10240x128 ![0, 1] bcast_S1x128_S10240x128_0_1 (broadcastInDim S1x128 ![1] bcast_S128_S1x128_1 b) (ix2 r f) = _
  rw [dot_dense_apply, bias_dense_apply]

/-- A statement about the two axes of a rank-2 array holds once it holds on each. -/
theorem dense_forall_axis2 {P : Fin 2 → Prop} (h0 : P 0) (h1 : P 1) : ∀ a, P a := by
  intro a
  match a with
  | ⟨0, _⟩ => exact h0
  | ⟨1, _⟩ => exact h1

/-! ## The padded input

The padding writes the whole 10000 × 128 input as ONE window at the row offset held by a single index word, which is 0,
into a table of zeros: both axes of the update are window axes, so update `(s, k)` lands on `(0 + s, k)` and on
nothing else. -/

/-- With the offset word 0, update `(s, k)` lands on `(r, k')` exactly when `s = r` and `k = k'`. -/
theorem pad_resultIdx_iff (idx : IVec S1 32) (h0 : idx (ix1 (0 : Fin 1)) = 0#32)
    (s : Fin 10000) (k : Fin 128) (r : Fin 10240) (k' : Fin 128) :
    scatter_S10240x128_S1_S10000x128_01_n_0_0.resultIdx? (ix2 s k) idx = some (ix2 r k') ↔ s.val = r.val ∧ k = k' := by
  -- the index map names the first axis only: there the start is the offset word, on the second it is 0
  have hs0 : scatter_S10240x128_S1_S10000x128_01_n_0_0.start (ix2 s k) idx (0 : Fin 2) = 0 := by
    unfold ScatterDims.start
    rw [dif_pos (show (0 : Fin S10240x128.rank) ∈ scatter_S10240x128_S1_S10000x128_01_n_0_0.scatterDimsToOperandDims by decide)]
    have hsi : scatter_S10240x128_S1_S10000x128_01_n_0_0.siIdx (ix2 s k)
        ⟨List.idxOf (0 : Fin S10240x128.rank) scatter_S10240x128_S1_S10000x128_01_n_0_0.scatterDimsToOperandDims,
          List.idxOf_lt_length_iff.2 (show (0 : Fin S10240x128.rank) ∈ scatter_S10240x128_S1_S10000x128_01_n_0_0.scatterDimsToOperandDims by decide)⟩ = ix1 (0 : Fin 1) := by
      funext c; refine Fin.ext ?_
      match c with
      | ⟨0, _⟩ => rfl
    rw [hsi, h0]; rfl
  have hs1 : scatter_S10240x128_S1_S10000x128_01_n_0_0.start (ix2 s k) idx (1 : Fin 2) = 0 := by
    unfold ScatterDims.start
    rw [dif_neg (show ¬ (1 : Fin S10240x128.rank) ∈ scatter_S10240x128_S1_S10000x128_01_n_0_0.scatterDimsToOperandDims by decide)]
  -- both axes are window axes: the window coordinate is the update's own coordinate
  have hw0 : scatter_S10240x128_S1_S10000x128_01_n_0_0.window (ix2 s k) (0 : Fin 2) = s.val := by
    unfold ScatterDims.window
    rw [dif_pos (show (0 : Fin S10240x128.rank) ∈ scatter_S10240x128_S1_S10000x128_01_n_0_0.sKept by decide)]
    rfl
  have hw1 : scatter_S10240x128_S1_S10000x128_01_n_0_0.window (ix2 s k) (1 : Fin 2) = k.val := by
    unfold ScatterDims.window
    rw [dif_pos (show (1 : Fin S10240x128.rank) ∈ scatter_S10240x128_S1_S10000x128_01_n_0_0.sKept by decide)]
    rfl
  have hz0 : S10240x128.size (0 : Fin 2) = 10240 := rfl
  have hz1 : S10240x128.size (1 : Fin 2) = 128 := rfl
  have hs := s.isLt
  have hk := k.isLt
  unfold ScatterDims.resultIdx?
  constructor
  · intro h
    split at h
    · have hf := Option.some.inj h
      have e0 := congrArg Fin.val (congrFun hf (0 : Fin 2))
      have e1 := congrArg Fin.val (congrFun hf (1 : Fin 2))
      change (scatter_S10240x128_S1_S10000x128_01_n_0_0.start (ix2 s k) idx 0 + (scatter_S10240x128_S1_S10000x128_01_n_0_0.window (ix2 s k) 0 : Nat)).toNat = r.val at e0
      change (scatter_S10240x128_S1_S10000x128_01_n_0_0.start (ix2 s k) idx 1 + (scatter_S10240x128_S1_S10000x128_01_n_0_0.window (ix2 s k) 1 : Nat)).toNat = k'.val at e1
      rw [hs0, hw0] at e0
      rw [hs1, hw1] at e1
      exact ⟨by omega, Fin.ext (by omega)⟩
    · exact absurd h (by simp)
  · rintro ⟨hv, rfl⟩
    have hin : ∀ a, 0 ≤ scatter_S10240x128_S1_S10000x128_01_n_0_0.start (ix2 s k) idx a + (scatter_S10240x128_S1_S10000x128_01_n_0_0.window (ix2 s k) a : Nat)
        ∧ scatter_S10240x128_S1_S10000x128_01_n_0_0.start (ix2 s k) idx a + (scatter_S10240x128_S1_S10000x128_01_n_0_0.window (ix2 s k) a : Nat) < (S10240x128.size a : Nat) := by
      refine dense_forall_axis2 ?_ ?_
      · rw [hs0, hw0, hz0]; omega
      · rw [hs1, hw1, hz1]; omega
    rw [dif_pos hin]
    congr 1
    funext a
    refine Fin.ext ?_
    revert a
    refine dense_forall_axis2 ?_ ?_
    · show (scatter_S10240x128_S1_S10000x128_01_n_0_0.start (ix2 s k) idx 0 + (scatter_S10240x128_S1_S10000x128_01_n_0_0.window (ix2 s k) 0 : Nat)).toNat = r.val
      rw [hs0, hw0]; omega
    · show (scatter_S10240x128_S1_S10000x128_01_n_0_0.start (ix2 s k) idx 1 + (scatter_S10240x128_S1_S10000x128_01_n_0_0.window (ix2 s k) 1 : Nat)).toNat = k.val
      rw [hs1, hw1]; omega

/-- The input padded with zero rows: the 10000 × 128 input written at row offset 0 into a 10240 × 128 table of zeros. -/
def padded (x : FVec Ideal S10000x128 .f32) : FVec Ideal S10240x128 .f32 :=
  Host.scatter scatter_S10240x128_S1_S10000x128_01_n_0_0 (fun _ b => b)
    (broadcastInDim S10240x128 ![] bcast_S_S10240x128 (constant (F := Ideal) S_ .f32 0x00000000#32))
    (broadcastInDim S1 ![] bcast_S_S1 (constantI S_ 32 0#32)) x

/-- A row of the padded table below 10000 is the input's row. -/
theorem padded_apply (x : FVec Ideal S10000x128 .f32) (s : Fin 10000) (k : Fin 128) :
    padded x (ix2 ⟨s.val, by omega⟩ k) = x (ix2 s k) := by
  have h0 : (broadcastInDim S1 ![] bcast_S_S1 (constantI S_ 32 0#32) : IVec S1 32) (ix1 (0 : Fin 1)) = 0#32 := rfl
  unfold padded
  refine Cert.Lib.scatter_set_hit _ _ _ x (ix2 ⟨s.val, by omega⟩ k) (ix2 s k) ?_ ?_
  · exact (pad_resultIdx_iff _ h0 s k ⟨s.val, by omega⟩ k).mpr ⟨rfl, rfl⟩
  · intro n' hn'
    rw [eq_ix2 n'] at hn' ⊢
    obtain ⟨e0, e1⟩ := (pad_resultIdx_iff _ h0 (n' 0) (n' 1) ⟨s.val, by omega⟩ k).mp hn'
    have : n' 0 = s := Fin.ext e0
    rw [this, e1]
    rfl

variable (m : (ℓ : Loc nD τ sig) → Buf (Elt Ideal) ℓ) (ρ : Dev nD → PrngReg)

set_option maxHeartbeats 8000000 in
/-- What the first dense layer's buffer holds when the first propagation is entered. -/
theorem W1_v52 (c : Dev nD) :
    W1 m ρ c (Proc.devRef .tc main_v52)
      = denseVal (padded (m ((c : Thread nD τ).loc main_arg0))) (m ((c : Thread nD τ).loc main_arg2)) (m ((c : Thread nD τ).loc main_arg3)) := by
  show StableHlo.after hostOps0 _ (Proc.devRef .tc main_v52) = _
  after_results_simp <;> rfl

/-- What the second dense layer's buffer holds when the second propagation is entered. -/
theorem W3_v58 (c : Dev nD) :
    W3 m ρ c (Proc.devRef .tc main_v58)
      = denseVal (W2 m ρ c (Proc.devRef .tc main_v53)) (W2 m ρ c (Proc.devRef .tc main_arg4)) (W2 m ρ c (Proc.devRef .tc main_arg5)) := by
  show StableHlo.after hostOps1 _ (Proc.devRef .tc main_v58) = _
  after_results; rfl

set_option maxHeartbeats 8000000 in
/-- No host operation before the first propagation writes the second layer's weight: it is as launched. -/
theorem W1_arg4 (c : Dev nD) : W1 m ρ c (Proc.devRef .tc main_arg4) = m ((c : Thread nD τ).loc main_arg4) := by
  show StableHlo.after hostOps0 _ (Proc.devRef .tc main_arg4) = _
  after_results_simp <;> rfl

set_option maxHeartbeats 8000000 in
/-- Nor the second layer's bias. -/
theorem W1_arg5 (c : Dev nD) : W1 m ρ c (Proc.devRef .tc main_arg5) = m ((c : Thread nD τ).loc main_arg5) := by
  show StableHlo.after hostOps0 _ (Proc.devRef .tc main_arg5) = _
  after_results_simp <;> rfl

/-- The first propagation writes neither: they are no array of its windows. -/
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)

/-- THE FIRST DENSE LAYER at row `s < 10000`, column `f`: the input's row through `W1`, plus the bias. -/
theorem y0_apply (c : Dev nD) (s : Fin 10000) (f : Fin 128) :
    (W1 m ρ c (Proc.devRef .tc main_v52) : S10240x128.Idx → EReal) (ix2 ⟨s.val, by omega⟩ f)
      = Cert.Spec.lin (fun r k => (m ((c : Thread nD τ).loc main_arg0) : S10000x128.Idx → EReal) (ix2 r k))
          (m ((c : Thread nD τ).loc main_arg2)) (m ((c : Thread nD τ).loc main_arg3)) s f := by
  rw [W1_v52 m ρ c, denseVal_apply]
  simp only [padded_apply]
  rfl

/-- THE SECOND DENSE LAYER at row `s < 10000`, column `f`: the first propagation's row through `W2`, plus the bias. -/
theorem y1_apply (c : Dev nD) (s : Fin 10000) (f : Fin 128) :
    (W3 m ρ c (Proc.devRef .tc main_v58) : S10240x128.Idx → EReal) (ix2 ⟨s.val, by omega⟩ f)
      = Cert.Spec.lin (fun r k => (W2 m ρ c (Proc.devRef .tc main_v53) : S10240x128.Idx → EReal) (ix2 ⟨r.val, by omega⟩ k))
          (m ((c : Thread nD τ).loc main_arg4)) (m ((c : Thread nD τ).loc main_arg5)) s f := by
  rw [W3_v58 m ρ c, denseVal_apply, W2_arg4 m ρ c, W2_arg5 m ρ c]
  rfl

/-- The adjacency's buffer is the same at both propagations' entries. -/
theorem W3_adj (c : Dev nD) :
    W3 m ρ c (Proc.devRef .tc main_v44) = W1 m ρ c (Proc.devRef .tc main_v44) := by
  -- no operation between the two propagations writes it
  have h1 : W3 m ρ c (Proc.devRef .tc main_v44) = W2 m ρ c (Proc.devRef .tc main_v44) := by
    show StableHlo.after hostOps1 _ (Proc.devRef .tc main_v44) = _
    after_results
  -- and the first propagation only reads it: an input window's array ends as it was entered
  rw [h1]
  exact (W2_arr m ρ c 0).trans (((dat0 (V1 m ρ) c).arrAt_in 0 rfl _).trans (A_eq0 (V1 m ρ) c 0))

end Cert.KernelIdeal.Hand

end
-- ==== Proof.KI.Host.lean ====
/-
  The kernel program's result at the ideal instance, index by index: the zero-padded input through the first dense
  layer, the first propagation (the region's result array), the second dense layer, the second propagation, the
  first 10000 rows, and the last stage — equal to the edge-form network on the first 10000 rows, because the padded
  rows meet only zero columns of the adjacency.
-/
import proofs.«404076_j36386962932143_1_alg».proof.Proof.KI.Adj
import proofs.«404076_j36386962932143_1_alg».proof.Proof.KI.Value0
import proofs.«404076_j36386962932143_1_alg».proof.Proof.KI.Value1
import proofs.«404076_j36386962932143_1_alg».proof.Proof.KI.Tail
import proofs.«404076_j36386962932143_1_alg».proof.Proof.KI.Dense
import proofs.«404076_j36386962932143_1_alg».proof.Proof.LibScatterSet

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

/-! ## The two propagations in matrix form

Each propagation's result array is what its grid's write-backs leave: at `(d, f)` the product of row `d` of the
adjacency with column `f` of the table the region was entered with, clipped below at zero. -/

/-- The first propagation's result at `(d, f)`, over the adjacency and the first dense layer's table. -/
theorem prop0_apply (c : Dev nD) (d : Fin 10240) (f : Fin 128) :
    (W2 m ρ c (Proc.devRef .tc main_v53) : S10240x128.Idx → EReal) (ix2 d f)
      = Cert.Spec.propK (W1 m ρ c (Proc.devRef .tc main_v44)) (W1 m ρ c (Proc.devRef .tc main_v52)) d f :=
  (congrFun (W2_arr m ρ c 2) (ix2 d f)).trans (arrAt_out0 (V1 m ρ) c d f)

/-- The second propagation's result at `(d, f)`, over the adjacency and the second dense layer's table. -/
theorem prop1_apply (c : Dev nD) (d : Fin 10240) (f : Fin 128) :
    (W4 m ρ c (Proc.devRef .tc main_v59) : S10240x128.Idx → EReal) (ix2 d f)
      = Cert.Spec.propK (W3 m ρ c (Proc.devRef .tc main_v44)) (W3 m ρ c (Proc.devRef .tc main_v58)) d f :=
  (congrFun (W4_arr m ρ c 2) (ix2 d f)).trans (arrAt_out1 (V3 m ρ) c d f)

/-! ## From the matrix form to the edge form, layer by layer

On the first 10000 rows the table a propagation is entered with is a dense layer of the layer before, and the
adjacency is the total edge weight between each pair of nodes; the law joining the two forms then gives the edge
form on those rows. -/

/-- The first layer: dense layer of the input, then one propagation step in edge form. -/
abbrev layer1 (c : Dev nD) : Fin 10000 → Fin 128 → EReal :=
  Cert.Spec.agg (kSrc m ρ c) (kDst m ρ c) (kNrm m ρ c)
    (Cert.Spec.lin (fun r k => (m ((c : Thread nD τ).loc main_arg0) : S10000x128.Idx → EReal) (ix2 r k))
      (m ((c : Thread nD τ).loc main_arg2)) (m ((c : Thread nD τ).loc main_arg3)))

/-- The second layer: dense layer of the first, then one propagation step in edge form. -/
abbrev layer2 (c : Dev nD) : Fin 10000 → Fin 128 → EReal :=
  Cert.Spec.agg (kSrc m ρ c) (kDst m ρ c) (kNrm m ρ c)
    (Cert.Spec.lin (layer1 m ρ c) (m ((c : Thread nD τ).loc main_arg4)) (m ((c : Thread nD τ).loc main_arg5)))

/-- The first propagation's result on row `d < 10000` is the first layer. -/
theorem prop0_rows (c : Dev nD) (hR : Cert.Spec.InRange (kSrc m ρ c) (kDst m ρ c)) (d : Fin 10000) (f : Fin 128) :
    (W2 m ρ c (Proc.devRef .tc main_v53) : S10240x128.Idx → EReal) (ix2 ⟨d.val, by omega⟩ f) = layer1 m ρ c d f :=
  (prop0_apply m ρ c ⟨d.val, by omega⟩ f).trans
    (Cert.Spec.propK_eq_agg (kSrc m ρ c) (kDst m ρ c) (kNrm m ρ c) hR (kNrm_nonneg m ρ c)
      (W1 m ρ c (Proc.devRef .tc main_v44)) (adj_apply m ρ c hR)
      (W1 m ρ c (Proc.devRef .tc main_v52)) _ (y0_apply m ρ c) d f)

/-- The second dense layer's table on row `s < 10000` is the dense layer of the first layer. -/
theorem y1_rows (c : Dev nD) (hR : Cert.Spec.InRange (kSrc m ρ c) (kDst m ρ c)) (s : Fin 10000) (f : Fin 128) :
    (W3 m ρ c (Proc.devRef .tc main_v58) : S10240x128.Idx → EReal) (ix2 ⟨s.val, by omega⟩ f)
      = Cert.Spec.lin (layer1 m ρ c) (m ((c : Thread nD τ).loc main_arg4)) (m ((c : Thread nD τ).loc main_arg5)) s f :=
  (y1_apply m ρ c s f).trans
    (congrArg (fun H : Fin 10000 → Fin 128 → EReal =>
        Cert.Spec.lin H (m ((c : Thread nD τ).loc main_arg4)) (m ((c : Thread nD τ).loc main_arg5)) s f)
      (funext fun r => funext fun k => prop0_rows m ρ c hR r k))

/-- The second propagation's result on row `d < 10000` is the second layer. -/
theorem prop1_rows (c : Dev nD) (hR : Cert.Spec.InRange (kSrc m ρ c) (kDst m ρ c)) (d : Fin 10000) (f : Fin 128) :
    (W4 m ρ c (Proc.devRef .tc main_v59) : S10240x128.Idx → EReal) (ix2 ⟨d.val, by omega⟩ f) = layer2 m ρ c d f :=
  (prop1_apply m ρ c ⟨d.val, by omega⟩ f).trans
    (Cert.Spec.propK_eq_agg (kSrc m ρ c) (kDst m ρ c) (kNrm m ρ c) hR (kNrm_nonneg m ρ c)
      (W3 m ρ c (Proc.devRef .tc main_v44))
      (fun d s => (congrFun (W3_adj m ρ c) (ix2 d s)).trans (adj_apply m ρ c hR d s))
      (W3 m ρ c (Proc.devRef .tc main_v58)) _ (y1_rows m ρ c hR) d f)

/-- THE KERNEL PROGRAM'S RESULT at row `r`, column `q`. -/
theorem kernel_result (c : Dev nD) (hR : Cert.Spec.InRange (kSrc m ρ c) (kDst m ρ c)) (r : Fin 10000) (q : Fin 40) :
    (W5 m ρ c (Proc.devRef .tc main_v72) : S10000x40.Idx → EReal) (ix2 r q)
      = Cert.Spec.model (m ((c : Thread nD τ).loc main_arg0)) (kSrc m ρ c) (kDst m ρ c) (kNrm m ρ c)
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) r q :=
  (tail_apply m ρ c r q).trans
    (congrArg (fun H : Fin 10000 → Fin 128 → EReal =>
        Cert.Spec.head H (m ((c : Thread nD τ).loc main_arg6)) (m ((c : Thread nD τ).loc main_arg7)) r q)
      (funext fun r' => funext fun k => prop1_rows m ρ c hR r' k))

end Cert.KernelIdeal.Hand

end
-- ==== Proof.RefStages.lean ====
/-
  The reference program's result at the ideal instance, index by index: each propagation is a gather of the source
  rows, their product with the edges' weights, and a scatter-add by destination — the edge-form network.
-/
import proofs.«404076_j36386962932143_1_alg».proof.Proof.Gen.ReferenceIdeal.Read
import proofs.«404076_j36386962932143_1_alg».proof.Proof.Spec
import proofs.«404076_j36386962932143_1_alg».proof.Proof.LibGatherScatter
import proofs.«404076_j36386962932143_1_alg».proof.Proof.LibIndexDims

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.ShloMosaic.ValueIdx
open Cert.Lib Cert.Spec
open scoped BigOperators

/-- The program's row gather is the gather of rows of a 10000 × 128 table at 650000 start words. -/
theorem gatherRec_eq : gather_S10000x128_S650000x1_S650000x128_1_0_n_n_0_1_1128
    = rowGatherDims 10000 128 650000 Facts₀.gather_S10000x128_S650000x1_S650000x128_1_0_n_n_0_1_1128_wf := rfl

/-- The program's row scatter is the scatter of 650000 rows into a 10000 × 128 table. -/
theorem scatterRec_eq : scatter_S10000x128_S650000x1_S650000x128_1_0_0_1
    = rowScatterDims 10000 128 650000 Facts₀.scatter_S10000x128_S650000x1_S650000x128_1_0_0_1_wf := rfl

/-- A word that is non-negative as a signed integer is not below zero, so the choice `w < 0 ? w + n : w` is `w`. -/
theorem select_nonneg (w n : BitVec 32) (h : 0 ≤ w.toInt) :
    Scalar.select (IntOp.cmpi .slt w 0#32) (IntOp.addi w n) w = w := by
  have hlt : w.slt 0#32 = false := by
    simp only [BitVec.slt, BitVec.toInt_zero]
    exact decide_eq_false (by omega)
  unfold Scalar.select
  rw [if_neg]
  unfold IntOp.cmpi
  show ¬ BitVec.ofBool (w.slt 0#32) = 1#1
  rw [hlt]
  decide

/-- ONE PROPAGATION STEP, over any table `Y`: gather the rows at the source words, multiply row `e` by edge `e`'s
    weight, scatter-add by the destination words into zeros, clip below at zero. At `(d, f)` the updates that land there
    are the pairs `(e, f)` with destination word `d`: the sum over them is the sum over the edges into `d`. -/
theorem layer_apply
    (Y z rz : FVec Ideal S10000x128 .f32) (gi si : IVec S650000x1 32) (nb : FVec Ideal S650000x128 .f32)
    (srcW dstW : Words 650000) (nrm : Arr1 650000)
    (hgi : ∀ e : Fin 650000, gi (ix2 e 0) = srcW (ix1 e))
    (hsi : ∀ e : Fin 650000, si (ix2 e 0) = dstW (ix1 e))
    (hnb : ∀ (e : Fin 650000) (f : Fin 128), nb (ix2 e f) = nrm (ix1 e))
    (hz : ∀ i, z i = 0) (hrz : ∀ i, rz i = 0) (d : Fin 10000) (f : Fin 128) :
    (maximumf (Host.scatterAdd scatter_S10000x128_S650000x1_S650000x128_1_0_0_1 z si
        (mulf (Host.gather gather_S10000x128_S650000x1_S650000x128_1_0_n_n_0_1_1128 Y gi) nb)) rz : FVec Ideal S10000x128 .f32) (ix2 d f)
      = agg srcW dstW nrm (fun r k => Y (ix2 r k)) d f := by
  rw [maximumf_apply, hrz]
  unfold Cert.Spec.agg
  refine congrArg (max · 0) ?_
  show FloatOps.hostScatterAdd _ .single z si _ (ix2 d f) = _
  rw [Ideal.hostScatterAdd_def]
  unfold Ideal.hostScatterAdd
  rw [hz]
  refine congrArg (0 + ·) ?_
  -- an update (e, o) lands on (d, f) exactly when edge e's destination word is d and o = f
  have key : ∀ (e : Fin 650000) (o : Fin 128),
      scatter_S10000x128_S650000x1_S650000x128_1_0_0_1.resultIdx? (ix2 e o) si = some (ix2 d f)
        ↔ (dstW (ix1 e)).toInt = (d.val : Int) ∧ o = f := by
    intro e o
    rw [scatterRec_eq, rowScatter_resultIdx_iff, hsi]
  symm
  refine Finset.sum_bij (fun e _ => (ix2 e f : S650000x128.Idx)) ?_ ?_ ?_ ?_
  · intro e he
    rw [Finset.mem_filter] at he ⊢
    exact ⟨Finset.mem_univ _, (key e f).mpr ⟨he.2, rfl⟩⟩
  · intro a _ b _ h
    exact congrFun h 0
  · intro j hj
    obtain ⟨e, o, rfl⟩ : ∃ (e : Fin 650000) (o : Fin 128), j = ix2 e o := ⟨j 0, j 1, eq_ix2 j⟩
    rw [Finset.mem_filter] at hj
    obtain ⟨he, rfl⟩ := (key e o).mp hj.2
    exact ⟨e, Finset.mem_filter.mpr ⟨Finset.mem_univ _, he⟩, rfl⟩
  · intro e he
    rw [mulf_apply, hnb, gatherRec_eq, gather_rows_apply (by decide), hgi]

/-- The first dense layer at row `r`, column `f`. -/
theorem lin1_apply (x0 : (⟨S10000x128, .f32⟩ : BufTy).Contents (Elt Ideal)) (x2 : (⟨S128x128, .f32⟩ : BufTy).Contents (Elt Ideal)) (x3 : (⟨S128, .f32⟩ : BufTy).Contents (Elt Ideal)) (r : Fin 10000) (f : Fin 128) :
    val_main_v32 (F := Ideal) x0 x2 x3 (ix2 r f) = lin (fun r k => x0 (ix2 r k)) x2 x3 r f := by
  have e1 : ∀ k : Fin 128, lidx_main_v29 (ix2 r f) k = ix2 r k := fun k => funext fun a => Fin.ext (by match a with | ⟨0, _⟩ => rfl | ⟨1, _⟩ => rfl)
  have e2 : ∀ k : Fin 128, ridx_main_v29 (ix2 r f) k = ix2 k f := fun k => funext fun a => Fin.ext (by match a with | ⟨0, _⟩ => rfl | ⟨1, _⟩ => rfl)
  have e3 : idx_main_v30 (idx_main_v31 (ix2 r f)) = ix1 f := funext fun a => Fin.ext (by match a with | ⟨0, _⟩ => rfl)
  rw [val_main_v32_apply, val_main_v29_apply, val_main_v31_apply, val_main_v30_apply, Ideal.addf_def, e3]
  simp only [e1, e2]
  rfl

/-- The second dense layer at row `r`, column `f`, over the first propagation's table. -/
theorem lin2_apply (x0 : (⟨S10000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (r : Fin 10000) (f : Fin 128) :
    val_main_v50 (F := Ideal) x0 x1 x2 x3 x4 x5 (ix2 r f)
      = lin (fun r k => val_main_v46 (F := Ideal) x0 x1 x2 x3 (ix2 r k)) x4 x5 r f := by
  have e1 : ∀ k : Fin 128, lidx_main_v47 (ix2 r f) k = ix2 r k := fun k => funext fun a => Fin.ext (by match a with | ⟨0, _⟩ => rfl | ⟨1, _⟩ => rfl)
  have e2 : ∀ k : Fin 128, ridx_main_v47 (ix2 r f) k = ix2 k f := fun k => funext fun a => Fin.ext (by match a with | ⟨0, _⟩ => rfl | ⟨1, _⟩ => rfl)
  have e3 : idx_main_v48 (idx_main_v49 (ix2 r f)) = ix1 f := funext fun a => Fin.ext (by match a with | ⟨0, _⟩ => rfl)
  rw [val_main_v50_apply, val_main_v47_apply, val_main_v49_apply, val_main_v48_apply, Ideal.addf_def, e3]
  simp only [e1, e2]
  rfl

/-- With a non-negative source word the wrap-around of negative indices does nothing: the first gather's start word
    of edge `e` is the source word. -/
theorem src1_apply (x1 : (⟨S2x640000, .i32⟩ : BufTy).Contents (Elt Ideal)) (hR : Cert.Spec.InRange (val_main_v5 (F := Ideal) x1) (val_main_v6 (F := Ideal) x1)) (e : Fin 650000) :
    val_main_v38 (F := Ideal) x1 (ix2 e 0) = val_main_v5 (F := Ideal) x1 (ix1 e) := by
  have e0 : idx_main_v38 (ix2 e 0) = ix1 e := funext fun a => Fin.ext (by match a with | ⟨0, _⟩ => rfl)
  rw [val_main_v38_apply, e0, val_main_v37_apply, val_main_v34_apply, val_main_v36_apply, val_main_v33_apply,
    val_main_v35_apply, val_main_c_5_apply, val_main_c_6_apply]
  exact select_nonneg _ _ (hR e).1.1

/-- The same for the second gather. -/
theorem src2_apply (x1 : (⟨S2x640000, .i32⟩ : BufTy).Contents (Elt Ideal)) (hR : Cert.Spec.InRange (val_main_v5 (F := Ideal) x1) (val_main_v6 (F := Ideal) x1)) (e : Fin 650000) :
    val_main_v56 (F := Ideal) x1 (ix2 e 0) = val_main_v5 (F := Ideal) x1 (ix1 e) := by
  have e0 : idx_main_v56 (ix2 e 0) = ix1 e := funext fun a => Fin.ext (by match a with | ⟨0, _⟩ => rfl)
  rw [val_main_v56_apply, e0, val_main_v55_apply, val_main_v52_apply, val_main_v54_apply, val_main_v51_apply,
    val_main_v53_apply, val_main_c_8_apply, val_main_c_9_apply]
  exact select_nonneg _ _ (hR e).1.1

/-- The scatters' index word of edge `e` is the destination word. -/
theorem dst1_apply (x1 : (⟨S2x640000, .i32⟩ : BufTy).Contents (Elt Ideal)) (e : Fin 650000) :
    val_main_v44 (F := Ideal) x1 (ix2 e 0) = val_main_v6 (F := Ideal) x1 (ix1 e) := by
  have e0 : idx_main_v44 (ix2 e 0) = ix1 e := funext fun a => Fin.ext (by match a with | ⟨0, _⟩ => rfl)
  rw [val_main_v44_apply, e0]

theorem dst2_apply (x1 : (⟨S2x640000, .i32⟩ : BufTy).Contents (Elt Ideal)) (e : Fin 650000) :
    val_main_v62 (F := Ideal) x1 (ix2 e 0) = val_main_v6 (F := Ideal) x1 (ix1 e) := by
  have e0 : idx_main_v62 (ix2 e 0) = ix1 e := funext fun a => Fin.ext (by match a with | ⟨0, _⟩ => rfl)
  rw [val_main_v62_apply, e0]

/-- The weight broadcast along the feature axis: at `(e, f)` it is edge `e`'s weight. -/
theorem nrm1_apply (x1 : (⟨S2x640000, .i32⟩ : BufTy).Contents (Elt Ideal)) (e : Fin 650000) (f : Fin 128) :
    val_main_v41 (F := Ideal) x1 (ix2 e f) = val_main_v28 (F := Ideal) x1 (ix1 e) := by
  have e0 : idx_main_v40 (idx_main_v41 (ix2 e f)) = ix1 e := funext fun a => Fin.ext (by match a with | ⟨0, _⟩ => rfl)
  rw [val_main_v41_apply, val_main_v40_apply, e0]

theorem nrm2_apply (x1 : (⟨S2x640000, .i32⟩ : BufTy).Contents (Elt Ideal)) (e : Fin 650000) (f : Fin 128) :
    val_main_v59 (F := Ideal) x1 (ix2 e f) = val_main_v28 (F := Ideal) x1 (ix1 e) := by
  have e0 : idx_main_v58 (idx_main_v59 (ix2 e f)) = ix1 e := funext fun a => Fin.ext (by match a with | ⟨0, _⟩ => rfl)
  rw [val_main_v59_apply, val_main_v58_apply, e0]

/-- The four constant tables of zeros. -/
theorem zero_v43 (i : S10000x128.Idx) : val_main_v43 (F := Ideal) i = 0 := by
  rw [val_main_v43_apply, val_main_cst_7_apply, Ideal.ofBits_def, Ideal.ofBits_zero_f32]

theorem zero_v61 (i : S10000x128.Idx) : val_main_v61 (F := Ideal) i = 0 := by
  rw [val_main_v61_apply, val_main_cst_10_apply, Ideal.ofBits_def, Ideal.ofBits_zero_f32]

theorem zero_call0 (i : S10000x128.Idx) : val_main_call0_v0 (F := Ideal) i = 0 := by
  rw [val_main_call0_v0_apply, val_main_call0_cst_apply, Ideal.ofBits_def, Ideal.ofBits_zero_f32]

theorem zero_call1 (i : S10000x128.Idx) : val_main_call1_v0 (F := Ideal) i = 0 := by
  rw [val_main_call1_v0_apply, val_main_call1_cst_apply, Ideal.ofBits_def, Ideal.ofBits_zero_f32]

/-- The first propagation: the edge form over the first dense layer. -/
theorem prop1_apply (x0 : (⟨S10000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (hR : Cert.Spec.InRange (val_main_v5 (F := Ideal) x1) (val_main_v6 (F := Ideal) x1)) (d : Fin 10000) (f : Fin 128) :
    val_main_v46 (F := Ideal) x0 x1 x2 x3 (ix2 d f)
      = agg (val_main_v5 (F := Ideal) x1) (val_main_v6 (F := Ideal) x1) (val_main_v28 (F := Ideal) x1)
          (lin (fun r k => x0 (ix2 r k)) x2 x3) d f := by
  unfold val_main_v46 val_main_v45 val_main_v42 val_main_v39
  refine (layer_apply (val_main_v32 (F := Ideal) x0 x2 x3) (val_main_v43 (F := Ideal)) (val_main_call0_v0 (F := Ideal))
    (val_main_v38 (F := Ideal) x1) (val_main_v44 (F := Ideal) x1) (val_main_v41 (F := Ideal) x1)
    (val_main_v5 (F := Ideal) x1) (val_main_v6 (F := Ideal) x1) (val_main_v28 (F := Ideal) x1)
    (src1_apply x1 hR) (dst1_apply x1) (nrm1_apply x1) zero_v43 zero_call0 d f).trans ?_
  refine congrArg (fun Y => agg _ _ _ Y d f) ?_
  funext r k
  exact lin1_apply x0 x2 x3 r k

/-- The second propagation: the edge form over the second dense layer of the first propagation. -/
theorem prop2_apply (x0 : (⟨S10000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (hR : Cert.Spec.InRange (val_main_v5 (F := Ideal) x1) (val_main_v6 (F := Ideal) x1)) (d : Fin 10000) (f : Fin 128) :
    val_main_v64 (F := Ideal) x0 x1 x2 x3 x4 x5 (ix2 d f)
      = agg (val_main_v5 (F := Ideal) x1) (val_main_v6 (F := Ideal) x1) (val_main_v28 (F := Ideal) x1)
          (lin (agg (val_main_v5 (F := Ideal) x1) (val_main_v6 (F := Ideal) x1) (val_main_v28 (F := Ideal) x1)
            (lin (fun r k => x0 (ix2 r k)) x2 x3)) x4 x5) d f := by
  unfold val_main_v64 val_main_v63 val_main_v60 val_main_v57
  refine (layer_apply (val_main_v50 (F := Ideal) x0 x1 x2 x3 x4 x5) (val_main_v61 (F := Ideal)) (val_main_call1_v0 (F := Ideal))
    (val_main_v56 (F := Ideal) x1) (val_main_v62 (F := Ideal) x1) (val_main_v59 (F := Ideal) x1)
    (val_main_v5 (F := Ideal) x1) (val_main_v6 (F := Ideal) x1) (val_main_v28 (F := Ideal) x1)
    (src2_apply x1 hR) (dst2_apply x1) (nrm2_apply x1) zero_v61 zero_call1 d f).trans ?_
  refine congrArg (fun Y => agg _ _ _ Y d f) ?_
  funext r k
  refine (lin2_apply x0 x1 x2 x3 x4 x5 r k).trans ?_
  refine congrArg (fun H => lin H x4 x5 r k) ?_
  funext r' k'
  exact prop1_apply x0 x1 x2 x3 hR r' k'

/-- The last stage over the second propagation's table. -/
theorem head_apply (x0 : (⟨S10000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x40, .f32⟩ : BufTy).Contents (Elt Ideal)) (x7 : (⟨S40, .f32⟩ : BufTy).Contents (Elt Ideal)) (r : Fin 10000) (q : Fin 40) :
    val_main_v76 (F := Ideal) x0 x1 x2 x3 x4 x5 x6 x7 (ix2 r q)
      = head (fun r k => val_main_v64 (F := Ideal) x0 x1 x2 x3 x4 x5 (ix2 r k)) x6 x7 r q := by
  have e1 : ∀ k : Fin 128, lidx_main_v73 (ix2 r q) k = ix2 r k := fun k => funext fun a => Fin.ext (by match a with | ⟨0, _⟩ => rfl | ⟨1, _⟩ => rfl)
  have e2 : ∀ k : Fin 128, ridx_main_v73 (ix2 r q) k = ix2 k q := fun k => funext fun a => Fin.ext (by match a with | ⟨0, _⟩ => rfl | ⟨1, _⟩ => rfl)
  have e3 : idx_main_v74 (idx_main_v75 (ix2 r q)) = ix1 q := funext fun a => Fin.ext (by match a with | ⟨0, _⟩ => rfl)
  have e4 : ∀ k k' : Fin 128, idx_main_v66 (idx_main_v67 (idx_main_v71 (ix2 r k))) k' = ix2 r k' := fun k k' => funext fun a => Fin.ext (by match a with | ⟨0, _⟩ => rfl | ⟨1, _⟩ => rfl)
  rw [val_main_v76_apply, val_main_v73_apply, val_main_v75_apply, val_main_v74_apply, Ideal.addf_def, e3]
  unfold Cert.Spec.head
  refine congrArg (· + x7 (ix1 q)) (Finset.sum_congr rfl fun k _ => ?_)
  rw [e1, e2, val_main_v72_apply, val_main_v71_apply, val_main_v70_apply, val_main_v68_apply, val_main_v67_apply,
    val_main_v66_apply, val_main_v69_apply, val_main_cst_12_apply, val_main_cst_11_apply, Ideal.hostDivf_def,
    Ideal.maximumf_def, Ideal.hostUnary_sqrt_def]
  simp only [e4, val_main_v65_apply, Ideal.mulf_def, Ideal.ofBits_def, Ideal.ofBits_zero_f32]

/-- THE REFERENCE PROGRAM'S RESULT at row `r`, column `q`, with node numbers in range. -/
theorem ref_result (x0 : (⟨S10000x128, .f32⟩ : BufTy).Contents (Elt Ideal)) (x1 : (⟨S2x640000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x40, .f32⟩ : BufTy).Contents (Elt Ideal)) (x7 : (⟨S40, .f32⟩ : BufTy).Contents (Elt Ideal))
    (hR : Cert.Spec.InRange (val_main_v5 (F := Ideal) x1) (val_main_v6 (F := Ideal) x1)) (r : Fin 10000) (q : Fin 40) :
    val_main_v76 (F := Ideal) x0 x1 x2 x3 x4 x5 x6 x7 (ix2 r q)
      = Cert.Spec.model x0 (val_main_v5 (F := Ideal) x1) (val_main_v6 (F := Ideal) x1) (val_main_v28 (F := Ideal) x1)
          x2 x3 x4 x5 x6 x7 r q := by
  rw [head_apply]
  unfold Cert.Spec.model
  refine congrArg (fun H => head H x6 x7 r q) ?_
  funext r' k'
  exact prop2_apply x0 x1 x2 x3 x4 x5 hR r' k'

end Cert.ReferenceIdeal.Hand

end
-- ==== Proof.PreDecode.lean ====
/-
  What the precondition says of the edge list: every entry of the edge index array, read as a signed integer, is a
  node number (non-negative and below 10000); so is every self loop's number; hence both end words of every one of
  the 650000 edges are in range.
-/
import proofs.«404076_j36386962932143_1_alg».proof.Defs
import proofs.«404076_j36386962932143_1_alg».proof.Proof.Gen.Pre_finite_inputs
import proofs.«404076_j36386962932143_1_alg».proof.Proof.Gen.ReferenceIdeal.Read
import proofs.«404076_j36386962932143_1_alg».proof.Proof.Spec
import Idealize.ShloMosaic.Lib.StableHlo.Predicate
import Idealize.ShloMosaic.Lib.ReduceAll

set_option maxRecDepth 16384

noncomputable section

namespace Cert.Hand

open Idealize.ShloMosaic Idealize.ShloMosaic.TcCoe Idealize.ShloMosaic.ValueIdx

namespace PreDecode

/-- A rank-0 array has one index. -/
instance subsingleton_scalar_idx : Subsingleton Cert.Pre_finite_inputs.S_.Idx :=
  ⟨fun a b => funext fun d => d.elim0⟩

open Cert.Pre_finite_inputs in
/-- The printed predicate is a conjunction whose last conjunct is the conjunction, over the whole edge index array, of
    `0 ≤ w` and `w < 10000` (signed comparisons against the two constants spread over the array). When the predicate is
    the true word, so is that last conjunct; a conjunction over an array that is true is true at every entry; and a
    signed comparison that is true orders the signed values. So every word `w` of the array has `0 ≤ w < 10000`. -/
theorem word_of_fn {F : FTy → Type} [FloatOps F]
    (a0 : FVec F S10000x128 .f32) (x1 : IVec S2x640000 32) (a2 : FVec F S128x128 .f32) (a3 : FVec F S128 .f32)
    (a4 : FVec F S128x128 .f32) (a5 : FVec F S128 .f32) (a6 : FVec F S128x40 .f32) (a7 : FVec F S40 .f32)
    (h : Cert.Pre_finite_inputs.fn (F := F) a0 x1 a2 a3 a4 a5 a6 a7 = fun _ => 1#1) (i : S2x640000.Idx) :
    0 ≤ (x1 i).toInt ∧ (x1 i).toInt < 10000 := by
  have e := congrFun h ValueIdx.ix0
  dsimp only [Cert.Pre_finite_inputs.fn, Cert.Pre_finite_inputs.fn_part1, Cert.Pre_finite_inputs.fn_part2] at e
  -- the last conjunct, then its entry at `i`, then that entry's two comparisons
  have e2 := (IntOp.andi_eq_one.1 e).2
  have e3 := Host.reduce_andi_all _ _ _ _ _ e2 i
  obtain ⟨hge, hlt⟩ := IntOp.andi_eq_one.1 e3
  have h0 : (0#32 : BitVec 32).toInt ≤ (x1 i).toInt := IntOp.cmpi_sge.1 hge
  have h1 : (x1 i).toInt < (10000#32 : BitVec 32).toInt := IntOp.cmpi_slt.1 hlt
  have z0 : (0#32 : BitVec 32).toInt = 0 := by decide
  have z1 : (10000#32 : BitVec 32).toInt = 10000 := by decide
  rw [z0] at h0; rw [z1] at h1
  exact ⟨h0, h1⟩

open Cert.ReferenceIdeal in
/-- A vector of 640000 words in range followed by the numbers 0, 1, …, 9999 is a vector of 650000 words in range:
    position `e < 640000` holds the first vector's word at `e`, and position `e ≥ 640000` holds the number
    `e − 640000 < 10000`, a 32-bit word whose signed value is that number. -/
theorem concat_inRange (x₁ : S640000.Idx → BitVec 32)
    (h : Shape.Concatenates [S640000, S10000] S650000 0)
    (hx : ∀ i, 0 ≤ (x₁ i).toInt ∧ (x₁ i).toInt < 10000) (e : Fin 650000) :
    0 ≤ (concatenate S650000 0 [⟨S640000, x₁⟩, ⟨S10000, iotaInDim S10000 32 0⟩] h (ix1 e)).toInt ∧
      (concatenate S650000 0 [⟨S640000, x₁⟩, ⟨S10000, iotaInDim S10000 32 0⟩] h (ix1 e)).toInt < 10000 := by
  by_cases he : e.val < 640000
  · rw [concatenate_pair_apply_left (0 : Fin S650000.rank) x₁ (iotaInDim S10000 32 0) h (ix1 e) rfl (ix1 ⟨e.val, he⟩)
      (fun b => by match b with | ⟨0, _⟩ => rfl)]
    exact hx _
  · have he' : e.val - 640000 < 10000 := by have := e.isLt; omega
    rw [concatenate_pair_apply_right (0 : Fin S650000.rank) x₁ (iotaInDim S10000 32 0) h (ix1 e) rfl rfl
      (ix1 ⟨e.val - 640000, he'⟩)
      (fun b hb => absurd (Subsingleton.elim _ _) hb)
      (by show (e.val - 640000) + 640000 = e.val; omega)]
    show 0 ≤ (BitVec.ofNat 32 (e.val - 640000)).toInt ∧ (BitVec.ofNat 32 (e.val - 640000)).toInt < 10000
    rw [StableHlo.Predicate.toInt_ofNat_small _ (by omega)]
    omega

end PreDecode

/-- Under the precondition, both end words of every edge (the edge list's and the self loops') are node numbers. -/
theorem inRange_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Spec.InRange
      (Cert.ReferenceIdeal.Read.val_main_v5 (F := Ideal) (m ((c.tc : Thread Cert.KernelIdeal.nD Cert.KernelIdeal.τ).loc Cert.KernelIdeal.main_arg1)))
      (Cert.ReferenceIdeal.Read.val_main_v6 (F := Ideal) (m ((c.tc : Thread Cert.KernelIdeal.nD Cert.KernelIdeal.τ).loc Cert.KernelIdeal.main_arg1))) := by
  -- every word of the edge index array is a node number
  have hw := PreDecode.word_of_fn _ _ _ _ _ _ _ _ (hpre c)
  intro e
  refine ⟨?_, ?_⟩
  · -- the source words: row 0 of the array, then the self loops' numbers
    unfold Cert.ReferenceIdeal.Read.val_main_v5
    refine PreDecode.concat_inRange _ _ (fun i => ?_) e
    rw [Cert.ReferenceIdeal.Read.val_main_v1_apply, Cert.ReferenceIdeal.Read.val_main_v0_apply]
    exact hw _
  · -- the destination words: row 1 of the array, then the self loops' numbers
    unfold Cert.ReferenceIdeal.Read.val_main_v6
    refine PreDecode.concat_inRange _ _ (fun i => ?_) e
    rw [Cert.ReferenceIdeal.Read.val_main_v3_apply, Cert.ReferenceIdeal.Read.val_main_v2_apply]
    exact hw _

end Cert.Hand

end
-- ==== Proof.Cross.lean ====
/-
  The two programs compute the edge vectors and the weights by the same operations of the edge index array: what
  the kernel program's host prefix leaves in those three buffers is the reference's stage of the same argument.
-/
import proofs.«404076_j36386962932143_1_alg».proof.Proof.KI.Adj
import proofs.«404076_j36386962932143_1_alg».proof.Proof.Gen.ReferenceIdeal.Read
import Idealize.ShloMosaic.Lib.StableHlo.Run

set_option maxRecDepth 16384

noncomputable section

namespace Cert.Hand

open Idealize.ShloMosaic Idealize.ShloMosaic.TcCoe Idealize.SL.Sem Idealize.ShloMosaic.StableHlo
open Cert.KernelIdeal Cert.KernelIdeal.Gen Cert.KernelIdeal.Hand

variable (m : (ℓ : Loc nD τ sig) → Buf (Elt Ideal) ℓ) (ρ : Dev nD → PrngReg)

/-- The source words are the reference's. -/
theorem kSrc_eq (c : Dev nD) :
    kSrc m ρ c = Cert.ReferenceIdeal.Read.val_main_v5 (F := Ideal) (m ((c : Thread nD τ).loc main_arg1)) := by
  unfold kSrc
  show StableHlo.after hostOps0 _ (Proc.devRef .tc main_v5) = _
  after_results
  rfl

/-- The destination words are the reference's. -/
theorem kDst_eq (c : Dev nD) :
    kDst m ρ c = Cert.ReferenceIdeal.Read.val_main_v6 (F := Ideal) (m ((c : Thread nD τ).loc main_arg1)) := by
  unfold kDst
  show StableHlo.after hostOps0 _ (Proc.devRef .tc main_v6) = _
  after_results
  rfl

set_option maxHeartbeats 8000000 in
/-- The weights are the reference's. -/
theorem kNrm_eq (c : Dev nD) :
    kNrm m ρ c = Cert.ReferenceIdeal.Read.val_main_v28 (F := Ideal) (m ((c : Thread nD τ).loc main_arg1)) := by
  unfold kNrm
  show StableHlo.after hostOps0 _ (Proc.devRef .tc main_v28) = _
  after_results_simp <;> rfl

end Cert.Hand

end
-- ==== Proof.lean ====
/-
  The certificate's claim. The two kernel programs' frames are the run over the five segments of @main (host
  operations, the first propagation, host operations, the second propagation, host operations), no argument buffer
  being written; the reference's frame is its generated run. The idealization rewrote nothing. Over the extended
  reals, under the precondition (finite floats; every edge index a node number), the kernel program's result —
  the dense adjacency times the padded tables, twice — and the reference's — gathers and scatter-adds along the
  edges — are the same function of the arguments, index by index (`Cert.Spec.model`).
-/
import proofs.«404076_j36386962932143_1_alg».proof.Defs
import proofs.«404076_j36386962932143_1_alg».proof.Proof.Gen.Kernel
import proofs.«404076_j36386962932143_1_alg».proof.Proof.Gen.KernelIdeal
import proofs.«404076_j36386962932143_1_alg».proof.Proof.Gen.ReferenceIdeal
import proofs.«404076_j36386962932143_1_alg».proof.Proof.Gen.Pre_finite_inputs
import proofs.«404076_j36386962932143_1_alg».proof.Proof.Gen.ReferenceIdeal.Run
import proofs.«404076_j36386962932143_1_alg».proof.Proof.K.Run
import proofs.«404076_j36386962932143_1_alg».proof.Proof.KI.Run
import proofs.«404076_j36386962932143_1_alg».proof.Proof.KI.Host
import proofs.«404076_j36386962932143_1_alg».proof.Proof.RefStages
import proofs.«404076_j36386962932143_1_alg».proof.Proof.PreDecode
import proofs.«404076_j36386962932143_1_alg».proof.Proof.Cross
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The word-level kernel program runs to the end and leaves its arguments as launched. -/
theorem frame_k : Cert.frame_Kernel := fun m ρ _ =>
  (θ_run Cert.Kernel.defs _ _).mono (fun r h c =>
      ⟨(h c _ (by decide)).trans (Cert.Kernel.Hand.W5_main_arg0 m ρ c),
      (h c _ (by decide)).trans (Cert.Kernel.Hand.W5_main_arg1 m ρ c),
      (h c _ (by decide)).trans (Cert.Kernel.Hand.W5_main_arg2 m ρ c),
      (h c _ (by decide)).trans (Cert.Kernel.Hand.W5_main_arg3 m ρ c),
      (h c _ (by decide)).trans (Cert.Kernel.Hand.W5_main_arg4 m ρ c),
      (h c _ (by decide)).trans (Cert.Kernel.Hand.W5_main_arg5 m ρ c),
      (h c _ (by decide)).trans (Cert.Kernel.Hand.W5_main_arg6 m ρ c),
      (h c _ (by decide)).trans (Cert.Kernel.Hand.W5_main_arg7 m ρ c)⟩)
    (Cert.Kernel.Hand.run_main (F := Bits) m ρ)

/-- So does the idealized kernel program. -/
theorem frame_ki : Cert.frame_KernelIdeal := fun m ρ _ =>
  (θ_run Cert.KernelIdeal.defs _ _).mono (fun r h c =>
      ⟨(h c _ (by decide)).trans (Cert.KernelIdeal.Hand.W5_main_arg0 m ρ c),
      (h c _ (by decide)).trans (Cert.KernelIdeal.Hand.W5_main_arg1 m ρ c),
      (h c _ (by decide)).trans (Cert.KernelIdeal.Hand.W5_main_arg2 m ρ c),
      (h c _ (by decide)).trans (Cert.KernelIdeal.Hand.W5_main_arg3 m ρ c),
      (h c _ (by decide)).trans (Cert.KernelIdeal.Hand.W5_main_arg4 m ρ c),
      (h c _ (by decide)).trans (Cert.KernelIdeal.Hand.W5_main_arg5 m ρ c),
      (h c _ (by decide)).trans (Cert.KernelIdeal.Hand.W5_main_arg6 m ρ c),
      (h c _ (by decide)).trans (Cert.KernelIdeal.Hand.W5_main_arg7 m ρ c)⟩)
    (Cert.KernelIdeal.Hand.run_main (F := Ideal) m ρ)

/-- The reference runs to the end and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two programs' results are one array: both are the edge-form network of the arguments, row by row and
    column by column, the edge vectors and the weights being the same stages of the edge index array on both sides. -/
theorem result_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.res_main_v76 (F := Ideal) m' c
      = Cert.KernelIdeal.Hand.W5 m ρ c (Proc.devRef .tc Cert.KernelIdeal.main_v72) := by
  rw [Cert.ReferenceIdeal.Read.val_main_v76_eq, a0, a1, a2, a3, a4, a5, a6, a7]
  have hR := Cert.Hand.inRange_of_pre m hpre c
  have hR' : Cert.Spec.InRange (Cert.KernelIdeal.Hand.kSrc m ρ c) (Cert.KernelIdeal.Hand.kDst m ρ c) := by
    rw [Cert.Hand.kSrc_eq, Cert.Hand.kDst_eq]; exact hR
  show (_ : Cert.KernelIdeal.S10000x40.Idx → EReal) = (_ : Cert.KernelIdeal.S10000x40.Idx → EReal)
  funext i
  obtain ⟨r, q, rfl⟩ : ∃ (r : Fin 10000) (q : Fin 40), i = ix2 r q := ⟨i 0, i 1, eq_ix2 i⟩
  rw [Cert.ReferenceIdeal.Hand.ref_result _ _ _ _ _ _ _ _ hR r q]
  refine Eq.trans ?_ (Cert.KernelIdeal.Hand.kernel_result m ρ c hR' r q).symm
  rw [Cert.Hand.kSrc_eq, Cert.Hand.kDst_eq, Cert.Hand.kNrm_eq]

/-- The idealized kernel program and the reference, run from memories agreeing on the arguments, end with equal
    results and unchanged arguments. -/
theorem algebraic : Cert.algebraic_KernelIdeal_ReferenceIdeal := by
  intro m ρ m' ρ' hpre hagree
  refine ⟨fun c => Cert.KernelIdeal.Hand.W5 m ρ c (Proc.devRef .tc Cert.KernelIdeal.main_v72), ?_, ?_⟩
  · exact (θ_run Cert.KernelIdeal.defs _ _).mono (fun r h c =>
      ⟨h c _ (by decide),
      (h c _ (by decide)).trans (Cert.KernelIdeal.Hand.W5_main_arg0 m ρ c),
      (h c _ (by decide)).trans (Cert.KernelIdeal.Hand.W5_main_arg1 m ρ c),
      (h c _ (by decide)).trans (Cert.KernelIdeal.Hand.W5_main_arg2 m ρ c),
      (h c _ (by decide)).trans (Cert.KernelIdeal.Hand.W5_main_arg3 m ρ c),
      (h c _ (by decide)).trans (Cert.KernelIdeal.Hand.W5_main_arg4 m ρ c),
      (h c _ (by decide)).trans (Cert.KernelIdeal.Hand.W5_main_arg5 m ρ c),
      (h c _ (by decide)).trans (Cert.KernelIdeal.Hand.W5_main_arg6 m ρ c),
      (h c _ (by decide)).trans (Cert.KernelIdeal.Hand.W5_main_arg7 m ρ c)⟩)
      (Cert.KernelIdeal.Hand.run_main (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7⟩ := hagree c
    exact result_eq m ρ m' hpre c a0 a1 a2 a3 a4 a5 a6 a7

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
